-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S192x128 : Shape := ⟨2, ![192, 128]⟩
abbrev S128 : Shape := ⟨1, ![128]⟩
abbrev S128x128 : Shape := ⟨2, ![128, 128]⟩
abbrev S16x256x128 : Shape := ⟨3, ![16, 256, 128]⟩
abbrev S16x128 : Shape := ⟨2, ![16, 128]⟩
abbrev S16x128x128 : Shape := ⟨3, ![16, 128, 128]⟩
abbrev S16x25000 : Shape := ⟨2, ![16, 25000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x256x128 : S_.BroadcastsInDim S16x256x128 (![] : Fin 0 → Fin S16x256x128.rank)
  reducesTo_S16x256x128_S_d0_1_2 : S16x256x128.ReducesTo [0, 1, 2] S_
  bcast_S_S16x128 : S_.BroadcastsInDim S16x128 (![] : Fin 0 → Fin S16x128.rank)
  reducesTo_S16x128_S_d0_1 : S16x128.ReducesTo [0, 1] S_
  bcast_S_S16x128x128 : S_.BroadcastsInDim S16x128x128 (![] : Fin 0 → Fin S16x128x128.rank)
  reducesTo_S16x128x128_S_d0_1_2 : S16x128x128.ReducesTo [0, 1, 2] S_
  bcast_S_S16x25000 : S_.BroadcastsInDim S16x25000 (![] : Fin 0 → Fin S16x25000.rank)
  reducesTo_S16x25000_S_d0_1 : S16x25000.ReducesTo [0, 1] S_

variable [Facts]

def fn_part3 {F : FTy → Type} [FloatOps F] (main_arg11 : FVec F S16x128 .f32) (main_arg12 : IVec S16x25000 32) (main_arg13 : IVec S16x25000 32) (main_v48 : IVec S_ 1) (main_v49 : FVec F S16x128x128 .f32) (main_v50 : FVec F S16x128x128 .f32) : IVec S_ 1 :=
  let main_v51 : IVec S16x128x128 1 := cmpf .olt main_v49 main_v50
  let main_c_19 : IVec S_ 1 := constantI S_ 1 1#1
  let main_v52 : IVec S_ 1 := (fun x v => Host.reduce IntOp.andi x v reducesTo_S16x128x128_S_d0_1_2 h_S_) main_v51 main_c_19
  let main_v53 : IVec S_ 1 := andi main_v48 main_v52
  let main_v54 : FVec F S16x128 .f32 := Host.absf main_arg11
  let main_cst_20 : FVec F S_ .f32 := constant S_ .f32 0x7F800000#32
  let main_v55 : FVec F S16x128 .f32 := broadcastInDim S16x128 ![] bcast_S_S16x128 main_cst_20
  let main_v56 : IVec S16x128 1 := cmpf .olt main_v54 main_v55
  let main_c_21 : IVec S_ 1 := constantI S_ 1 1#1
  let main_v57 : IVec S_ 1 := (fun x v => Host.reduce IntOp.andi x v reducesTo_S16x128_S_d0_1 h_S_) main_v56 main_c_21
  let main_v58 : IVec S_ 1 := andi main_v53 main_v57
  let main_c_22 : IVec S_ 32 := constantI S_ 32 0#32
  let main_v59 : IVec S16x25000 32 := broadcastInDim S16x25000 ![] bcast_S_S16x25000 main_c_22
  let main_v60 : IVec S16x25000 1 := cmpi .sge main_arg12 main_v59
  let main_c_23 : IVec S_ 1 := constantI S_ 1 1#1
  let main_v61 : IVec S_ 1 := (fun x v => Host.reduce IntOp.andi x v reducesTo_S16x25000_S_d0_1 h_S_) main_v60 main_c_23
  let main_v62 : IVec S_ 1 := andi main_v58 main_v61
  let main_c_24 : IVec S_ 32 := constantI S_ 32 0#32
  let main_v63 : IVec S16x25000 32 := broadcastInDim S16x25000 ![] bcast_S_S16x25000 main_c_24
  let main_v64 : IVec S16x25000 1 := cmpi .sge main_arg13 main_v63
  let main_c_25 : IVec S_ 1 := constantI S_ 1 1#1
  let main_v65 : IVec S_ 1 := (fun x v => Host.reduce IntOp.andi x v reducesTo_S16x25000_S_d0_1 h_S_) main_v64 main_c_25
  let main_v66 : IVec S_ 1 := andi main_v62 main_v65
  main_v66

def fn_part2 {F : FTy → Type} [FloatOps F] (main_arg7 : FVec F S16x128 .f32) (main_arg8 : FVec F S16x128x128 .f32) (main_arg9 : FVec F S16x128 .f32) (main_arg10 : FVec F S16x128x128 .f32) (main_arg11 : FVec F S16x128 .f32) (main_arg12 : IVec S16x25000 32) (main_arg13 : IVec S16x25000 32) (main_v33 : IVec S_ 1) : IVec S_ 1 :=
  let main_v34 : FVec F S16x128 .f32 := Host.absf main_arg7
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16x128x128 .f32 := Host.absf main_arg8
  let main_cst_14 : FVec F S_ .f32 := constant S_ .f32 0x7F800000#32
  let main_v40 : FVec F S16x128x128 .f32 := broadcastInDim S16x128x128 ![] bcast_S_S16x128x128 main_cst_14
  let main_v41 : IVec S16x128x128 1 := cmpf .olt main_v39 main_v40
  let main_c_15 : IVec S_ 1 := constantI S_ 1 1#1
  let main_v42 : IVec S_ 1 := (fun x v => Host.reduce IntOp.andi x v reducesTo_S16x128x128_S_d0_1_2 h_S_) main_v41 main_c_15
  let main_v43 : IVec S_ 1 := andi main_v38 main_v42
  let main_v44 : FVec F S16x128 .f32 := Host.absf main_arg9
  let main_cst_16 : FVec F S_ .f32 := constant S_ .f32 0x7F800000#32
  let main_v45 : FVec F S16x128 .f32 := broadcastInDim S16x128 ![] bcast_S_S16x128 main_cst_16
  let main_v46 : IVec S16x128 1 := cmpf .olt main_v44 main_v45
  let main_c_17 : IVec S_ 1 := constantI S_ 1 1#1
  let main_v47 : IVec S_ 1 := (fun x v => Host.reduce IntOp.andi x v reducesTo_S16x128_S_d0_1 h_S_) main_v46 main_c_17
  let main_v48 : IVec S_ 1 := andi main_v43 main_v47
  let main_v49 : FVec F S16x128x128 .f32 := Host.absf main_arg10
  let main_cst_18 : FVec F S_ .f32 := constant S_ .f32 0x7F800000#32
  let main_v50 : FVec F S16x128x128 .f32 := broadcastInDim S16x128x128 ![] bcast_S_S16x128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S16x256x128 .f32) (main_arg7 : FVec F S16x128 .f32) (main_arg8 : FVec F S16x128x128 .f32) (main_arg9 : FVec F S16x128 .f32) (main_arg10 : FVec F S16x128x128 .f32) (main_arg11 : FVec F S16x128 .f32) (main_arg12 : IVec S16x25000 32) (main_arg13 : IVec S16x25000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16x256x128 .f32 := Host.absf main_arg6
  let main_cst_10 : FVec F S_ .f32 := constant S_ .f32 0x7F800000#32
  let main_v30 : FVec F S16x256x128 .f32 := broadcastInDim S16x256x128 ![] bcast_S_S16x256x128 main_cst_10
  let main_v31 : IVec S16x256x128 1 := cmpf .olt main_v29 main_v30
  let main_c_11 : IVec S_ 1 := constantI S_ 1 1#1
  let main_v32 : IVec S_ 1 := (fun x v => Host.reduce IntOp.andi x v reducesTo_S16x256x128_S_d0_1_2 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S100000x64 .f32) (main_arg2 : FVec F S192x128 .f32) (main_arg3 : FVec F S128 .f32) (main_arg4 : FVec F S128x128 .f32) (main_arg5 : FVec F S128 .f32) (main_arg6 : FVec F S16x256x128 .f32) (main_arg7 : FVec F S16x128 .f32) (main_arg8 : FVec F S16x128x128 .f32) (main_arg9 : FVec F S16x128 .f32) (main_arg10 : FVec F S16x128x128 .f32) (main_arg11 : FVec F S16x128 .f32) (main_arg12 : IVec S16x25000 32) (main_arg13 : IVec S16x25000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S100000x64 : Shape := ⟨2, ![100000, 64]⟩
abbrev S192x128 : Shape := ⟨2, ![192, 128]⟩
abbrev S128 : Shape := ⟨1, ![128]⟩
abbrev S128x128 : Shape := ⟨2, ![128, 128]⟩
abbrev S16x256x128 : Shape := ⟨3, ![16, 256, 128]⟩
abbrev S16x128 : Shape := ⟨2, ![16, 128]⟩
abbrev S16x128x128 : Shape := ⟨3, ![16, 128, 128]⟩
abbrev S16x25000 : Shape := ⟨2, ![16, 25000]⟩
abbrev S64x128 : Shape := ⟨2, ![64, 128]⟩
abbrev S400000 : Shape := ⟨1, ![400000]⟩
abbrev S1x128 : Shape := ⟨2, ![1, 128]⟩
abbrev S5000x128 : Shape := ⟨2, ![5000, 128]⟩
abbrev S5000x64 : Shape := ⟨2, ![5000, 64]⟩
abbrev S400000x1 : Shape := ⟨2, ![400000, 1]⟩
abbrev S400000x128 : Shape := ⟨2, ![400000, 128]⟩
abbrev S16x25000x128 : Shape := ⟨3, ![16, 25000, 128]⟩
abbrev S16x1x128 : Shape := ⟨3, ![16, 1, 128]⟩
abbrev S1x5000x128 : Shape := ⟨3, ![1, 5000, 128]⟩
abbrev S1x128x128 : Shape := ⟨3, ![1, 128, 128]⟩
abbrev S1x1x128 : Shape := ⟨3, ![1, 1, 128]⟩
abbrev S_ : Shape := ⟨0, ![]⟩
abbrev S5000 : Shape := ⟨1, ![5000]⟩
abbrev S5000x1 : Shape := ⟨2, ![5000, 1]⟩

abbrev nBuf : Space → Nat
  | .hbm => 101
  | .vmem => 74
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S16x256x128, .f32⟩
  | .hbm, ⟨7, _⟩ => ⟨S16x128, .f32⟩
  | .hbm, ⟨8, _⟩ => ⟨S16x128x128, .f32⟩
  | .hbm, ⟨9, _⟩ => ⟨S16x128, .f32⟩
  | .hbm, ⟨10, _⟩ => ⟨S16x128x128, .f32⟩
  | .hbm, ⟨11, _⟩ => ⟨S16x128, .f32⟩
  | .hbm, ⟨12, _⟩ => ⟨S16x25000, .i32⟩
  | .hbm, ⟨13, _⟩ => ⟨S16x25000, .i32⟩
  | .hbm, ⟨14, _⟩ => ⟨S128x128, .f32⟩
  | .hbm, ⟨15, _⟩ => ⟨S64x128, .f32⟩
  | .hbm, ⟨16, _⟩ => ⟨S16x128x128, .f32⟩
  | .hbm, ⟨17, _⟩ => ⟨S16x128x128, .f32⟩
  | .hbm, ⟨18, _⟩ => ⟨S100000x64, .bf16⟩
  | .hbm, ⟨19, _⟩ => ⟨S128x128, .bf16⟩
  | .hbm, ⟨20, _⟩ => ⟨S64x128, .bf16⟩
  | .hbm, ⟨21, _⟩ => ⟨S128x128, .bf16⟩
  | .hbm, ⟨22, _⟩ => ⟨S16x128x128, .bf16⟩
  | .hbm, ⟨23, _⟩ => ⟨S16x128x128, .bf16⟩
  | .hbm, ⟨24, _⟩ => ⟨S16x128x128, .bf16⟩
  | .hbm, ⟨25, _⟩ => ⟨S16x128x128, .bf16⟩
  | .hbm, ⟨26, _⟩ => ⟨S400000, .i32⟩
  | .hbm, ⟨27, _⟩ => ⟨S400000, .i32⟩
  | .hbm, ⟨28, _⟩ => ⟨S1x128, .f32⟩
  | .hbm, ⟨29, _⟩ => ⟨S1x128, .f32⟩
  | .hbm, ⟨30, _⟩ => ⟨S100000x128, .f32⟩
  | .hbm, ⟨31, _⟩ => ⟨S400000x1, .i32⟩
  | .hbm, ⟨32, _⟩ => ⟨S400000x128, .f32⟩
  | .hbm, ⟨33, _⟩ => ⟨S16x25000x128, .f32⟩
  | .hbm, ⟨34, _⟩ => ⟨S400000x1, .i32⟩
  | .hbm, ⟨35, _⟩ => ⟨S400000x128, .f32⟩
  | .hbm, ⟨36, _⟩ => ⟨S16x25000x128, .f32⟩
  | .hbm, ⟨37, _⟩ => ⟨S16x1x128, .f32⟩
  | .hbm, ⟨38, _⟩ => ⟨S16x1x128, .f32⟩
  | .hbm, ⟨39, _⟩ => ⟨S16x1x128, .f32⟩
  | .hbm, ⟨40, _⟩ => ⟨S16x25000x128, .f32⟩
  | .hbm, ⟨41, _⟩ => ⟨S16x25000x128, .f32⟩
  | .hbm, ⟨42, _⟩ => ⟨S_, .f32⟩
  | .hbm, ⟨43, _⟩ => ⟨S100000x128, .f32⟩
  | .hbm, ⟨44, _⟩ => ⟨S400000x128, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S100000x128, .f32⟩
  | .hbm, ⟨54, _⟩ => ⟨S400000x128, .f32⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S400000x1, .i32⟩
  | .hbm, ⟨68, _⟩ => ⟨S400000x128, .f32⟩
  | .hbm, ⟨69, _⟩ => ⟨S16x25000x128, .f32⟩
  | .hbm, ⟨70, _⟩ => ⟨S400000x1, .i32⟩
  | .hbm, ⟨71, _⟩ => ⟨S400000x128, .f32⟩
  | .hbm, ⟨72, _⟩ => ⟨S16x25000x128, .f32⟩
  | .hbm, ⟨73, _⟩ => ⟨S16x1x128, .f32⟩
  | .hbm, ⟨74, _⟩ => ⟨S16x1x128, .f32⟩
  | .hbm, ⟨75, _⟩ => ⟨S16x1x128, .f32⟩
  | .hbm, ⟨76, _⟩ => ⟨S16x25000x128, .f32⟩
  | .hbm, ⟨77, _⟩ => ⟨S16x25000x128, .f32⟩
  | .hbm, ⟨78, _⟩ => ⟨S_, .f32⟩
  | .hbm, ⟨79, _⟩ => ⟨S100000x128, .f32⟩
  | .hbm, ⟨80, _⟩ => ⟨S400000x128, .f32⟩
  | .hbm, ⟨81, _⟩ => ⟨S_, .i32⟩
  | .hbm, ⟨82, _⟩ => ⟨S400000, .i32⟩
  | .hbm, ⟨83, _⟩ => ⟨S400000, .i1⟩
  | .hbm, ⟨84, _⟩ => ⟨S_, .i32⟩
  | .hbm, ⟨85, _⟩ => ⟨S400000, .i32⟩
  | .hbm, ⟨86, _⟩ => ⟨S400000, .i32⟩
  | .hbm, ⟨87, _⟩ => ⟨S400000, .i32⟩
  | .hbm, ⟨88, _⟩ => ⟨S400000x1, .i32⟩
  | .hbm, ⟨89, _⟩ => ⟨S100000x128, .f32⟩
  | .hbm, ⟨90, _⟩ => ⟨S400000x128, .f32⟩
  | .hbm, ⟨91, _⟩ => ⟨S_, .i32⟩
  | .hbm, ⟨92, _⟩ => ⟨S400000, .i32⟩
  | .hbm, ⟨93, _⟩ => ⟨S400000, .i1⟩
  | .hbm, ⟨94, _⟩ => ⟨S_, .i32⟩
  | .hbm, ⟨95, _⟩ => ⟨S400000, .i32⟩
  | .hbm, ⟨96, _⟩ => ⟨S400000, .i32⟩
  | .hbm, ⟨97, _⟩ => ⟨S400000, .i32⟩
  | .hbm, ⟨98, _⟩ => ⟨S400000x1, .i32⟩
  | .hbm, ⟨99, _⟩ => ⟨S100000x128, .f32⟩
  | .hbm, ⟨100, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x64, .bf16⟩
  | .local _ .vmem, ⟨3, _⟩ => ⟨S5000x64, .bf16⟩
  | .local _ .vmem, ⟨4, _⟩ => ⟨S128x128, .bf16⟩
  | .local _ .vmem, ⟨5, _⟩ => ⟨S64x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x5000x128, .f32⟩
  | .local _ .vmem, ⟨12, _⟩ => ⟨S1x5000x128, .f32⟩
  | .local _ .vmem, ⟨13, _⟩ => ⟨S1x5000x128, .f32⟩
  | .local _ .vmem, ⟨14, _⟩ => ⟨S1x5000x128, .f32⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S1x128x128, .bf16⟩
  | .local _ .vmem, ⟨19, _⟩ => ⟨S1x1x128, .f32⟩
  | .local _ .vmem, ⟨20, _⟩ => ⟨S1x1x128, .f32⟩
  | .local _ .vmem, ⟨21, _⟩ => ⟨S1x128x128, .bf16⟩
  | .local _ .vmem, ⟨22, _⟩ => ⟨S1x128x128, .bf16⟩
  | .local _ .vmem, ⟨23, _⟩ => ⟨S1x1x128, .f32⟩
  | .local _ .vmem, ⟨24, _⟩ => ⟨S1x1x128, .f32⟩
  | .local _ .vmem, ⟨25, _⟩ => ⟨S1x128x128, .bf16⟩
  | .local _ .vmem, ⟨26, _⟩ => ⟨S1x128x128, .bf16⟩
  | .local _ .vmem, ⟨27, _⟩ => ⟨S1x1x128, .f32⟩
  | .local _ .vmem, ⟨28, _⟩ => ⟨S1x1x128, .f32⟩
  | .local _ .vmem, ⟨29, _⟩ => ⟨S1x5000x128, .f32⟩
  | .local _ .vmem, ⟨30, _⟩ => ⟨S1x5000x128, .f32⟩
  | .local _ .vmem, ⟨31, _⟩ => ⟨S1x5000x128, .f32⟩
  | .local _ .vmem, ⟨32, _⟩ => ⟨S1x5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x64, .bf16⟩
  | .local _ .vmem, ⟨38, _⟩ => ⟨S5000x64, .bf16⟩
  | .local _ .vmem, ⟨39, _⟩ => ⟨S128x128, .bf16⟩
  | .local _ .vmem, ⟨40, _⟩ => ⟨S64x128, .bf16⟩
  | .local _ .vmem, ⟨41, _⟩ => ⟨S1x128, .f32⟩
  | .local _ .vmem, ⟨42, _⟩ => ⟨S128x128, .bf16⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x5000x128, .f32⟩
  | .local _ .vmem, ⟨47, _⟩ => ⟨S1x5000x128, .f32⟩
  | .local _ .vmem, ⟨48, _⟩ => ⟨S1x5000x128, .f32⟩
  | .local _ .vmem, ⟨49, _⟩ => ⟨S1x5000x128, .f32⟩
  | .local _ .vmem, ⟨50, _⟩ => ⟨S1x128x128, .bf16⟩
  | .local _ .vmem, ⟨51, _⟩ => ⟨S1x128x128, .bf16⟩
  | .local _ .vmem, ⟨52, _⟩ => ⟨S1x128x128, .bf16⟩
  | .local _ .vmem, ⟨53, _⟩ => ⟨S1x128x128, .bf16⟩
  | .local _ .vmem, ⟨54, _⟩ => ⟨S1x1x128, .f32⟩
  | .local _ .vmem, ⟨55, _⟩ => ⟨S1x1x128, .f32⟩
  | .local _ .vmem, ⟨56, _⟩ => ⟨S1x128x128, .bf16⟩
  | .local _ .vmem, ⟨57, _⟩ => ⟨S1x128x128, .bf16⟩
  | .local _ .vmem, ⟨58, _⟩ => ⟨S1x1x128, .f32⟩
  | .local _ .vmem, ⟨59, _⟩ => ⟨S1x1x128, .f32⟩
  | .local _ .vmem, ⟨60, _⟩ => ⟨S1x128x128, .bf16⟩
  | .local _ .vmem, ⟨61, _⟩ => ⟨S1x128x128, .bf16⟩
  | .local _ .vmem, ⟨62, _⟩ => ⟨S1x1x128, .f32⟩
  | .local _ .vmem, ⟨63, _⟩ => ⟨S1x1x128, .f32⟩
  | .local _ .vmem, ⟨64, _⟩ => ⟨S1x5000x128, .f32⟩
  | .local _ .vmem, ⟨65, _⟩ => ⟨S1x5000x128, .f32⟩
  | .local _ .vmem, ⟨66, _⟩ => ⟨S1x5000x128, .f32⟩
  | .local _ .vmem, ⟨67, _⟩ => ⟨S1x5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_v27 : Ref sig .tc := ⟨.hbm, 46, rfl⟩
abbrev main_v28 : Ref sig .tc := ⟨.hbm, 47, rfl⟩
abbrev main_c_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_1 : Ref sig .tc := ⟨.hbm, 55, rfl⟩
abbrev main_v35 : Ref sig .tc := ⟨.hbm, 56, rfl⟩
abbrev main_v36 : Ref sig .tc := ⟨.hbm, 57, rfl⟩
abbrev main_c_2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call2_v0 : Ref sig .tc := ⟨.hbm, 67, rfl⟩
abbrev main_v45 : Ref sig .tc := ⟨.hbm, 68, rfl⟩
abbrev main_v46 : Ref sig .tc := ⟨.hbm, 69, rfl⟩
abbrev main_call3_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev main_cst_3 : Ref sig .tc := ⟨.hbm, 78, rfl⟩
abbrev main_v53 : Ref sig .tc := ⟨.hbm, 79, rfl⟩
abbrev main_v54 : Ref sig .tc := ⟨.hbm, 80, rfl⟩
abbrev main_c_4 : Ref sig .tc := ⟨.hbm, 81, rfl⟩
abbrev main_v55 : Ref sig .tc := ⟨.hbm, 82, rfl⟩
abbrev main_v56 : Ref sig .tc := ⟨.hbm, 83, rfl⟩
abbrev main_c_5 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_6 : Ref sig .tc := ⟨.hbm, 91, rfl⟩
abbrev main_v63 : Ref sig .tc := ⟨.hbm, 92, rfl⟩
abbrev main_v64 : Ref sig .tc := ⟨.hbm, 93, rfl⟩
abbrev main_c_7 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg8_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc3_stg2_0 : Ref sig .tc := ⟨.vmem, 50, rfl⟩
abbrev cc3_stg2_1 : Ref sig .tc := ⟨.vmem, 51, rfl⟩
abbrev cc3_stg3_0 : Ref sig .tc := ⟨.vmem, 52, rfl⟩
abbrev cc3_stg3_1 : Ref sig .tc := ⟨.vmem, 53, rfl⟩
abbrev cc3_stg4_0 : Ref sig .tc := ⟨.vmem, 54, rfl⟩
abbrev cc3_stg4_1 : Ref sig .tc := ⟨.vmem, 55, rfl⟩
abbrev cc3_stg5_0 : Ref sig .tc := ⟨.vmem, 56, rfl⟩
abbrev cc3_stg5_1 : Ref sig .tc := ⟨.vmem, 57, rfl⟩
abbrev cc3_stg6_0 : Ref sig .tc := ⟨.vmem, 58, rfl⟩
abbrev cc3_stg6_1 : Ref sig .tc := ⟨.vmem, 59, rfl⟩
abbrev cc3_stg7_0 : Ref sig .tc := ⟨.vmem, 60, rfl⟩
abbrev cc3_stg7_1 : Ref sig .tc := ⟨.vmem, 61, rfl⟩
abbrev cc3_stg8_0 : Ref sig .tc := ⟨.vmem, 62, rfl⟩
abbrev cc3_stg8_1 : Ref sig .tc := ⟨.vmem, 63, rfl⟩
abbrev cc3_stg9_0 : Ref sig .tc := ⟨.vmem, 64, rfl⟩
abbrev cc3_stg9_1 : Ref sig .tc := ⟨.vmem, 65, rfl⟩
abbrev cc3_stg10_0 : Ref sig .tc := ⟨.vmem, 66, rfl⟩
abbrev cc3_stg10_1 : Ref sig .tc := ⟨.vmem, 67, rfl⟩
abbrev cc4_stg0_0 : Ref sig .tc := ⟨.vmem, 68, rfl⟩
abbrev cc4_stg0_1 : Ref sig .tc := ⟨.vmem, 69, rfl⟩
abbrev cc4_stg1_0 : Ref sig .tc := ⟨.vmem, 70, rfl⟩
abbrev cc4_stg1_1 : Ref sig .tc := ⟨.vmem, 71, rfl⟩
abbrev cc4_stg2_0 : Ref sig .tc := ⟨.vmem, 72, rfl⟩
abbrev cc4_stg2_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem8_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem2_1 : DmaSem sig := 51
abbrev cc3_sem3_0 : DmaSem sig := 52
abbrev cc3_sem3_1 : DmaSem sig := 53
abbrev cc3_sem4_0 : DmaSem sig := 54
abbrev cc3_sem4_1 : DmaSem sig := 55
abbrev cc3_sem5_0 : DmaSem sig := 56
abbrev cc3_sem5_1 : DmaSem sig := 57
abbrev cc3_sem6_0 : DmaSem sig := 58
abbrev cc3_sem6_1 : DmaSem sig := 59
abbrev cc3_sem7_0 : DmaSem sig := 60
abbrev cc3_sem7_1 : DmaSem sig := 61
abbrev cc3_sem8_0 : DmaSem sig := 62
abbrev cc3_sem8_1 : DmaSem sig := 63
abbrev cc3_sem9_0 : DmaSem sig := 64
abbrev cc3_sem9_1 : DmaSem sig := 65
abbrev cc3_sem10_0 : DmaSem sig := 66
abbrev cc3_sem10_1 : DmaSem sig := 67
abbrev cc4_sem0_0 : DmaSem sig := 68
abbrev cc4_sem0_1 : DmaSem sig := 69
abbrev cc4_sem1_0 : DmaSem sig := 70
abbrev cc4_sem1_1 : DmaSem sig := 71
abbrev cc4_sem2_0 : DmaSem sig := 72
abbrev cc4_sem2_1 : DmaSem sig := 73

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 5], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x128x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x128x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![16, 5], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_10 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x128x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x128x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x1x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S1x128x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S1x1x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S1x5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1x5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S192x128_S128x128_0_0 : S192x128.Slices ![0, 0] S128x128
  slices_S192x128_S64x128_128_0 : S192x128.Slices ![128, 0] S64x128
  slices_S16x256x128_S16x128x128_0_0_0 : S16x256x128.Slices ![0, 0, 0] S16x128x128
  slices_S16x256x128_S16x128x128_0_128_0 : S16x256x128.Slices ![0, 128, 0] S16x128x128
  bitsLt_bf16_f32 : FTy.bits .bf16 < FTy.bits .f32
  shapeCasts_S16x25000_S400000 : S16x25000.ShapeCasts S400000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S400000_S400000x1_0 : S400000.BroadcastsInDim S400000x1 (![0] : Fin 1 → Fin S400000x1.rank)
  shapeCasts_S400000x128_S16x25000x128 : S400000x128.ShapeCasts S16x25000x128
  shapeCasts_S16x128_S16x1x128 : S16x128.ShapeCasts S16x1x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S5000x128_S1x5000x128 : S5000x128.ShapeCasts S1x5000x128
  bcast_S_S100000x128 : S_.BroadcastsInDim S100000x128 (![] : Fin 0 → Fin S100000x128.rank)
  shapeCasts_S16x25000x128_S400000x128 : S16x25000x128.ShapeCasts S400000x128
  bcast_S_S400000 : S_.BroadcastsInDim S400000 (![] : Fin 0 → Fin S400000.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .bf16 = 32 ∨ (Rect.block (s := S100000x64) S5000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5000x128.size a ≤ S16x25000x128.size a
  hwx1_0 : ∀ i : grid1.Coords, EltTy.bits .f32 = 32 ∨ (Rect.block (s := S16x25000x128) S1x5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x5000x128.size a ≤ S16x25000x128.size a
  hwx1_1 : ∀ i : grid1.Coords, EltTy.bits .f32 = 32 ∨ (Rect.block (s := S16x25000x128) S1x5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S16x128x128.size a
  hwx1_2 : ∀ i : grid1.Coords, EltTy.bits .bf16 = 32 ∨ (Rect.block (s := S16x128x128) S1x128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S16x128x128.size a
  hwx1_3 : ∀ i : grid1.Coords, EltTy.bits .bf16 = 32 ∨ (Rect.block (s := S16x128x128) S1x128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S16x1x128.size a
  hwx1_4 : ∀ i : grid1.Coords, EltTy.bits .f32 = 32 ∨ (Rect.block (s := S16x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x128.size a ≤ S16x128x128.size a
  hwx1_5 : ∀ i : grid1.Coords, EltTy.bits .bf16 = 32 ∨ (Rect.block (s := S16x128x128) S1x128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S16x1x128.size a
  hwx1_6 : ∀ i : grid1.Coords, EltTy.bits .f32 = 32 ∨ (Rect.block (s := S16x1x128) S1x1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x128.size a ≤ S16x128x128.size a
  hwx1_7 : ∀ i : grid1.Coords, EltTy.bits .bf16 = 32 ∨ (Rect.block (s := S16x128x128) S1x128x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S16x1x128.size a
  hwx1_8 : ∀ i : grid1.Coords, EltTy.bits .f32 = 32 ∨ (Rect.block (s := S16x1x128) S1x1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x5000x128.size a ≤ S16x25000x128.size a
  hwx1_9 : ∀ i : grid1.Coords, EltTy.bits .f32 = 32 ∨ (Rect.block (s := S16x25000x128) S1x5000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x5000x128.size a ≤ S16x25000x128.size a
  hwx1_10 : ∀ i : grid1.Coords, EltTy.bits .f32 = 32 ∨ (Rect.block (s := S16x25000x128) S1x5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .bf16 = 32 ∨ (Rect.block (s := S100000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .bf16 = 32 ∨ (Rect.block (s := S64x128) S64x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x5000x128.size a ≤ S16x25000x128.size a
  hwx3_0 : ∀ i : grid3.Coords, EltTy.bits .f32 = 32 ∨ (Rect.block (s := S16x25000x128) S1x5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x5000x128.size a ≤ S16x25000x128.size a
  hwx3_1 : ∀ i : grid3.Coords, EltTy.bits .f32 = 32 ∨ (Rect.block (s := S16x25000x128) S1x5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128x128.size a ≤ S16x128x128.size a
  hwx3_2 : ∀ i : grid3.Coords, EltTy.bits .bf16 = 32 ∨ (Rect.block (s := S16x128x128) S1x128x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x128x128.size a ≤ S16x128x128.size a
  hwx3_3 : ∀ i : grid3.Coords, EltTy.bits .bf16 = 32 ∨ (Rect.block (s := S16x128x128) S1x128x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x128.size a ≤ S16x1x128.size a
  hwx3_4 : ∀ i : grid3.Coords, EltTy.bits .f32 = 32 ∨ (Rect.block (s := S16x1x128) S1x1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x128x128.size a ≤ S16x128x128.size a
  hwx3_5 : ∀ i : grid3.Coords, EltTy.bits .bf16 = 32 ∨ (Rect.block (s := S16x128x128) S1x128x128.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x128.size a ≤ S16x1x128.size a
  hwx3_6 : ∀ i : grid3.Coords, EltTy.bits .f32 = 32 ∨ (Rect.block (s := S16x1x128) S1x1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x128x128.size a ≤ S16x128x128.size a
  hwx3_7 : ∀ i : grid3.Coords, EltTy.bits .bf16 = 32 ∨ (Rect.block (s := S16x128x128) S1x128x128.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x128.size a ≤ S16x1x128.size a
  hwx3_8 : ∀ i : grid3.Coords, EltTy.bits .f32 = 32 ∨ (Rect.block (s := S16x1x128) S1x1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x5000x128.size a ≤ S16x25000x128.size a
  hwx3_9 : ∀ i : grid3.Coords, EltTy.bits .f32 = 32 ∨ (Rect.block (s := S16x25000x128) S1x5000x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1x5000x128.size a ≤ S16x25000x128.size a
  hwx3_10 : ∀ i : grid3.Coords, EltTy.bits .f32 = 32 ∨ (Rect.block (s := S16x25000x128) S1x5000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v18) S1x5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x128x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x1x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v24_0) S1x5000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v24_1) S1x5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v16) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v46) S1x5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x128x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x128x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x1x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v10) S1x128x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v50) S1x1x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v11) S1x128x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v51) S1x1x128.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v52_0) S1x5000x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v52_1) S1x5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v44) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v70) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S192x128 : Shape := ⟨2, ![192, 128]⟩
abbrev S128 : Shape := ⟨1, ![128]⟩
abbrev S128x128 : Shape := ⟨2, ![128, 128]⟩
abbrev S16x256x128 : Shape := ⟨3, ![16, 256, 128]⟩
abbrev S16x128 : Shape := ⟨2, ![16, 128]⟩
abbrev S16x128x128 : Shape := ⟨3, ![16, 128, 128]⟩
abbrev S16x25000 : Shape := ⟨2, ![16, 25000]⟩
abbrev S100000x192 : Shape := ⟨2, ![100000, 192]⟩
abbrev S1x128 : Shape := ⟨2, ![1, 128]⟩
abbrev S_ : Shape := ⟨0, ![]⟩
abbrev S16x25000x1 : Shape := ⟨3, ![16, 25000, 1]⟩
abbrev S16x25000x128 : Shape := ⟨3, ![16, 25000, 128]⟩
abbrev S16x25000x256 : Shape := ⟨3, ![16, 25000, 256]⟩
abbrev S16x1x128 : Shape := ⟨3, ![16, 1, 128]⟩
abbrev S400000 : Shape := ⟨1, ![400000]⟩
abbrev S400000x128 : Shape := ⟨2, ![400000, 128]⟩
abbrev S400000x1 : Shape := ⟨2, ![400000, 1]⟩
abbrev S100000 : Shape := ⟨1, ![100000]⟩
abbrev S100000x1 : Shape := ⟨2, ![100000, 1]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S100000x64, .f32⟩
  | 2 => ⟨S192x128, .f32⟩
  | 3 => ⟨S128, .f32⟩
  | 4 => ⟨S128x128, .f32⟩
  | 5 => ⟨S128, .f32⟩
  | 6 => ⟨S16x256x128, .f32⟩
  | 7 => ⟨S16x128, .f32⟩
  | 8 => ⟨S16x128x128, .f32⟩
  | 9 => ⟨S16x128, .f32⟩
  | 10 => ⟨S16x128x128, .f32⟩
  | 11 => ⟨S16x128, .f32⟩
  | 12 => ⟨S16x25000, .i32⟩
  | 13 => ⟨S16x25000, .i32⟩
  | 14 => ⟨S100000x192, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .i32⟩
  | 27 => ⟨S16x25000, .i32⟩
  | 28 => ⟨S16x25000, .i1⟩
  | 29 => ⟨S_, .i32⟩
  | 30 => ⟨S16x25000, .i32⟩
  | 31 => ⟨S16x25000, .i32⟩
  | 32 => ⟨S16x25000, .i32⟩
  | 33 => ⟨S16x25000x1, .i32⟩
  | 34 => ⟨S16x25000x128, .f32⟩
  | 35 => ⟨S_, .i32⟩
  | 36 => ⟨S16x25000, .i32⟩
  | 37 => ⟨S16x25000, .i1⟩
  | 38 => ⟨S_, .i32⟩
  | 39 => ⟨S16x25000, .i32⟩
  | 40 => ⟨S16x25000, .i32⟩
  | 41 => ⟨S16x25000, .i32⟩
  | 42 => ⟨S16x25000x1, .i32⟩
  | 43 => ⟨S16x25000x128, .f32⟩
  | 44 => ⟨S16x25000x256, .f32⟩
  | 45 => ⟨S16x25000x128, .f32⟩
  | 46 => ⟨S16x1x128, .f32⟩
  | 47 => ⟨S16x25000x128, .f32⟩
  | 48 => ⟨S16x25000x128, .f32⟩
  | 49 => ⟨S_, .f32⟩
  | 50 => ⟨S16x25000x128, .f32⟩
  | 51 => ⟨S16x25000x128, .f32⟩
  | 52 => ⟨S16x25000x128, .f32⟩
  | 53 => ⟨S16x1x128, .f32⟩
  | 54 => ⟨S16x25000x128, .f32⟩
  | 55 => ⟨S16x25000x128, .f32⟩
  | 56 => ⟨S16x25000x128, .f32⟩
  | 57 => ⟨S16x1x128, .f32⟩
  | 58 => ⟨S16x25000x128, .f32⟩
  | 59 => ⟨S16x25000x128, .f32⟩
  | 60 => ⟨S_, .f32⟩
  | 61 => ⟨S100000x128, .f32⟩
  | 62 => ⟨S400000, .i32⟩
  | 63 => ⟨S400000x128, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S100000x128, .f32⟩
  | 73 => ⟨S400000, .i32⟩
  | 74 => ⟨S400000x128, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S100000x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S100000x192, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .i32⟩
  | 108 => ⟨S16x25000, .i32⟩
  | 109 => ⟨S16x25000, .i1⟩
  | 110 => ⟨S_, .i32⟩
  | 111 => ⟨S16x25000, .i32⟩
  | 112 => ⟨S16x25000, .i32⟩
  | 113 => ⟨S16x25000, .i32⟩
  | 114 => ⟨S16x25000x1, .i32⟩
  | 115 => ⟨S16x25000x128, .f32⟩
  | 116 => ⟨S_, .i32⟩
  | 117 => ⟨S16x25000, .i32⟩
  | 118 => ⟨S16x25000, .i1⟩
  | 119 => ⟨S_, .i32⟩
  | 120 => ⟨S16x25000, .i32⟩
  | 121 => ⟨S16x25000, .i32⟩
  | 122 => ⟨S16x25000, .i32⟩
  | 123 => ⟨S16x25000x1, .i32⟩
  | 124 => ⟨S16x25000x128, .f32⟩
  | 125 => ⟨S16x25000x256, .f32⟩
  | 126 => ⟨S16x25000x128, .f32⟩
  | 127 => ⟨S16x1x128, .f32⟩
  | _ => ⟨S100000x128, .f32⟩

abbrev hbmTy0_1 (i : Nat) : BufTy := match i % 128 with
  | 0 => ⟨S16x25000x128, .f32⟩
  | 1 => ⟨S16x25000x128, .f32⟩
  | 2 => ⟨S_, .f32⟩
  | 3 => ⟨S16x25000x128, .f32⟩
  | 4 => ⟨S16x25000x128, .f32⟩
  | 5 => ⟨S16x25000x128, .f32⟩
  | 6 => ⟨S16x1x128, .f32⟩
  | 7 => ⟨S16x25000x128, .f32⟩
  | 8 => ⟨S16x25000x128, .f32⟩
  | 9 => ⟨S16x25000x128, .f32⟩
  | 10 => ⟨S16x1x128, .f32⟩
  | 11 => ⟨S16x25000x128, .f32⟩
  | 12 => ⟨S16x25000x128, .f32⟩
  | 13 => ⟨S_, .f32⟩
  | 14 => ⟨S100000x128, .f32⟩
  | 15 => ⟨S400000, .i32⟩
  | 16 => ⟨S400000x128, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S100000x128, .f32⟩
  | 26 => ⟨S400000, .i32⟩
  | 27 => ⟨S400000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S100000x128, .f32⟩
  | 37 => ⟨S100000x128, .f32⟩
  | 38 => ⟨S100000x128, .f32⟩
  | 39 => ⟨S_, .f32⟩
  | 40 => ⟨S100000, .f32⟩
  | 41 => ⟨S100000x1, .f32⟩
  | 42 => ⟨S100000x1, .f32⟩
  | 43 => ⟨S_, .f32⟩
  | 44 => ⟨S100000x1, .f32⟩
  | 45 => ⟨S100000x1, .f32⟩
  | 46 => ⟨S100000x128, .f32⟩
  | 47 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_cst : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_3 : Ref sig .tc := ⟨.hbm, 64, rfl⟩
abbrev main_v41 : Ref sig .tc := ⟨.hbm, 65, rfl⟩
abbrev main_v42 : Ref sig .tc := ⟨.hbm, 66, rfl⟩
abbrev main_c_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_5 : Ref sig .tc := ⟨.hbm, 75, rfl⟩
abbrev main_v50 : Ref sig .tc := ⟨.hbm, 76, rfl⟩
abbrev main_v51 : Ref sig .tc := ⟨.hbm, 77, rfl⟩
abbrev main_c_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_7 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_8 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_cst : Ref sig .tc := ⟨.hbm, 100, rfl⟩
abbrev main_call2_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_9 : Ref sig .tc := ⟨.hbm, 107, rfl⟩
abbrev main_v76 : Ref sig .tc := ⟨.hbm, 108, rfl⟩
abbrev main_v77 : Ref sig .tc := ⟨.hbm, 109, rfl⟩
abbrev main_c_10 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_11 : Ref sig .tc := ⟨.hbm, 116, rfl⟩
abbrev main_v83 : Ref sig .tc := ⟨.hbm, 117, rfl⟩
abbrev main_v84 : Ref sig .tc := ⟨.hbm, 118, rfl⟩
abbrev main_c_12 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_13 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_14 : Ref sig .tc := ⟨.hbm, 145, rfl⟩
abbrev main_v107 : Ref sig .tc := ⟨.hbm, 146, rfl⟩
abbrev main_v108 : Ref sig .tc := ⟨.hbm, 147, rfl⟩
abbrev main_c_15 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_16 : Ref sig .tc := ⟨.hbm, 156, rfl⟩
abbrev main_v116 : Ref sig .tc := ⟨.hbm, 157, rfl⟩
abbrev main_v117 : Ref sig .tc := ⟨.hbm, 158, rfl⟩
abbrev main_c_17 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_18 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_19 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩

abbrev nD : Nat := 1
abbrev τ : Topo := Topo.v7x

variable {F : FTy → Type} [FloatOps F]

class Facts₀ : Prop where
  concatenates_S100000x128_S100000x64_S100000x192_d1 : Shape.Concatenates [S100000x128, S100000x64] S100000x192 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S16x25000 : S_.BroadcastsInDim S16x25000 (![] : Fin 0 → Fin S16x25000.rank)
  bcast_S16x25000_S16x25000x1_0_1 : S16x25000.BroadcastsInDim S16x25000x1 (![0, 1] : Fin 2 → Fin S16x25000x1.rank)
  concatenates_S16x25000x128_S16x25000x128_S16x25000x256_d2 : Shape.Concatenates [S16x25000x128, S16x25000x128] S16x25000x256 2
  bcast_S16x128_S16x1x128_0_2 : S16x128.BroadcastsInDim S16x1x128 (![0, 2] : Fin 2 → Fin S16x1x128.rank)
  bcast_S16x1x128_S16x25000x128_0_1_2 : S16x1x128.BroadcastsInDim S16x25000x128 (![0, 1, 2] : Fin 3 → Fin S16x25000x128.rank)
  bcast_S_S16x25000x128 : S_.BroadcastsInDim S16x25000x128 (![] : Fin 0 → Fin S16x25000x128.rank)
  shapeCasts_S16x25000_S400000 : S16x25000.ShapeCasts S400000
  shapeCasts_S16x25000x128_S400000x128 : S16x25000x128.ShapeCasts S400000x128
  bcast_S_S400000 : S_.BroadcastsInDim S400000 (![] : Fin 0 → Fin S400000.rank)
  bcast_S400000_S400000x1_0 : S400000.BroadcastsInDim S400000x1 (![0] : Fin 1 → Fin S400000x1.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x192_S192x128_S100000x128_1_0_0_1_n_n_wf : DotDims.WF S100000x192 S192x128 S100000x128 [1] [0] [0] [1] [] []
  dot_S100000x128_S128x128_S100000x128_1_0_0_1_n_n_wf : DotDims.WF S100000x128 S128x128 S100000x128 [1] [0] [0] [1] [] []
  gather_S100000x128_S16x25000x1_S16x25000x128_2_0_n_n_0_2_1128_wf : GatherDims.WF S100000x128 S16x25000x1 S16x25000x128 [2] [0] [] [0] [] 2 ![1, 128]
  dot_S16x25000x256_S16x256x128_S16x25000x128_2_1_1_2_0_0_wf : DotDims.WF S16x25000x256 S16x256x128 S16x25000x128 [2] [1] [1] [2] [0] [0]
  dot_S16x25000x128_S16x128x128_S16x25000x128_2_1_1_2_0_0_wf : DotDims.WF S16x25000x128 S16x128x128 S16x25000x128 [2] [1] [1] [2] [0] [0]
  scatter_S100000x128_S400000x1_S400000x128_1_0_0_1_wf : ScatterDims.WF S100000x128 S400000x1 S400000x128 [1] [0] [0] 1

variable [Facts₀]

def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S16x25000x1_S16x25000x128_2_0_n_n_0_2_1128 : GatherDims S100000x128 S16x25000x1 S16x25000x128 where
  offsetDims := [2]
  collapsedSliceDims := [0]
  operandBatchingDims := []
  startIndicesBatchingDims := []
  startIndexMap := [0]
  indexVectorDim := 2
  sliceSizes := ![1, 128]
  wf := gather_S100000x128_S16x25000x1_S16x25000x128_2_0_n_n_0_2_1128_wf
def dot_S16x25000x256_S16x256x128_S16x25000x128_2_1_1_2_0_0 : DotDims S16x25000x256 S16x256x128 S16x25000x128 where
  lhsContracting := [2]
  rhsContracting := [1]
  lhsNonContracting := [1]
  rhsNonContracting := [2]
  lhsBatch := [0]
  rhsBatch := [0]
  wf := dot_S16x25000x256_S16x256x128_S16x25000x128_2_1_1_2_0_0_wf
def dot_S16x25000x128_S16x128x128_S16x25000x128_2_1_1_2_0_0 : DotDims S16x25000x128 S16x128x128 S16x25000x128 where
  lhsContracting := [2]
  rhsContracting := [1]
  lhsNonContracting := [1]
  rhsNonContracting := [2]
  lhsBatch := [0]
  rhsBatch := [0]
  wf := dot_S16x25000x128_S16x128x128_S16x25000x128_2_1_1_2_0_0_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf

class Facts : Prop extends Facts₀ where

variable [Facts]
-- ==== Proof.RefRun.lean ====
/-
  The reference's run, read one stretch at a time.
  The reference is a straight line of 162 host operations. Every weakly fair execution ends with each buffer at the
  fold of the operations' results over the launch contents. Read as one expression of the arguments that fold is very
  large (the first round's update is read again by both gathers, by the normalisation, and through them by everything
  in the second round), so it is read here in twelve consecutive stretches, each ending where a value that later
  stretches use is complete: the first class update; the subjects' rows; the objects' rows; the two relation heads;
  the accumulated messages; the normalised table; and the same six again for the second round. At the end of a stretch
  the buffer it completes holds that stage's function of the arguments; a later stretch reads it through the
  stretches in between, none of which writes it. No operation writes an argument.
-/
import proofs.«406575_j23888608101388_2_alg».proof.Proof.RefOps
import proofs.«406575_j23888608101388_2_alg».proof.Proof.RefStages
import Idealize.ShloMosaic.Lib.StableHlo.Run

set_option maxRecDepth 8192
set_option Elab.async false

noncomputable section

namespace Cert.ReferenceIdeal.RunS

open Cert.ReferenceIdeal Cert.ReferenceIdeal.Gen Cert.ReferenceIdeal.ValueP Cert.ReferenceIdeal.Read
open Idealize.ShloMosaic Idealize.ShloMosaic.TcCoe Idealize.SL.Sem Idealize.ShloMosaic.StableHlo

variable {F : FTy → Type} [FloatOps F]

/-- The fold over a list in two parts is the fold over the second part from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ) (c : Dev nD)

/-! ## The arguments as launched, and the buffer contents after each stretch -/

abbrev a0 : (⟨S100000x128, .f32⟩ : BufTy).Contents (Elt F) := m ((c.tc : Thread nD τ).loc main_arg0)
abbrev a1 : (⟨S100000x64, .f32⟩ : BufTy).Contents (Elt F) := m ((c.tc : Thread nD τ).loc main_arg1)
abbrev a2 : (⟨S192x128, .f32⟩ : BufTy).Contents (Elt F) := m ((c.tc : Thread nD τ).loc main_arg2)
abbrev a3 : (⟨S128, .f32⟩ : BufTy).Contents (Elt F) := m ((c.tc : Thread nD τ).loc main_arg3)
abbrev a4 : (⟨S128x128, .f32⟩ : BufTy).Contents (Elt F) := m ((c.tc : Thread nD τ).loc main_arg4)
abbrev a5 : (⟨S128, .f32⟩ : BufTy).Contents (Elt F) := m ((c.tc : Thread nD τ).loc main_arg5)
abbrev a6 : (⟨S16x256x128, .f32⟩ : BufTy).Contents (Elt F) := m ((c.tc : Thread nD τ).loc main_arg6)
abbrev a7 : (⟨S16x128, .f32⟩ : BufTy).Contents (Elt F) := m ((c.tc : Thread nD τ).loc main_arg7)
abbrev a8 : (⟨S16x128x128, .f32⟩ : BufTy).Contents (Elt F) := m ((c.tc : Thread nD τ).loc main_arg8)
abbrev a9 : (⟨S16x128, .f32⟩ : BufTy).Contents (Elt F) := m ((c.tc : Thread nD τ).loc main_arg9)
abbrev a10 : (⟨S16x128x128, .f32⟩ : BufTy).Contents (Elt F) := m ((c.tc : Thread nD τ).loc main_arg10)
abbrev a11 : (⟨S16x128, .f32⟩ : BufTy).Contents (Elt F) := m ((c.tc : Thread nD τ).loc main_arg11)
abbrev a12 : (⟨S16x25000, .i32⟩ : BufTy).Contents (Elt F) := m ((c.tc : Thread nD τ).loc main_arg12)
abbrev a13 : (⟨S16x25000, .i32⟩ : BufTy).Contents (Elt F) := m ((c.tc : Thread nD τ).loc main_arg13)

def X0 : Valuation τ sig (Elt F) := launchContents m c
def X1 : Valuation τ sig (Elt F) := after ops1 (X0 m c)
def X2 : Valuation τ sig (Elt F) := after ops2 (X1 m c)
def X3 : Valuation τ sig (Elt F) := after ops3 (X2 m c)
def X4 : Valuation τ sig (Elt F) := after ops4 (X3 m c)
def X5 : Valuation τ sig (Elt F) := after ops5 (X4 m c)
def X6 : Valuation τ sig (Elt F) := after ops6 (X5 m c)
def X7 : Valuation τ sig (Elt F) := after ops7 (X6 m c)
def X8 : Valuation τ sig (Elt F) := after ops8 (X7 m c)
def X9 : Valuation τ sig (Elt F) := after ops9 (X8 m c)
def X10 : Valuation τ sig (Elt F) := after ops10 (X9 m c)
def X11 : Valuation τ sig (Elt F) := after ops11 (X10 m c)
def X12 : Valuation τ sig (Elt F) := after ops12 (X11 m c)

/-- The fold over the whole operation list is the last stretch's contents. -/
theorem fold_eq : after ops (launchContents m c) = X12 m c := by
  rw [ops_cut]
  simp only [after_append]
  rfl

/-! ## A stretch leaves every buffer it does not write as it found it -/

macro "keep_by " ops:ident " , " h:ident : tactic => `(tactic|
  exact StableHlo.after_of_forall_not_mem _ _ (List.forall_iff_forall_mem.mp (by
    simp only [$ops:ident, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne ($h:ident _ (by decide)))))

abbrev dst1 : List (Ref sig .tc) := [main_v0, main_v1, main_v2, main_v3, main_v4, main_call0_cst, main_call0_v0, main_v5, main_v6, main_v7, main_v8, main_v9]
abbrev dst2 : List (Ref sig .tc) := [main_c, main_v10, main_v11, main_c_0, main_v12, main_v13, main_v14, main_v15, main_v16]
abbrev dst3 : List (Ref sig .tc) := [main_c_1, main_v17, main_v18, main_c_2, main_v19, main_v20, main_v21, main_v22, main_v23]
abbrev dst4 : List (Ref sig .tc) := [main_v24, main_v25, main_v26, main_v27, main_v28, main_call1_cst, main_call1_v0, main_v29, main_v30, main_v31, main_v32, main_v33, main_v34, main_v35, main_v36, main_v37]
abbrev dst5 : List (Ref sig .tc) := [main_cst, main_v38, main_v39, main_v40, main_c_3, main_v41, main_v42, main_c_4, main_v43, main_v44, main_v45, main_v46, main_v47, main_v48, main_v49, main_c_5, main_v50, main_v51, main_c_6, main_v52, main_v53, main_v54, main_v55, main_v56]
abbrev dst6 : List (Ref sig .tc) := [main_v57, main_v58, main_cst_7, main_v59, main_v60, main_v61, main_cst_8, main_v62, main_v63, main_v64, main_v65]
abbrev dst7 : List (Ref sig .tc) := [main_v66, main_v67, main_v68, main_v69, main_v70, main_call2_cst, main_call2_v0, main_v71, main_v72, main_v73, main_v74, main_v75]
abbrev dst8 : List (Ref sig .tc) := [main_c_9, main_v76, main_v77, main_c_10, main_v78, main_v79, main_v80, main_v81, main_v82]
abbrev dst9 : List (Ref sig .tc) := [main_c_11, main_v83, main_v84, main_c_12, main_v85, main_v86, main_v87, main_v88, main_v89]
abbrev dst10 : List (Ref sig .tc) := [main_v90, main_v91, main_v92, main_v93, main_v94, main_call3_cst, main_call3_v0, main_v95, main_v96, main_v97, main_v98, main_v99, main_v100, main_v101, main_v102, main_v103]
abbrev dst11 : List (Ref sig .tc) := [main_cst_13, main_v104, main_v105, main_v106, main_c_14, main_v107, main_v108, main_c_15, main_v109, main_v110, main_v111, main_v112, main_v113, main_v114, main_v115, main_c_16, main_v116, main_v117, main_c_17, main_v118, main_v119, main_v120, main_v121, main_v122]
abbrev dst12 : List (Ref sig .tc) := [main_v123, main_v124, main_cst_18, main_v125, main_v126, main_v127, main_cst_19, main_v128, main_v129, main_v130, main_v131]

section keep
variable (b : Ref sig .tc)
theorem keep1 (h : ∀ d ∈ dst1, b ≠ d) : X1 m c (Proc.devRef .tc b) = X0 m c (Proc.devRef .tc b) := by unfold X1; keep_by ops1 , h
theorem keep2 (h : ∀ d ∈ dst2, b ≠ d) : X2 m c (Proc.devRef .tc b) = X1 m c (Proc.devRef .tc b) := by unfold X2; keep_by ops2 , h
theorem keep3 (h : ∀ d ∈ dst3, b ≠ d) : X3 m c (Proc.devRef .tc b) = X2 m c (Proc.devRef .tc b) := by unfold X3; keep_by ops3 , h
theorem keep4 (h : ∀ d ∈ dst4, b ≠ d) : X4 m c (Proc.devRef .tc b) = X3 m c (Proc.devRef .tc b) := by unfold X4; keep_by ops4 , h
theorem keep5 (h : ∀ d ∈ dst5, b ≠ d) : X5 m c (Proc.devRef .tc b) = X4 m c (Proc.devRef .tc b) := by unfold X5; keep_by ops5 , h
theorem keep6 (h : ∀ d ∈ dst6, b ≠ d) : X6 m c (Proc.devRef .tc b) = X5 m c (Proc.devRef .tc b) := by unfold X6; keep_by ops6 , h
theorem keep7 (h : ∀ d ∈ dst7, b ≠ d) : X7 m c (Proc.devRef .tc b) = X6 m c (Proc.devRef .tc b) := by unfold X7; keep_by ops7 , h
theorem keep8 (h : ∀ d ∈ dst8, b ≠ d) : X8 m c (Proc.devRef .tc b) = X7 m c (Proc.devRef .tc b) := by unfold X8; keep_by ops8 , h
theorem keep9 (h : ∀ d ∈ dst9, b ≠ d) : X9 m c (Proc.devRef .tc b) = X8 m c (Proc.devRef .tc b) := by unfold X9; keep_by ops9 , h
theorem keep10 (h : ∀ d ∈ dst10, b ≠ d) : X10 m c (Proc.devRef .tc b) = X9 m c (Proc.devRef .tc b) := by unfold X10; keep_by ops10 , h
theorem keep11 (h : ∀ d ∈ dst11, b ≠ d) : X11 m c (Proc.devRef .tc b) = X10 m c (Proc.devRef .tc b) := by unfold X11; keep_by ops11 , h
theorem keep12 (h : ∀ d ∈ dst12, b ≠ d) : X12 m c (Proc.devRef .tc b) = X11 m c (Proc.devRef .tc b) := by unfold X12; keep_by ops12 , h

/-- A buffer no stretch so far writes holds its launch contents. -/
theorem X1_arg (b : Ref sig .tc) (h1 : ∀ d ∈ dst1, b ≠ d) : X1 m c (Proc.devRef .tc b) = X0 m c (Proc.devRef .tc b) := keep1 m c b h1
theorem X2_arg (b : Ref sig .tc) (h1 : ∀ d ∈ dst1, b ≠ d) (h2 : ∀ d ∈ dst2, b ≠ d) : X2 m c (Proc.devRef .tc b) = X0 m c (Proc.devRef .tc b) := (keep2 m c b h2).trans (X1_arg m c b h1)
theorem X3_arg (b : Ref sig .tc) (h1 : ∀ d ∈ dst1, b ≠ d) (h2 : ∀ d ∈ dst2, b ≠ d) (h3 : ∀ d ∈ dst3, b ≠ d) : X3 m c (Proc.devRef .tc b) = X0 m c (Proc.devRef .tc b) := (keep3 m c b h3).trans (X2_arg m c b h1 h2)
theorem X4_arg (b : Ref sig .tc) (h1 : ∀ d ∈ dst1, b ≠ d) (h2 : ∀ d ∈ dst2, b ≠ d) (h3 : ∀ d ∈ dst3, b ≠ d) (h4 : ∀ d ∈ dst4, b ≠ d) : X4 m c (Proc.devRef .tc b) = X0 m c (Proc.devRef .tc b) := (keep4 m c b h4).trans (X3_arg m c b h1 h2 h3)
theorem X5_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) : X5 m c (Proc.devRef .tc b) = X0 m c (Proc.devRef .tc b) := (keep5 m c b h5).trans (X4_arg m c b h1 h2 h3 h4)
theorem X6_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) (h6 : ∀ d ∈ dst6, b ≠ d) : X6 m c (Proc.devRef .tc b) = X0 m c (Proc.devRef .tc b) := (keep6 m c b h6).trans (X5_arg m c b h1 h2 h3 h4 h5)
theorem X7_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) (h6 : ∀ d ∈ dst6, b ≠ d) (h7 : ∀ d ∈ dst7, b ≠ d) : X7 m c (Proc.devRef .tc b) = X0 m c (Proc.devRef .tc b) := (keep7 m c b h7).trans (X6_arg m c b h1 h2 h3 h4 h5 h6)
theorem X8_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) (h6 : ∀ d ∈ dst6, b ≠ d) (h7 : ∀ d ∈ dst7, b ≠ d) (h8 : ∀ d ∈ dst8, b ≠ d) : X8 m c (Proc.devRef .tc b) = X0 m c (Proc.devRef .tc b) := (keep8 m c b h8).trans (X7_arg m c b h1 h2 h3 h4 h5 h6 h7)
theorem X9_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) (h6 : ∀ d ∈ dst6, b ≠ d) (h7 : ∀ d ∈ dst7, b ≠ d) (h8 : ∀ d ∈ dst8, b ≠ d) (h9 : ∀ d ∈ dst9, b ≠ d) : X9 m c (Proc.devRef .tc b) = X0 m c (Proc.devRef .tc b) := (keep9 m c b h9).trans (X8_arg m c b h1 h2 h3 h4 h5 h6 h7 h8)
theorem X10_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) (h6 : ∀ d ∈ dst6, b ≠ d) (h7 : ∀ d ∈ dst7, b ≠ d) (h8 : ∀ d ∈ dst8, b ≠ d) (h9 : ∀ d ∈ dst9, b ≠ d) (h10 : ∀ d ∈ dst10, b ≠ d) : X10 m c (Proc.devRef .tc b) = X0 m c (Proc.devRef .tc b) := (keep10 m c b h10).trans (X9_arg m c b h1 h2 h3 h4 h5 h6 h7 h8 h9)
theorem X11_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) (h6 : ∀ d ∈ dst6, b ≠ d) (h7 : ∀ d ∈ dst7, b ≠ d) (h8 : ∀ d ∈ dst8, b ≠ d) (h9 : ∀ d ∈ dst9, b ≠ d) (h10 : ∀ d ∈ dst10, b ≠ d) (h11 : ∀ d ∈ dst11, b ≠ d) : X11 m c (Proc.devRef .tc b) = X0 m c (Proc.devRef .tc b) := (keep11 m c b h11).trans (X10_arg m c b h1 h2 h3 h4 h5 h6 h7 h8 h9 h10)
theorem X12_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) (h6 : ∀ d ∈ dst6, b ≠ d) (h7 : ∀ d ∈ dst7, b ≠ d) (h8 : ∀ d ∈ dst8, b ≠ d) (h9 : ∀ d ∈ dst9, b ≠ d) (h10 : ∀ d ∈ dst10, b ≠ d) (h11 : ∀ d ∈ dst11, b ≠ d) (h12 : ∀ d ∈ dst12, b ≠ d) : X12 m c (Proc.devRef .tc b) = X0 m c (Proc.devRef .tc b) := (keep12 m c b h12).trans (X11_arg m c b h1 h2 h3 h4 h5 h6 h7 h8 h9 h10 h11)
end keep

/-! ## What each stretch completes -/

/-- Reading one buffer after a stretch: the operation that wrote it, applied to what its operands held. -/
macro "read_ops " ops:ident : tactic => `(tactic| (dsimp only [$ops:ident]; after_results))

/-- The first class update. -/
theorem S1_v9 : X1 m c (Proc.devRef .tc main_v9) = val_main_v9 (F := F) (a0 m c) (a1 m c) (a2 m c) (a3 m c) (a4 m c) (a5 m c) := by
  unfold X1
  read_ops ops1
  try simp only [TRef.ofBuf, TRef.toBuf, cast_eq]
  rfl

/-- The subjects' rows of the first update. -/
theorem S2_v16 : X2 m c (Proc.devRef .tc main_v16) = val_main_v16 (F := F) (a0 m c) (a1 m c) (a2 m c) (a3 m c) (a4 m c) (a5 m c) (a12 m c) := by
  unfold X2
  read_ops ops2
  rw [S1_v9, X1_arg m c main_arg12 (by decide)]
  try simp only [TRef.ofBuf, TRef.toBuf, cast_eq]
  rfl

/-- The objects' rows of the first update. -/
theorem S3_v23 : X3 m c (Proc.devRef .tc main_v23) = val_main_v23 (F := F) (a0 m c) (a1 m c) (a2 m c) (a3 m c) (a4 m c) (a5 m c) (a13 m c) := by
  unfold X3
  read_ops ops3
  rw [keep2 m c main_v9 (by decide), S1_v9, X2_arg m c main_arg13 (by decide) (by decide)]
  try simp only [TRef.ofBuf, TRef.toBuf, cast_eq]
  rfl

/-- The first round's subject head. -/
theorem S4_v33 : X4 m c (Proc.devRef .tc main_v33) = val_main_v33 (F := F) (a0 m c) (a1 m c) (a2 m c) (a3 m c) (a4 m c) (a5 m c) (a6 m c) (a7 m c) (a8 m c) (a9 m c) (a12 m c) (a13 m c) := by
  unfold X4
  read_ops ops4
  rw [keep3 m c main_v16 (by decide), S2_v16, S3_v23, X3_arg m c main_arg6 (by decide) (by decide) (by decide), X3_arg m c main_arg7 (by decide) (by decide) (by decide),
    X3_arg m c main_arg8 (by decide) (by decide) (by decide), X3_arg m c main_arg9 (by decide) (by decide) (by decide)]
  try simp only [TRef.ofBuf, TRef.toBuf, cast_eq]
  rfl
/-- The first round's object head. -/
theorem S4_v37 : X4 m c (Proc.devRef .tc main_v37) = val_main_v37 (F := F) (a0 m c) (a1 m c) (a2 m c) (a3 m c) (a4 m c) (a5 m c) (a6 m c) (a7 m c) (a10 m c) (a11 m c) (a12 m c) (a13 m c) := by
  unfold X4
  read_ops ops4
  rw [keep3 m c main_v16 (by decide), S2_v16, S3_v23, X3_arg m c main_arg6 (by decide) (by decide) (by decide), X3_arg m c main_arg7 (by decide) (by decide) (by decide),
    X3_arg m c main_arg10 (by decide) (by decide) (by decide), X3_arg m c main_arg11 (by decide) (by decide) (by decide)]
  try simp only [TRef.ofBuf, TRef.toBuf, cast_eq]
  rfl

/-- The first round's accumulated messages. -/
theorem S5_v56 : X5 m c (Proc.devRef .tc main_v56) = val_main_v56 (F := F) (a0 m c) (a1 m c) (a2 m c) (a3 m c) (a4 m c) (a5 m c) (a6 m c) (a7 m c) (a8 m c) (a9 m c) (a10 m c) (a11 m c) (a12 m c) (a13 m c) := by
  unfold X5
  dsimp only [ops5]
  after_results_simp
  rw [S4_v33, S4_v37, X4_arg m c main_arg12 (by decide) (by decide) (by decide) (by decide), X4_arg m c main_arg13 (by decide) (by decide) (by decide) (by decide)]
  try simp only [TRef.ofBuf, TRef.toBuf, cast_eq]
  rfl

/-- The first update, still in place after five stretches. -/
theorem S5_v9 : X5 m c (Proc.devRef .tc main_v9) = val_main_v9 (F := F) (a0 m c) (a1 m c) (a2 m c) (a3 m c) (a4 m c) (a5 m c) :=
  (keep5 m c main_v9 (by decide)).trans ((keep4 m c main_v9 (by decide)).trans ((keep3 m c main_v9 (by decide)).trans
    ((keep2 m c main_v9 (by decide)).trans (S1_v9 m c))))

/-- The first round's normalised table. -/
theorem S6_v65 : X6 m c (Proc.devRef .tc main_v65) = val_main_v65 (F := F) (a0 m c) (a1 m c) (a2 m c) (a3 m c) (a4 m c) (a5 m c) (a6 m c) (a7 m c) (a8 m c) (a9 m c) (a10 m c) (a11 m c) (a12 m c) (a13 m c) := by
  unfold X6
  read_ops ops6
  rw [S5_v9, S5_v56]
  try simp only [TRef.ofBuf, TRef.toBuf, cast_eq]
  rfl

/-- The second class update. -/
theorem S7_v75 : X7 m c (Proc.devRef .tc main_v75) = val_main_v75 (F := F) (a0 m c) (a1 m c) (a2 m c) (a3 m c) (a4 m c) (a5 m c) (a6 m c) (a7 m c) (a8 m c) (a9 m c) (a10 m c) (a11 m c) (a12 m c) (a13 m c) := by
  unfold X7
  read_ops ops7
  rw [S6_v65, X6_arg m c main_arg1 (by decide) (by decide) (by decide) (by decide) (by decide) (by decide), X6_arg m c main_arg2 (by decide) (by decide) (by decide) (by decide) (by decide) (by decide), X6_arg m c main_arg3 (by decide) (by decide) (by decide) (by decide) (by decide) (by decide),
    X6_arg m c main_arg4 (by decide) (by decide) (by decide) (by decide) (by decide) (by decide), X6_arg m c main_arg5 (by decide) (by decide) (by decide) (by decide) (by decide) (by decide)]
  try simp only [TRef.ofBuf, TRef.toBuf, cast_eq]
  rfl

/-- The subjects' rows of the second update. -/
theorem S8_v82 : X8 m c (Proc.devRef .tc main_v82) = val_main_v82 (F := F) (a0 m c) (a1 m c) (a2 m c) (a3 m c) (a4 m c) (a5 m c) (a6 m c) (a7 m c) (a8 m c) (a9 m c) (a10 m c) (a11 m c) (a12 m c) (a13 m c) := by
  unfold X8
  read_ops ops8
  rw [S7_v75, X7_arg m c main_arg12 (by decide) (by decide) (by decide) (by decide) (by decide) (by decide) (by decide)]
  try simp only [TRef.ofBuf, TRef.toBuf, cast_eq]
  rfl

/-- The objects' rows of the second update. -/
theorem S9_v89 : X9 m c (Proc.devRef .tc main_v89) = val_main_v89 (F := F) (a0 m c) (a1 m c) (a2 m c) (a3 m c) (a4 m c) (a5 m c) (a6 m c) (a7 m c) (a8 m c) (a9 m c) (a10 m c) (a11 m c) (a12 m c) (a13 m c) := by
  unfold X9
  read_ops ops9
  rw [keep8 m c main_v75 (by decide), S7_v75, X8_arg m c main_arg13 (by decide) (by decide) (by decide) (by decide) (by decide) (by decide) (by decide) (by decide)]
  try simp only [TRef.ofBuf, TRef.toBuf, cast_eq]
  rfl

/-- The second round's subject head. -/
theorem S10_v99 : X10 m c (Proc.devRef .tc main_v99) = val_main_v99 (F := F) (a0 m c) (a1 m c) (a2 m c) (a3 m c) (a4 m c) (a5 m c) (a6 m c) (a7 m c) (a8 m c) (a9 m c) (a10 m c) (a11 m c) (a12 m c) (a13 m c) := by
  unfold X10
  read_ops ops10
  rw [keep9 m c main_v82 (by decide), S8_v82, S9_v89, X9_arg m c main_arg6 (by decide) (by decide) (by decide) (by decide) (by decide) (by decide) (by decide) (by decide) (by decide), X9_arg m c main_arg7 (by decide) (by decide) (by decide) (by decide) (by decide) (by decide) (by decide) (by decide) (by decide),
    X9_arg m c main_arg8 (by decide) (by decide) (by decide) (by decide) (by decide) (by decide) (by decide) (by decide) (by decide), X9_arg m c main_arg9 (by decide) (by decide) (by decide) (by decide) (by decide) (by decide) (by decide) (by decide) (by decide)]
  try simp only [TRef.ofBuf, TRef.toBuf, cast_eq]
  rfl
/-- The second round's object head. -/
theorem S10_v103 : X10 m c (Proc.devRef .tc main_v103) = val_main_v103 (F := F) (a0 m c) (a1 m c) (a2 m c) (a3 m c) (a4 m c) (a5 m c) (a6 m c) (a7 m c) (a8 m c) (a9 m c) (a10 m c) (a11 m c) (a12 m c) (a13 m c) := by
  unfold X10
  read_ops ops10
  rw [keep9 m c main_v82 (by decide), S8_v82, S9_v89, X9_arg m c main_arg6 (by decide) (by decide) (by decide) (by decide) (by decide) (by decide) (by decide) (by decide) (by decide), X9_arg m c main_arg7 (by decide) (by decide) (by decide) (by decide) (by decide) (by decide) (by decide) (by decide) (by decide),
    X9_arg m c main_arg10 (by decide) (by decide) (by decide) (by decide) (by decide) (by decide) (by decide) (by decide) (by decide), X9_arg m c main_arg11 (by decide) (by decide) (by decide) (by decide) (by decide) (by decide) (by decide) (by decide) (by decide)]
  try simp only [TRef.ofBuf, TRef.toBuf, cast_eq]
  rfl

/-- The second round's accumulated messages. -/
theorem S11_v122 : X11 m c (Proc.devRef .tc main_v122) = val_main_v122 (F := F) (a0 m c) (a1 m c) (a2 m c) (a3 m c) (a4 m c) (a5 m c) (a6 m c) (a7 m c) (a8 m c) (a9 m c) (a10 m c) (a11 m c) (a12 m c) (a13 m c) := by
  unfold X11
  dsimp only [ops11]
  after_results_simp
  rw [S10_v99, S10_v103, X10_arg m c main_arg12 (by decide) (by decide) (by decide) (by decide) (by decide) (by decide) (by decide) (by decide) (by decide) (by decide), X10_arg m c main_arg13 (by decide) (by decide) (by decide) (by decide) (by decide) (by decide) (by decide) (by decide) (by decide) (by decide)]
  try simp only [TRef.ofBuf, TRef.toBuf, cast_eq]
  rfl

/-- The second update, still in place after eleven stretches. -/
theorem S11_v75 : X11 m c (Proc.devRef .tc main_v75) = val_main_v75 (F := F) (a0 m c) (a1 m c) (a2 m c) (a3 m c) (a4 m c) (a5 m c) (a6 m c) (a7 m c) (a8 m c) (a9 m c) (a10 m c) (a11 m c) (a12 m c) (a13 m c) :=
  (keep11 m c main_v75 (by decide)).trans ((keep10 m c main_v75 (by decide)).trans ((keep9 m c main_v75 (by decide)).trans
    ((keep8 m c main_v75 (by decide)).trans (S7_v75 m c))))

/-- The result: the second round's normalised table. -/
theorem S12_v131 : X12 m c (Proc.devRef .tc main_v131) = val_main_v131 (F := F) (a0 m c) (a1 m c) (a2 m c) (a3 m c) (a4 m c) (a5 m c) (a6 m c) (a7 m c) (a8 m c) (a9 m c) (a10 m c) (a11 m c) (a12 m c) (a13 m c) := by
  unfold X12
  read_ops ops12
  rw [S11_v75, S11_v122]
  try simp only [TRef.ofBuf, TRef.toBuf, cast_eq]
  rfl

/-! ## The run -/

/-- An argument at the end of the run is the argument as launched. -/
theorem end_arg (b : Ref sig .tc) (h1 : ∀ d ∈ dst1, b ≠ d) (h2 : ∀ d ∈ dst2, b ≠ d) (h3 : ∀ d ∈ dst3, b ≠ d) (h4 : ∀ d ∈ dst4, b ≠ d) (h5 : ∀ d ∈ dst5, b ≠ d) (h6 : ∀ d ∈ dst6, b ≠ d) (h7 : ∀ d ∈ dst7, b ≠ d) (h8 : ∀ d ∈ dst8, b ≠ d) (h9 : ∀ d ∈ dst9, b ≠ d) (h10 : ∀ d ∈ dst10, b ≠ d) (h11 : ∀ d ∈ dst11, b ≠ d) (h12 : ∀ d ∈ dst12, b ≠ d) :
    after ops (launchContents m c) (Proc.devRef .tc b) = m ((c.tc : Thread nD τ).loc b) :=
  (congrFun (fold_eq m c) _).trans ((X12_arg m c b h1 h2 h3 h4 h5 h6 h7 h8 h9 h10 h11 h12).trans rfl)

/-- Every weakly fair execution of the reference terminates, without a fault, with its result at the last stage's
    function of the arguments and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v131) = val_main_v131 (F := F) (a0 m c) (a1 m c) (a2 m c) (a3 m c) (a4 m c) (a5 m c) (a6 m c) (a7 m c) (a8 m c) (a9 m c) (a10 m c) (a11 m c) (a12 m c) (a13 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c main_v131).trans ((congrFun (fold_eq m c) _).trans (S12_v131 m c)),
     (h c main_arg0).trans (end_arg m c main_arg0 (by decide) (by decide) (by decide) (by decide) (by decide) (by decide) (by decide) (by decide) (by decide) (by decide) (by decide) (by decide)),
     (h c main_arg1).trans (end_arg m c main_arg1 (by decide) (by decide) (by decide) (by decide) (by decide) (by decide) (by decide) (by decide) (by decide) (by decide) (by decide) (by decide)),
     (h c main_arg2).trans (end_arg m c main_arg2 (by decide) (by decide) (by decide) (by decide) (by decide) (by decide) (by decide) (by decide) (by decide) (by decide) (by decide) (by decide)),
     (h c main_arg3).trans (end_arg m c main_arg3 (by decide) (by decide) (by decide) (by decide) (by decide) (by decide) (by decide) (by decide) (by decide) (by decide) (by decide) (by decide)),
     (h c main_arg4).trans (end_arg m c main_arg4 (by decide) (by decide) (by decide) (by decide) (by decide) (by decide) (by decide) (by decide) (by decide) (by decide) (by decide) (by decide)),
     (h c main_arg5).trans (end_arg m c main_arg5 (by decide) (by decide) (by decide) (by decide) (by decide) (by decide) (by decide) (by decide) (by decide) (by decide) (by decide) (by decide)),
     (h c main_arg6).trans (end_arg m c main_arg6 (by decide) (by decide) (by decide) (by decide) (by decide) (by decide) (by decide) (by decide) (by decide) (by decide) (by decide) (by decide)),
     (h c main_arg7).trans (end_arg m c main_arg7 (by decide) (by decide) (by decide) (by decide) (by decide) (by decide) (by decide) (by decide) (by decide) (by decide) (by decide) (by decide)),
     (h c main_arg8).trans (end_arg m c main_arg8 (by decide) (by decide) (by decide) (by decide) (by decide) (by decide) (by decide) (by decide) (by decide) (by decide) (by decide) (by decide)),
     (h c main_arg9).trans (end_arg m c main_arg9 (by decide) (by decide) (by decide) (by decide) (by decide) (by decide) (by decide) (by decide) (by decide) (by decide) (by decide) (by decide)),
     (h c main_arg10).trans (end_arg m c main_arg10 (by decide) (by decide) (by decide) (by decide) (by decide) (by decide) (by decide) (by decide) (by decide) (by decide) (by decide) (by decide)),
     (h c main_arg11).trans (end_arg m c main_arg11 (by decide) (by decide) (by decide) (by decide) (by decide) (by decide) (by decide) (by decide) (by decide) (by decide) (by decide) (by decide)),
     (h c main_arg12).trans (end_arg m c main_arg12 (by decide) (by decide) (by decide) (by decide) (by decide) (by decide) (by decide) (by decide) (by decide) (by decide) (by decide) (by decide)),
     (h c main_arg13).trans (end_arg m c main_arg13 (by decide) (by decide) (by decide) (by decide) (by decide) (by decide) (by decide) (by decide) (by decide) (by decide) (by decide) (by decide))⟩)
    (run_seq scopedRefs_eq scopedSems_eq defs main (fun _ => ops) main_eq (fun _ => ops_sub) m ρ)

end Cert.ReferenceIdeal.RunS

end
-- ==== Proof.Spec.lean ====
/-
  The mathematics both programs compute, written once as index-by-index functions on extended reals.

  Two rounds of message passing over N = 100000 individuals with D = 128 features. A round takes the current
  embedding `e` and
    * updates every row by a two-layer perceptron on the row joined with its K = 64 class memberships
      (`classUpd`: the first layer's weight matrix has 128 + 64 rows, so its product with the joined row is the sum of
      the product over the first 128 rows with `e` and over the last 64 rows with the memberships);
    * for each of L = 16 relation layers and E = 25000 triples reads the updated rows of the triple's subject and object
      (`rows`: a row index is read signed and clamped into the table, as the gather does), runs a perceptron on the pair
      (`hidR`: again the 256-row first layer splits into the subject's 128 rows and the object's 128 rows) with one
      output head for the subject and one for the object (`outR`);
    * adds every head's output back into the row of its subject or object (a scatter-add, which both programs spell with
      the same operations and which is therefore never opened here);
    * normalises each row of (update + accumulated messages) by its Euclidean length, floored at a small constant
      (`l2n`).
  The zero of the rectifier and the floor of the norm are kept as the words the programs print, so that the same word on
  both sides is never evaluated.
-/
import Idealize.ShloMosaic.PureOps.Ideal
import Idealize.ShloMosaic.Lib.ValueIdx

noncomputable section

open scoped BigOperators

namespace Cert.Bridge

open Idealize.ShloMosaic Idealize.ShloMosaic.ValueIdx

/-- The rectifier's zero, as printed. -/
abbrev zeroW : EReal := Ideal.ofBits .f32 0x00000000#32
/-- The floor under a row's length, as printed (the f32 nearest 1e-12). -/
abbrev epsW : EReal := Ideal.ofBits .f32 0x2B8CBCCC#32

abbrev SND : Shape := ⟨2, ![100000, 128]⟩
abbrev SNK : Shape := ⟨2, ![100000, 64]⟩
abbrev SW1 : Shape := ⟨2, ![192, 128]⟩
abbrev SV : Shape := ⟨1, ![128]⟩
abbrev SW2 : Shape := ⟨2, ![128, 128]⟩
abbrev SRW1 : Shape := ⟨3, ![16, 256, 128]⟩
abbrev SRB : Shape := ⟨2, ![16, 128]⟩
abbrev SRW : Shape := ⟨3, ![16, 128, 128]⟩
abbrev SLE : Shape := ⟨2, ![16, 25000]⟩
abbrev SLED : Shape := ⟨3, ![16, 25000, 128]⟩

/-- The hidden unit `j` of the class perceptron on row `n`: the rectified sum of the row's product with the first 128
    rows of the weight matrix, the memberships' product with its last 64 rows, and the bias. -/
def hidC (e : SND.Idx → EReal) (mem : SNK.Idx → EReal) (w1 : SW1.Idx → EReal) (b1 : SV.Idx → EReal)
    (n : Fin 100000) (j : Fin 128) : EReal :=
  max (((∑ k : Fin 128, e (ix2 n k) * w1 (ix2 (⟨k.val, by omega⟩ : Fin 192) j))
        + (∑ k : Fin 64, mem (ix2 n k) * w1 (ix2 (⟨128 + k.val, by omega⟩ : Fin 192) j))) + b1 (ix1 j)) zeroW

/-- The class update of every row: the hidden layer through the second weight matrix, plus its bias. -/
def classUpd (e : SND.Idx → EReal) (mem : SNK.Idx → EReal) (w1 : SW1.Idx → EReal) (b1 : SV.Idx → EReal)
    (w2 : SW2.Idx → EReal) (b2 : SV.Idx → EReal) : SND.Idx → EReal := fun i =>
  (∑ j : Fin 128, hidC e mem w1 b1 (i 0) j * w2 (ix2 j (i 1))) + b2 (ix1 (i 1))

/-- The rows of `u` that an index array names: entry (l, t) read as a signed integer and clamped into [0, 99999]. -/
def rows (u : SND.Idx → EReal) (idx : IVec SLE 32) : SLED.Idx → EReal := fun i =>
  u (ix2 (⟨min (idx (ix2 (i 0) (i 1))).toInt.toNat 99999, by omega⟩ : Fin 100000) (i 2))

/-- The hidden unit `j` of relation layer `l`'s perceptron on triple `t`: subject rows against the first 128 rows of the
    layer's weight matrix, object rows against its last 128, the bias, rectified. -/
def hidR (es eo : SLED.Idx → EReal) (rw1 : SRW1.Idx → EReal) (rb1 : SRB.Idx → EReal)
    (l : Fin 16) (t : Fin 25000) (j : Fin 128) : EReal :=
  max (((∑ k : Fin 128, es (ix3 l t k) * rw1 (ix3 l (⟨k.val, by omega⟩ : Fin 256) j))
        + (∑ k : Fin 128, eo (ix3 l t k) * rw1 (ix3 l (⟨128 + k.val, by omega⟩ : Fin 256) j))) + rb1 (ix2 l j)) zeroW

/-- One output head of the relation perceptron: the hidden layer through the head's weights, plus its bias. -/
def outR (es eo : SLED.Idx → EReal) (rw1 : SRW1.Idx → EReal) (rb1 : SRB.Idx → EReal)
    (w : SRW.Idx → EReal) (b : SRB.Idx → EReal) : SLED.Idx → EReal := fun i =>
  (∑ j : Fin 128, hidR es eo rw1 rb1 (i 0) (i 1) j * w (ix3 (i 0) j (i 2))) + b (ix2 (i 0) (i 2))

abbrev SW1M : Shape := ⟨2, ![64, 128]⟩
abbrev SROW : Shape := ⟨2, ![1, 128]⟩
abbrev SRROW : Shape := ⟨3, ![16, 1, 128]⟩

/-- `classUpd` as a launch sees its operands: the first layer's weights already split into the 128 rows that meet the
    embedding (`w1e`) and the 64 rows that meet the memberships (`w1m`), each bias as a one-row table. -/
def classUpdK (e : SND.Idx → EReal) (mem : SNK.Idx → EReal) (w1e : SW2.Idx → EReal) (w1m : SW1M.Idx → EReal)
    (b1r : SROW.Idx → EReal) (w2 : SW2.Idx → EReal) (b2r : SROW.Idx → EReal) : SND.Idx → EReal := fun i =>
  (∑ j : Fin 128,
      max (((∑ k : Fin 128, e (ix2 (i 0) k) * w1e (ix2 k j)) + (∑ k : Fin 64, mem (ix2 (i 0) k) * w1m (ix2 k j)))
            + b1r (ix2 (0 : Fin 1) j)) zeroW * w2 (ix2 j (i 1)))
    + b2r (ix2 (0 : Fin 1) (i 1))

/-- `outR` as a launch sees its operands: the layer's first weights already split into the subject's 128 rows (`w1s`)
    and the object's (`w1o`), each bias as a one-row table per layer. -/
def outRK (es eo : SLED.Idx → EReal) (w1s w1o : SRW.Idx → EReal) (b1r : SRROW.Idx → EReal)
    (w : SRW.Idx → EReal) (br : SRROW.Idx → EReal) : SLED.Idx → EReal := fun i =>
  (∑ j : Fin 128,
      max (((∑ k : Fin 128, es (ix3 (i 0) (i 1) k) * w1s (ix3 (i 0) k j)) + (∑ k : Fin 128, eo (ix3 (i 0) (i 1) k) * w1o (ix3 (i 0) k j)))
            + b1r (ix3 (i 0) (0 : Fin 1) j)) zeroW * w (ix3 (i 0) j (i 2)))
    + br (ix3 (i 0) (0 : Fin 1) (i 2))

/-- The entrywise sum of two tables. -/
def addT (x y : SND.Idx → EReal) : SND.Idx → EReal := fun i => x i + y i

/-- Every row divided by its Euclidean length, the length floored at `epsW`. -/
def l2n (x : SND.Idx → EReal) : SND.Idx → EReal := fun i =>
  Ideal.div (x i) (max (Ideal.sqrt (∑ k : Fin 128, x (ix2 (i 0) k) * x (ix2 (i 0) k))) epsW)

end Cert.Bridge

end
-- ==== Proof.KTerms.lean ====
/-
  The program's value as one closed expression of its fourteen argument arrays.

  Around its five launches the program's host side only re-lays and indexes arrays: it cuts the class perceptron's
  192-row first weight matrix into the 128 rows that meet the embedding and the 64 that meet the memberships (and
  likewise each relation layer's 256-row matrix into subject rows and object rows), turns each bias vector into a
  one-row table, flattens the two 16 × 25000 index arrays to 400000 entries, gathers rows of the current update at
  those entries and re-lays them as 16 × 25000 × 128, and scatter-adds the relation heads' outputs (flattened the same
  way) into a zero table at the indices, a negative index first moved up by the table's height. (The pre-casts to a
  narrower float format are the identity on extended reals and do not appear.) Each piece is named here once, in the
  operations' own spelling; the launches' values are the specification's functions of these pieces; `out` composes
  the two rounds.
-/
import proofs.«406575_j23888608101388_2_alg».proof.Proof.Gen.KernelIdeal
import proofs.«406575_j23888608101388_2_alg».proof.Proof.Spec

noncomputable section

namespace Cert.Bridge.KT

open Cert.KernelIdeal Cert.KernelIdeal.Facts₀ Cert.KernelIdeal.Facts Cert.Bridge
open Idealize.ShloMosaic

/-- The first 128 rows of the class perceptron's first weight matrix. -/
def w1e (a2 : SW1.Idx → EReal) : SW2.Idx → EReal :=
  extractStridedSlice S128x128 ![0, 0] a2 slices_S192x128_S128x128_0_0
/-- Its last 64 rows. -/
def w1m (a2 : SW1.Idx → EReal) : SW1M.Idx → EReal :=
  extractStridedSlice S64x128 ![128, 0] a2 slices_S192x128_S64x128_128_0
/-- Per relation layer, the first 128 rows of its first weight matrix (the subject's). -/
def w1s (a6 : SRW1.Idx → EReal) : SRW.Idx → EReal :=
  extractStridedSlice S16x128x128 ![0, 0, 0] a6 slices_S16x256x128_S16x128x128_0_0_0
/-- Per relation layer, the last 128 rows (the object's). -/
def w1o (a6 : SRW1.Idx → EReal) : SRW.Idx → EReal :=
  extractStridedSlice S16x128x128 ![0, 128, 0] a6 slices_S16x256x128_S16x128x128_0_128_0
/-- A bias vector as a one-row table. -/
def brow (b : SV.Idx → EReal) : SROW.Idx → EReal := shapeCast S1x128 b shapeCasts_S128_S1x128
/-- The relation layers' bias vectors as one one-row table per layer. -/
def brow3 (b : SRB.Idx → EReal) : SRROW.Idx → EReal := shapeCast S16x1x128 b shapeCasts_S16x128_S16x1x128
/-- A 16 × 25000 index array flattened to 400000 entries. -/
def flat (idx : IVec SLE 32) : IVec S400000 32 := shapeCast S400000 idx shapeCasts_S16x25000_S400000
/-- 400000 entries as a one-column table (the form the gather and the scatter take their indices in). -/
def col (f : IVec S400000 32) : IVec S400000x1 32 := broadcastInDim S400000x1 ![0] bcast_S400000_S400000x1_0 f
/-- The rows of `u` at the flattened indices, re-laid as 16 × 25000 × 128. -/
def gath (u : SND.Idx → EReal) (idx : IVec SLE 32) : SLED.Idx → EReal :=
  shapeCast S16x25000x128
    (Host.gather gather_S100000x128_S400000x1_S400000x128_1_0_n_n_0_1_1128 u (col (flat idx)))
    shapeCasts_S400000x128_S16x25000x128
/-- A negative index moved up by the table's height, the others kept. -/
def wrapF (f : IVec S400000 32) : IVec S400000 32 :=
  select (cmpi .slt f (broadcastInDim S400000 ![] bcast_S_S400000 (constantI S_ 32 0#32)))
    (addi f (broadcastInDim S400000 ![] bcast_S_S400000 (constantI S_ 32 100000#32))) f
/-- A 16 × 25000 × 128 array flattened to 400000 rows. -/
def flatU (u : SLED.Idx → EReal) : S400000x128.Idx → EReal :=
  shapeCast S400000x128 u shapeCasts_S16x25000x128_S400000x128
/-- The zero table the messages are accumulated into. -/
def zeros : SND.Idx → EReal := broadcastInDim S100000x128 ![] bcast_S_S100000x128 (constant (F := Ideal) S_ .f32 0x00000000#32)
/-- The accumulated messages: the subject head's outputs added into the subjects' rows, then the object head's into the
    objects' rows. -/
def acc (s o : IVec SLE 32) (us uo : SLED.Idx → EReal) : SND.Idx → EReal :=
  Host.scatterAdd (F := Ideal) (φ := .f32) scatter_S100000x128_S400000x1_S400000x128_1_0_0_1
    (Host.scatterAdd (F := Ideal) (φ := .f32) scatter_S100000x128_S400000x1_S400000x128_1_0_0_1 zeros (col (wrapF (flat s))) (flatU us))
    (col (wrapF (flat o))) (flatU uo)

/-- The class update of a table `e`, with the weights cut and the biases laid out as the launch receives them. -/
def cls (e : SND.Idx → EReal) (a1 : SNK.Idx → EReal) (a2 : SW1.Idx → EReal) (a3 : SV.Idx → EReal)
    (a4 : SW2.Idx → EReal) (a5 : SV.Idx → EReal) : SND.Idx → EReal :=
  classUpdK e a1 (w1e a2) (w1m a2) (brow a3) a4 (brow a5)
/-- One relation head's outputs on the rows of `u` the two index arrays name. -/
def rel (u : SND.Idx → EReal) (a6 : SRW1.Idx → EReal) (a7 : SRB.Idx → EReal) (w : SRW.Idx → EReal) (b : SRB.Idx → EReal)
    (s o : IVec SLE 32) : SLED.Idx → EReal :=
  outRK (gath u s) (gath u o) (w1s a6) (w1o a6) (brow3 a7) w (brow3 b)
/-- The messages one round accumulates from the update `u`. -/
def msgs (u : SND.Idx → EReal) (a6 : SRW1.Idx → EReal) (a7 : SRB.Idx → EReal) (a8 : SRW.Idx → EReal) (a9 : SRB.Idx → EReal)
    (a10 : SRW.Idx → EReal) (a11 : SRB.Idx → EReal) (s o : IVec SLE 32) : SND.Idx → EReal :=
  acc s o (rel u a6 a7 a8 a9 s o) (rel u a6 a7 a10 a11 s o)

/-- The first round's class update. -/
def upd0 (a0 : SND.Idx → EReal) (a1 : SNK.Idx → EReal) (a2 : SW1.Idx → EReal) (a3 : SV.Idx → EReal)
    (a4 : SW2.Idx → EReal) (a5 : SV.Idx → EReal) : SND.Idx → EReal := cls a0 a1 a2 a3 a4 a5
/-- The second round's class update: of the normalised (first update + first messages). -/
def upd1 (a0 : SND.Idx → EReal) (a1 : SNK.Idx → EReal) (a2 : SW1.Idx → EReal) (a3 : SV.Idx → EReal)
    (a4 : SW2.Idx → EReal) (a5 : SV.Idx → EReal) (a6 : SRW1.Idx → EReal) (a7 : SRB.Idx → EReal) (a8 : SRW.Idx → EReal)
    (a9 : SRB.Idx → EReal) (a10 : SRW.Idx → EReal) (a11 : SRB.Idx → EReal) (s o : IVec SLE 32) : SND.Idx → EReal :=
  cls (l2n (addT (upd0 a0 a1 a2 a3 a4 a5) (msgs (upd0 a0 a1 a2 a3 a4 a5) a6 a7 a8 a9 a10 a11 s o))) a1 a2 a3 a4 a5
/-- The program's result: the normalised (second update + second messages). -/
def out (a0 : SND.Idx → EReal) (a1 : SNK.Idx → EReal) (a2 : SW1.Idx → EReal) (a3 : SV.Idx → EReal)
    (a4 : SW2.Idx → EReal) (a5 : SV.Idx → EReal) (a6 : SRW1.Idx → EReal) (a7 : SRB.Idx → EReal) (a8 : SRW.Idx → EReal)
    (a9 : SRB.Idx → EReal) (a10 : SRW.Idx → EReal) (a11 : SRB.Idx → EReal) (s o : IVec SLE 32) : SND.Idx → EReal :=
  l2n (addT (upd1 a0 a1 a2 a3 a4 a5 a6 a7 a8 a9 a10 a11 s o)
    (msgs (upd1 a0 a1 a2 a3 a4 a5 a6 a7 a8 a9 a10 a11 s o) a6 a7 a8 a9 a10 a11 s o))

end Cert.Bridge.KT

end
-- ==== Proof.ClassK.lean ====
/-
  The two class-update launches, read as whole-array functions.
  Launch 0 runs the class perceptron on blocks of 5000 rows of the embedding; launch 2 first forms, block by block,
  (previous update + accumulated messages), normalises each row by its length, and then runs the same perceptron.
  A row's length and both matrix products only involve that row and the whole (unblocked) weight tables, so what
  point t writes back is rows 5000·t … 5000·t + 4999 of one function of the whole arrays, and the 20 blocks tile the
  100000 rows.

  The order of the argument: a matrix product into the zero accumulator at an entry is the sum over the contracted
  axis of the row's entries against the column's; the perceptron on a block at entry (p, q) is then a formula in row p
  of the block, row p of the memberships' block and the whole tables (`mlpBlk_apply`), and the normalised block at
  (p, q) a formula in row p of its two blocks (`normBlk_apply`: the lane sum of squares as a column, its root, the
  floor, the column spread back over the 128 lanes). Each input block read at an entry is its table read at the
  block's offset, so both formulas are the whole-array functions `classUpdK` and `l2n ∘ addT` at row 5000·t + p;
  every row r lies in the block of point r / 5000.
-/
import proofs.«406575_j23888608101388_2_alg».proof.Proof.Gen.KernelIdeal.Frame
import proofs.«406575_j23888608101388_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.ClassK

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

/-! ## The two matrix products of a block, read at an entry -/

theorem lhsE_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsE_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsE_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsE_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000×128 block times a 128×128 table, into the zero accumulator: entry (p, q) is row p against column q. -/
theorem mmE_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsE_0 _ _
    | ⟨1, _⟩ => exact (lhsE_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsE_0 _ _).trans hk
    | ⟨1, _⟩ => exact rhsE_1 _ _)
  rw [el, er]

theorem lhsM_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhsM_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhsM_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhsM_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A 5000×64 block of memberships times the 64×128 table, into the zero accumulator. -/
theorem mmM_apply (a : FVec Ideal S5000x64 .bf16) (b : FVec Ideal S64x128 .bf16) (p : Fin 5000) (q : Fin 128) :
    matmul dot_S5000x64_S64x128_S5000x128_1_0_0_1_n_n none a b (constant (F := Ideal) S5000x128 .f32 0x00000000#32) (ix2 p q)
      = ∑ k : Fin 64, a (ix2 p k) * b (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhsM_0 _ _
    | ⟨1, _⟩ => exact (lhsM_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhsM_0 _ _).trans hk
    | ⟨1, _⟩ => exact rhsM_1 _ _)
  rw [el, er]

/-! ## The perceptron on a block of rows -/

/-- The class perceptron on a block of 5000 rows `xb` with the rows' memberships `mb`, as the launches' bodies spell
    it: two products into the zero accumulator, the bias row over all rows, the rectifier, the second product and
    its bias row. -/
def mlpBlk (xb : FVec Ideal S5000x128 .bf16) (mb : FVec Ideal S5000x64 .bf16) (w1e : FVec Ideal S128x128 .bf16)
    (w1m : FVec Ideal S64x128 .bf16) (b1 : FVec Ideal S1x128 .f32) (w2 : FVec Ideal S128x128 .bf16) (b2 : FVec Ideal S1x128 .f32) :
    FVec Ideal S5000x128 .f32 :=
  addf
    (matmul dot_S5000x128_S128x128_S5000x128_1_0_0_1_n_n none
      (truncf .bf16
        (maximumf
          (addf
            (addf
              (matmul dot_S5000x128_S128x128_S5000x128_1_0_0_1_n_n none xb (shapeCast S128x128 w1e shapeCasts_S128x128_S128x128)
                (constant S5000x128 .f32 0x00000000#32))
              (matmul dot_S5000x64_S64x128_S5000x128_1_0_0_1_n_n none (shapeCast S5000x64 mb shapeCasts_S5000x64_S5000x64)
                (shapeCast S64x128 w1m shapeCasts_S64x128_S64x128) (constant S5000x128 .f32 0x00000000#32)))
            (broadcastTo S5000x128 (shapeCast S1x128 b1 shapeCasts_S1x128_S1x128) broadcasts_S1x128_S5000x128))
          (broadcast S5000x128 (Scalar.ofBits .f32 0x00000000#32)))
        bitsLt_bf16_f32)
      (shapeCast S128x128 w2 shapeCasts_S128x128_S128x128) (constant S5000x128 .f32 0x00000000#32))
    (broadcastTo S5000x128 (shapeCast S1x128 b2 shapeCasts_S1x128_S1x128) broadcasts_S1x128_S5000x128)

/-- Entry (p, q) of the perceptron on a block only involves row p of the block and of the memberships. -/
theorem mlpBlk_apply (xb : FVec Ideal S5000x128 .bf16) (mb : FVec Ideal S5000x64 .bf16) (w1e : FVec Ideal S128x128 .bf16)
    (w1m : FVec Ideal S64x128 .bf16) (b1 : FVec Ideal S1x128 .f32) (w2 : FVec Ideal S128x128 .bf16) (b2 : FVec Ideal S1x128 .f32)
    (p : Fin 5000) (q : Fin 128) :
    mlpBlk xb mb w1e w1m b1 w2 b2 (ix2 p q)
      = (∑ j : Fin 128,
          max (((∑ k : Fin 128, xb (ix2 p k) * w1e (ix2 k j)) + (∑ k : Fin 64, mb (ix2 p k) * w1m (ix2 k j)))
                + b1 (ix2 (0 : Fin 1) j)) zeroW * w2 (ix2 j q))
        + b2 (ix2 (0 : Fin 1) q) := by
  unfold mlpBlk
  simp only [shapeCast_self]
  rw [addf_apply, mmE_apply, broadcastTo_1b_ab_apply]
  refine congrArg (· + b2 (ix2 (0 : Fin 1) q)) (Finset.sum_congr rfl fun j _ => ?_)
  rw [truncf_apply, maximumf_apply, addf_apply, addf_apply, mmE_apply, mmM_apply, broadcastTo_1b_ab_apply, broadcast_apply]
  rfl

/-- Launch 0's payload is the perceptron on its block of the embedding. -/
theorem pay0_eq (v0 : FVec Ideal S5000x128 .f32) (v2 : FVec Ideal S5000x64 .bf16) (v4 : FVec Ideal S128x128 .bf16) (v6 : FVec Ideal S64x128 .bf16)
    (v11 : FVec Ideal S1x128 .f32) (v18 : FVec Ideal S128x128 .bf16) (v21 : FVec Ideal S1x128 .f32) :
    k0_pay1 (F := Ideal) v0 v2 v4 v6 v11 v18 v21 = mlpBlk (truncf .bf16 v0 bitsLt_bf16_f32) v2 v4 v6 v11 v18 v21 := rfl

/-! ## Row lengths on a block: the column forms of a row sum -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sqrt_apply {s : Shape} {φ : FTy} (x : FVec Ideal s φ) (i : s.Idx) : sqrt x i = Ideal.sqrt (x i) := rfl

/-- The entrywise sum of two blocks, as launch 2 forms it. -/
def sumBlk (x0 x1 : FVec Ideal S5000x128 .f32) : FVec Ideal S5000x128 .f32 :=
  addf (shapeCast S5000x128 x0 shapeCasts_S5000x128_S5000x128) (shapeCast S5000x128 x1 shapeCasts_S5000x128_S5000x128)

theorem sumBlk_apply (x0 x1 : FVec Ideal S5000x128 .f32) (i : S5000x128.Idx) : sumBlk x0 x1 i = x0 i + x1 i := by
  unfold sumBlk
  rw [shapeCast_self, shapeCast_self]
  rfl

/-- The sum over the 128 columns of a block's squares, at row `p`. -/
theorem rowSq_apply (s : FVec Ideal S5000x128 .f32) (p : Fin 5000) :
    multiReduction (F := Ideal) .add [1] S5000 (mulf s s) 0x00000000#32 reduces_S5000x128_S5000 (.inl rfl) rfl (ix1 p)
      = ∑ k : Fin 128, s (ix2 p k) * s (ix2 p k) := by
  refine (Ideal.multiReduction_add_single (mulf s s) 0x00000000#32 reduces_S5000x128_S5000 (.inl rfl) rfl (ix1 p)).trans ?_
  show ∑ k : Fin 128, _ = _
  refine Finset.sum_congr rfl fun k _ => ?_
  have e : reduces_S5000x128_S5000.lift (ix1 p) k = ix2 p k :=
    funext fun a => Fin.ext (by match a with | ⟨0, _⟩ => rfl | ⟨1, _⟩ => rfl)
  rw [e]
  rfl

/-- A block of (previous update + messages) with every row divided by its length, the length floored, as launch 2
    spells it: the row sums of squares as a column, its root, the floor, the column spread back over the row. -/
def normBlk (x0 x1 : FVec Ideal S5000x128 .f32) : FVec Ideal S5000x128 .f32 :=
  divf (sumBlk x0 x1)
    (broadcastTo S5000x128
      (maximumf
        (sqrt (shapeCast S5000x1
          (multiReduction (F := Ideal) .add [1] S5000 (mulf (sumBlk x0 x1) (sumBlk x0 x1)) 0x00000000#32 reduces_S5000x128_S5000 (.inl rfl) rfl)
          shapeCasts_S5000_S5000x1))
        (broadcast S5000x1 (Scalar.ofBits .f32 0x2B8CBCCC#32)))
      broadcasts_S5000x1_S5000x128)

/-- Entry (p, q) of the normalised block only involves row p of the two blocks. -/
theorem normBlk_apply (x0 x1 : FVec Ideal S5000x128 .f32) (p : Fin 5000) (q : Fin 128) :
    normBlk x0 x1 (ix2 p q)
      = Ideal.div (x0 (ix2 p q) + x1 (ix2 p q))
          (max (Ideal.sqrt (∑ k : Fin 128, (x0 (ix2 p k) + x1 (ix2 p k)) * (x0 (ix2 p k) + x1 (ix2 p k)))) epsW) := by
  unfold normBlk
  rw [divf_apply, broadcastTo_a1_ab_apply, maximumf_apply, broadcast_apply, sqrt_apply, shapeCast_a_a1_apply, rowSq_apply]
  simp only [sumBlk_apply]
  rfl

/-- Launch 2's payload is the perceptron on the normalised block. -/
theorem pay2_eq (v0 v2 : FVec Ideal S5000x128 .f32) (v14 : FVec Ideal S5000x64 .bf16) (v16 : FVec Ideal S128x128 .bf16) (v18 : FVec Ideal S64x128 .bf16)
    (v23 : FVec Ideal S1x128 .f32) (v30 : FVec Ideal S128x128 .bf16) (v33 : FVec Ideal S1x128 .f32) :
    k2_pay1 (F := Ideal) v0 v2 v14 v16 v18 v23 v30 v33
      = mlpBlk (truncf .bf16 (normBlk v0 v2) bitsLt_bf16_f32) v14 v16 v18 v23 v30 v33 := rfl

/-- The whole-array form: row-normalised (x + y) at an entry, written out. -/
theorem l2n_addT_apply (x y : SND.Idx → EReal) (i : SND.Idx) :
    l2n (addT x y) i
      = Ideal.div (x i + y i)
          (max (Ideal.sqrt (∑ k : Fin 128, (x (ix2 (i 0) k) + y (ix2 (i 0) k)) * (x (ix2 (i 0) k) + y (ix2 (i 0) k)))) epsW) := rfl

-- The TensorCore's buffer contents when the region is entered (any contents: the run instantiates them).
variable (V : (c : Dev nD) → (b : Ref sig .tc) → Buf (Elt Ideal) ((c : Thread nD τ).loc b))

/-! ## A row of the class update from a row's data -/

/-- The class update at entry `i` only reads row `i 0` of the embedding and of the memberships: whatever block holds
    that row (`X`, `Mb` at the block's row `p`), with the weight tables and the bias rows read whole, gives it. -/
theorem classUpdK_of_row (e : SND.Idx → EReal) (mem : SNK.Idx → EReal) (w1e : SW2.Idx → EReal) (w1m : SW1M.Idx → EReal)
    (b1r : SROW.Idx → EReal) (w2 : SW2.Idx → EReal) (b2r : SROW.Idx → EReal) (i : SND.Idx)
    (X : FVec Ideal S5000x128 .bf16) (Mb : FVec Ideal S5000x64 .bf16) (W1e : FVec Ideal S128x128 .bf16) (W1m : FVec Ideal S64x128 .bf16)
    (B1 : FVec Ideal S1x128 .f32) (W2 : FVec Ideal S128x128 .bf16) (B2 : FVec Ideal S1x128 .f32) (p : Fin 5000) (q : Fin 128)
    (hX : ∀ k : Fin 128, X (ix2 p k) = e (ix2 (i 0) k)) (hM : ∀ k : Fin 64, Mb (ix2 p k) = mem (ix2 (i 0) k))
    (hW1e : ∀ (k j : Fin 128), W1e (ix2 k j) = w1e (ix2 k j)) (hW1m : ∀ (k : Fin 64) (j : Fin 128), W1m (ix2 k j) = w1m (ix2 k j))
    (hB1 : ∀ j : Fin 128, B1 (ix2 (0 : Fin 1) j) = b1r (ix2 (0 : Fin 1) j))
    (hW2 : ∀ (j : Fin 128), W2 (ix2 j q) = w2 (ix2 j (i 1))) (hB2 : B2 (ix2 (0 : Fin 1) q) = b2r (ix2 (0 : Fin 1) (i 1))) :
    mlpBlk X Mb W1e W1m B1 W2 B2 (ix2 p q) = classUpdK e mem w1e w1m b1r w2 b2r i := by
  rw [mlpBlk_apply]
  unfold classUpdK
  simp only [hX, hM, hW1e, hW1m, hB1, hW2, hB2]

/-! ## Launch 0: from the blocks to the array -/

theorem hz : (![0, 0] : Fin 2 → Nat) = fun _ => 0 := funext fun a => by fin_cases a <;> rfl

/-! The printed index maps of launch 0 over its 20 points: the embedding (window 0), the memberships (1) and the
    output (7) move together, block t at point t; the weight tables and bias rows (2 to 6) stay at block 0. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)

/-! Each input block read at an entry: a row block's row p is row 5000·t + p of its table; a weight table's or a bias
    row's one block is the table. -/

theorem iblk0_0_apply (c : Dev nD) (t : Fin cfg0.N) (p : Fin 5000) (k : Fin 128) (r : Fin 100000) (hr : r.val = t.val * 5000 + p.val) :
    (iblk0 V c 0 t : FVec Ideal S5000x128 .f32) (ix2 p k) = V c main_arg0 (ix2 r k) := by
  obtain ⟨e0, e1⟩ := idx0_0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

theorem iblk0_1_apply (c : Dev nD) (t : Fin cfg0.N) (p : Fin 5000) (k : Fin 64) (r : Fin 100000) (hr : r.val = t.val * 5000 + p.val) :
    (iblk0 V c 1 t : FVec Ideal S5000x64 .bf16) (ix2 p k) = V c main_v4 (ix2 r k) := by
  obtain ⟨e0, e1⟩ := idx0_1 t
  show V c main_v4 (((cfg0.win 1).blk t).view.emb (ix2 p k)) = V c main_v4 (ix2 r k)
  refine congrArg (V c main_v4) (funext fun a => Fin.ext ?_)
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

theorem iblk0_2_apply (c : Dev nD) (t : Fin cfg0.N) (k : Fin 128) (j : Fin 128) :
    (iblk0 V c 2 t : FVec Ideal S128x128 .bf16) (ix2 k j) = V c main_v5 (ix2 k j) := by
  obtain ⟨e0, e1⟩ := idx0_2 t
  show V c main_v5 (((cfg0.win 2).blk t).view.emb (ix2 k j)) = V c main_v5 (ix2 k j)
  refine congrArg (V c main_v5) (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

theorem iblk0_3_apply (c : Dev nD) (t : Fin cfg0.N) (k : Fin 64) (j : Fin 128) :
    (iblk0 V c 3 t : FVec Ideal S64x128 .bf16) (ix2 k j) = V c main_v6 (ix2 k j) := by
  obtain ⟨e0, e1⟩ := idx0_3 t
  show V c main_v6 (((cfg0.win 3).blk t).view.emb (ix2 k j)) = V c main_v6 (ix2 k j)
  refine congrArg (V c main_v6) (funext fun a => Fin.ext ?_)
  match a with
  | ⟨0, _⟩ => show win0_3.index t (0 : Fin 2) * 64 + 1 * k.val = k.val; rw [e0]; omega
  | ⟨1, _⟩ => show win0_3.index t (1 : Fin 2) * 128 + 1 * j.val = j.val; rw [e1]; omega

theorem iblk0_4_apply (c : Dev nD) (t : Fin cfg0.N) (k : Fin 1) (j : Fin 128) :
    (iblk0 V c 4 t : FVec Ideal S1x128 .f32) (ix2 k j) = V c main_v14 (ix2 k j) := by
  obtain ⟨e0, e1⟩ := idx0_4 t
  show V c main_v14 (((cfg0.win 4).blk t).view.emb (ix2 k j)) = V c main_v14 (ix2 k j)
  refine congrArg (V c main_v14) (funext fun a => Fin.ext ?_)
  match a with
  | ⟨0, _⟩ => show win0_4.index t (0 : Fin 2) * 1 + 1 * k.val = k.val; rw [e0]; omega
  | ⟨1, _⟩ => show win0_4.index t (1 : Fin 2) * 128 + 1 * j.val = j.val; rw [e1]; omega

theorem iblk0_5_apply (c : Dev nD) (t : Fin cfg0.N) (k : Fin 128) (j : Fin 128) :
    (iblk0 V c 5 t : FVec Ideal S128x128 .bf16) (ix2 k j) = V c main_v7 (ix2 k j) := by
  obtain ⟨e0, e1⟩ := idx0_5 t
  show V c main_v7 (((cfg0.win 5).blk t).view.emb (ix2 k j)) = V c main_v7 (ix2 k j)
  refine congrArg (V c main_v7) (funext fun a => Fin.ext ?_)
  match a with
  | ⟨0, _⟩ => show win0_5.index t (0 : Fin 2) * 128 + 1 * k.val = k.val; rw [e0]; omega
  | ⟨1, _⟩ => show win0_5.index t (1 : Fin 2) * 128 + 1 * j.val = j.val; rw [e1]; omega

theorem iblk0_6_apply (c : Dev nD) (t : Fin cfg0.N) (k : Fin 1) (j : Fin 128) :
    (iblk0 V c 6 t : FVec Ideal S1x128 .f32) (ix2 k j) = V c main_v15 (ix2 k j) := by
  obtain ⟨e0, e1⟩ := idx0_6 t
  show V c main_v15 (((cfg0.win 6).blk t).view.emb (ix2 k j)) = V c main_v15 (ix2 k j)
  refine congrArg (V c main_v15) (funext fun a => Fin.ext ?_)
  match a with
  | ⟨0, _⟩ => show win0_6.index t (0 : Fin 2) * 1 + 1 * k.val = k.val; rw [e0]; omega
  | ⟨1, _⟩ => show win0_6.index t (1 : Fin 2) * 128 + 1 * j.val = j.val; rw [e1]; omega

/-- Where point `t`'s output block sits: its entry (p, q) is entry (5000·t + p, q) of the array. -/
theorem emb_out0 (t : Fin cfg0.N) (p : Fin 5000) (q : Fin 128) (r : Fin 100000) (hr : r.val = t.val * 5000 + p.val) :
    ((cfg0.win 7).blk t).view.emb (ix2 p q) = (ix2 r q : S100000x128.Idx) := by
  obtain ⟨e0, e1⟩ := idx0_7 t
  refine funext fun a => Fin.ext ?_
  match a with
  | ⟨0, _⟩ => show win0_7.index t (0 : Fin 2) * 5000 + 1 * p.val = r.val; rw [e0, hr]; omega
  | ⟨1, _⟩ => show win0_7.index t (1 : Fin 2) * 128 + 1 * q.val = q.val; rw [e1]; omega

/-- A block's row is a row of the table: point t's row p is row 5000·t + p. -/
theorem row_lt0 (t : Fin cfg0.N) (p : Fin 5000) : t.val * 5000 + p.val < 100000 := by
  have ht : t.val < cfg0.N := t.isLt
  have hN : cfg0.N = 20 := N_0
  have hp : p.val < 5000 := p.isLt
  omega

/-- WHAT POINT `t` WRITES BACK is rows 5000·t … 5000·t + 4999 of the class update of the whole arrays. -/
theorem flushed0_eq (c : Dev nD) (t : Fin cfg0.N) :
    (dat0 V c).flushed 7 t = ((cfg0.win 7).blk t).view.read (Elt Ideal)
      (classUpdK (V c main_arg0) (V c main_v4) (V c main_v5) (V c main_v6) (V c main_v14) (V c main_v7) (V c main_v15)) := by
  show (cfg0.win 7).cut (grid0.coords t) ((dat0 V c).after 7 t) = _
  rw [after0_7]
  unfold out0_7
  rw [View.canon_unit_zero hz]
  simp only [View.ld_unit_zero (S := S5000x128) hz, View.ld_unit_zero (S := S5000x64) hz, View.ld_unit_zero (S := S128x128) hz,
    View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (iblk0 V c 6 t) (ix2 p q)
    = classUpdK (V c main_arg0) (V c main_v4) (V c main_v5) (V c main_v6) (V c main_v14) (V c main_v7) (V c main_v15)
        (((cfg0.win 7).blk t).view.emb (ix2 p q))
  rw [emb_out0 t p q ⟨t.val * 5000 + p.val, row_lt0 t p⟩ rfl]
  refine (congrFun (pay0_eq (iblk0 V c 0 t) (iblk0 V c 1 t) (iblk0 V c 2 t) (iblk0 V c 3 t) (iblk0 V c 4 t) (iblk0 V c 5 t) (iblk0 V c 6 t)) (ix2 p q)).trans ?_
  exact classUpdK_of_row (V c main_arg0) (V c main_v4) (V c main_v5) (V c main_v6) (V c main_v14) (V c main_v7) (V c main_v15)
    (ix2 ⟨t.val * 5000 + p.val, row_lt0 t p⟩ q)
    (truncf .bf16 (iblk0 V c 0 t) bitsLt_bf16_f32) (iblk0 V c 1 t) (iblk0 V c 2 t) (iblk0 V c 3 t) (iblk0 V c 4 t) (iblk0 V c 5 t) (iblk0 V c 6 t)
    p q
    (fun k => iblk0_0_apply V c t p k ⟨t.val * 5000 + p.val, row_lt0 t p⟩ rfl)
    (fun k => iblk0_1_apply V c t p k ⟨t.val * 5000 + p.val, row_lt0 t p⟩ rfl)
    (fun k j => iblk0_2_apply V c t k j) (fun k j => iblk0_3_apply V c t k j) (fun j => iblk0_4_apply V c t 0 j)
    (fun j => iblk0_5_apply V c t j q) (iblk0_6_apply V c t 0 q)

/-- An index of the output array is in point `t`'s block iff each coordinate is in the block's range on its axis. -/
theorem mem_blk0 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v16).slice (win0_7.rect t)).set ↔ _
  rw [View.set_slice_whole, Rect.mem_set_unit]
  exact Iff.rfl

/-- The 20 blocks tile the 100000 rows: row r is in the block of point r / 5000. -/
theorem cover0 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨e0, e1⟩ := idx0_7 ⟨(i 0).val / 5000, hlt⟩
  refine ⟨⟨(i 0).val / 5000, hlt⟩, flush0_7 _, ?_⟩
  rw [mem_blk0]
  intro a
  match a with
  | ⟨0, _⟩ =>
    show win0_7.index ⟨(i 0).val / 5000, hlt⟩ (0 : Fin 2) * 5000 ≤ (i 0).val ∧ (i 0).val < win0_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, hlt⟩ (1 : Fin 2) * 128 ≤ (i 1).val ∧ (i 1).val < win0_7.index ⟨(i 0).val / 5000, hlt⟩ (1 : Fin 2) * 128 + 128
    rw [e1]
    omega

/-- After launch 0 its output array holds the class update of the whole embedding table. -/
theorem final0 (c : Dev nD) :
    (dat0 V c).arrAt 7 cfg0.N
      = classUpdK (V c main_arg0) (V c main_v4) (V c main_v5) (V c main_v6) (V c main_v14) (V c main_v7) (V c main_v15) :=
  (dat0 V c).arrAt_eq_of_cover 7
    (classUpdK (V c main_arg0) (V c main_v4) (V c main_v5) (V c main_v6) (V c main_v14) (V c main_v7) (V c main_v15))
    (fun t _ => flushed0_eq V c t) cover0

/-! ## Launch 2: the normalised rows, then the same perceptron -/

/-- The normalised block's row `p` is the normalised row `r` of the whole arrays when the two blocks hold that row. -/
theorem l2n_of_row (x y : SND.Idx → EReal) (r : Fin 100000) (X0 X1 : FVec Ideal S5000x128 .f32) (p : Fin 5000) (k : Fin 128)
    (h0 : ∀ k' : Fin 128, X0 (ix2 p k') = x (ix2 r k')) (h1 : ∀ k' : Fin 128, X1 (ix2 p k') = y (ix2 r k')) :
    normBlk X0 X1 (ix2 p k) = l2n (addT x y) (ix2 r k) := by
  rw [normBlk_apply]
  simp only [h0, h1]
  rfl

/-! The printed index maps of launch 2 over its 20 points: the previous update (window 0), the messages (1), the
    memberships (2) and the output (8) move together, block t at point t; the weight tables and bias rows (3 to 7)
    stay at block 0. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = t.val ∧ win2_8.index t (1 : Fin 2) = 0 :=
  (by decide +kernel : ∀ t : Fin grid2.N, _)

/-! Each input block of launch 2 read at an entry. -/

theorem iblk2_0_apply (c : Dev nD) (t : Fin cfg2.N) (p : Fin 5000) (k : Fin 128) (r : Fin 100000) (hr : r.val = t.val * 5000 + p.val) :
    (iblk2 V c 0 t : FVec Ideal S5000x128 .f32) (ix2 p k) = V c main_v16 (ix2 r k) := by
  obtain ⟨e0, e1⟩ := idx2_0 t
  show V c main_v16 (((cfg2.win 0).blk t).view.emb (ix2 p k)) = V c main_v16 (ix2 r k)
  refine congrArg (V c main_v16) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

theorem iblk2_1_apply (c : Dev nD) (t : Fin cfg2.N) (p : Fin 5000) (k : Fin 128) (r : Fin 100000) (hr : r.val = t.val * 5000 + p.val) :
    (iblk2 V c 1 t : FVec Ideal S5000x128 .f32) (ix2 p k) = V c main_v41 (ix2 r k) := by
  obtain ⟨e0, e1⟩ := idx2_1 t
  show V c main_v41 (((cfg2.win 1).blk t).view.emb (ix2 p k)) = V c main_v41 (ix2 r k)
  refine congrArg (V c main_v41) (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

theorem iblk2_2_apply (c : Dev nD) (t : Fin cfg2.N) (p : Fin 5000) (k : Fin 64) (r : Fin 100000) (hr : r.val = t.val * 5000 + p.val) :
    (iblk2 V c 2 t : FVec Ideal S5000x64 .bf16) (ix2 p k) = V c main_v4 (ix2 r k) := by
  obtain ⟨e0, e1⟩ := idx2_2 t
  show V c main_v4 (((cfg2.win 2).blk t).view.emb (ix2 p k)) = V c main_v4 (ix2 r k)
  refine congrArg (V c main_v4) (funext fun a => Fin.ext ?_)
  match a with
  | ⟨0, _⟩ => show win2_2.index t (0 : Fin 2) * 5000 + 1 * p.val = r.val; rw [e0, hr]; omega
  | ⟨1, _⟩ => show win2_2.index t (1 : Fin 2) * 64 + 1 * k.val = k.val; rw [e1]; omega

theorem iblk2_3_apply (c : Dev nD) (t : Fin cfg2.N) (k : Fin 128) (j : Fin 128) :
    (iblk2 V c 3 t : FVec Ideal S128x128 .bf16) (ix2 k j) = V c main_v5 (ix2 k j) := by
  obtain ⟨e0, e1⟩ := idx2_3 t
  show V c main_v5 (((cfg2.win 3).blk t).view.emb (ix2 k j)) = V c main_v5 (ix2 k j)
  refine congrArg (V c main_v5) (funext fun a => Fin.ext ?_)
  match a with
  | ⟨0, _⟩ => show win2_3.index t (0 : Fin 2) * 128 + 1 * k.val = k.val; rw [e0]; omega
  | ⟨1, _⟩ => show win2_3.index t (1 : Fin 2) * 128 + 1 * j.val = j.val; rw [e1]; omega

theorem iblk2_4_apply (c : Dev nD) (t : Fin cfg2.N) (k : Fin 64) (j : Fin 128) :
    (iblk2 V c 4 t : FVec Ideal S64x128 .bf16) (ix2 k j) = V c main_v6 (ix2 k j) := by
  obtain ⟨e0, e1⟩ := idx2_4 t
  show V c main_v6 (((cfg2.win 4).blk t).view.emb (ix2 k j)) = V c main_v6 (ix2 k j)
  refine congrArg (V c main_v6) (funext fun a => Fin.ext ?_)
  match a with
  | ⟨0, _⟩ => show win2_4.index t (0 : Fin 2) * 64 + 1 * k.val = k.val; rw [e0]; omega
  | ⟨1, _⟩ => show win2_4.index t (1 : Fin 2) * 128 + 1 * j.val = j.val; rw [e1]; omega

theorem iblk2_5_apply (c : Dev nD) (t : Fin cfg2.N) (k : Fin 1) (j : Fin 128) :
    (iblk2 V c 5 t : FVec Ideal S1x128 .f32) (ix2 k j) = V c main_v42 (ix2 k j) := by
  obtain ⟨e0, e1⟩ := idx2_5 t
  show V c main_v42 (((cfg2.win 5).blk t).view.emb (ix2 k j)) = V c main_v42 (ix2 k j)
  refine congrArg (V c main_v42) (funext fun a => Fin.ext ?_)
  match a with
  | ⟨0, _⟩ => show win2_5.index t (0 : Fin 2) * 1 + 1 * k.val = k.val; rw [e0]; omega
  | ⟨1, _⟩ => show win2_5.index t (1 : Fin 2) * 128 + 1 * j.val = j.val; rw [e1]; omega

theorem iblk2_6_apply (c : Dev nD) (t : Fin cfg2.N) (k : Fin 128) (j : Fin 128) :
    (iblk2 V c 6 t : FVec Ideal S128x128 .bf16) (ix2 k j) = V c main_v7 (ix2 k j) := by
  obtain ⟨e0, e1⟩ := idx2_6 t
  show V c main_v7 (((cfg2.win 6).blk t).view.emb (ix2 k j)) = V c main_v7 (ix2 k j)
  refine congrArg (V c main_v7) (funext fun a => Fin.ext ?_)
  match a with
  | ⟨0, _⟩ => show win2_6.index t (0 : Fin 2) * 128 + 1 * k.val = k.val; rw [e0]; omega
  | ⟨1, _⟩ => show win2_6.index t (1 : Fin 2) * 128 + 1 * j.val = j.val; rw [e1]; omega

theorem iblk2_7_apply (c : Dev nD) (t : Fin cfg2.N) (k : Fin 1) (j : Fin 128) :
    (iblk2 V c 7 t : FVec Ideal S1x128 .f32) (ix2 k j) = V c main_v43 (ix2 k j) := by
  obtain ⟨e0, e1⟩ := idx2_7 t
  show V c main_v43 (((cfg2.win 7).blk t).view.emb (ix2 k j)) = V c main_v43 (ix2 k j)
  refine congrArg (V c main_v43) (funext fun a => Fin.ext ?_)
  match a with
  | ⟨0, _⟩ => show win2_7.index t (0 : Fin 2) * 1 + 1 * k.val = k.val; rw [e0]; omega
  | ⟨1, _⟩ => show win2_7.index t (1 : Fin 2) * 128 + 1 * j.val = j.val; rw [e1]; omega

/-- Where point `t`'s output block sits: its entry (p, q) is entry (5000·t + p, q) of the array. -/
theorem emb_out2 (t : Fin cfg2.N) (p : Fin 5000) (q : Fin 128) (r : Fin 100000) (hr : r.val = t.val * 5000 + p.val) :
    ((cfg2.win 8).blk t).view.emb (ix2 p q) = (ix2 r q : S100000x128.Idx) := by
  obtain ⟨e0, e1⟩ := idx2_8 t
  refine funext fun a => Fin.ext ?_
  match a with
  | ⟨0, _⟩ => show win2_8.index t (0 : Fin 2) * 5000 + 1 * p.val = r.val; rw [e0, hr]; omega
  | ⟨1, _⟩ => show win2_8.index t (1 : Fin 2) * 128 + 1 * q.val = q.val; rw [e1]; omega

/-- A block's row is a row of the table: point t's row p is row 5000·t + p. -/
theorem row_lt2 (t : Fin cfg2.N) (p : Fin 5000) : t.val * 5000 + p.val < 100000 := by
  have ht : t.val < cfg2.N := t.isLt
  have hN : cfg2.N = 20 := N_2
  have hp : p.val < 5000 := p.isLt
  omega

/-- WHAT POINT `t` WRITES BACK is rows 5000·t … 5000·t + 4999 of the class update of the row-normalised sum. -/
theorem flushed2_eq (c : Dev nD) (t : Fin cfg2.N) :
    (dat2 V c).flushed 8 t = ((cfg2.win 8).blk t).view.read (Elt Ideal)
      (classUpdK (l2n (addT (V c main_v16) (V c main_v41))) (V c main_v4) (V c main_v5) (V c main_v6) (V c main_v42)
        (V c main_v7) (V c main_v43)) := by
  show (cfg2.win 8).cut (grid2.coords t) ((dat2 V c).after 8 t) = _
  rw [after2_8]
  unfold out2_8
  rw [View.canon_unit_zero hz]
  simp only [View.ld_unit_zero (S := S5000x128) hz, View.ld_unit_zero (S := S5000x64) hz, View.ld_unit_zero (S := S128x128) hz,
    View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (iblk2 V c 6 t) (iblk2 V c 7 t) (ix2 p q)
    = classUpdK (l2n (addT (V c main_v16) (V c main_v41))) (V c main_v4) (V c main_v5) (V c main_v6) (V c main_v42) (V c main_v7) (V c main_v43)
        (((cfg2.win 8).blk t).view.emb (ix2 p q))
  rw [emb_out2 t p q ⟨t.val * 5000 + p.val, row_lt2 t p⟩ rfl]
  refine (congrFun (pay2_eq (iblk2 V c 0 t) (iblk2 V c 1 t) (iblk2 V c 2 t) (iblk2 V c 3 t) (iblk2 V c 4 t) (iblk2 V c 5 t) (iblk2 V c 6 t) (iblk2 V c 7 t)) (ix2 p q)).trans ?_
  exact classUpdK_of_row (l2n (addT (V c main_v16) (V c main_v41))) (V c main_v4) (V c main_v5) (V c main_v6) (V c main_v42) (V c main_v7) (V c main_v43)
    (ix2 ⟨t.val * 5000 + p.val, row_lt2 t p⟩ q)
    (truncf .bf16 (normBlk (iblk2 V c 0 t) (iblk2 V c 1 t)) bitsLt_bf16_f32) (iblk2 V c 2 t) (iblk2 V c 3 t) (iblk2 V c 4 t) (iblk2 V c 5 t) (iblk2 V c 6 t) (iblk2 V c 7 t)
    p q
    (fun k => l2n_of_row (V c main_v16) (V c main_v41) ⟨t.val * 5000 + p.val, row_lt2 t p⟩ (iblk2 V c 0 t) (iblk2 V c 1 t) p k
      (fun k' => iblk2_0_apply V c t p k' ⟨t.val * 5000 + p.val, row_lt2 t p⟩ rfl)
      (fun k' => iblk2_1_apply V c t p k' ⟨t.val * 5000 + p.val, row_lt2 t p⟩ rfl))
    (fun k => iblk2_2_apply V c t p k ⟨t.val * 5000 + p.val, row_lt2 t p⟩ rfl)
    (fun k j => iblk2_3_apply V c t k j) (fun k j => iblk2_4_apply V c t k j) (fun j => iblk2_5_apply V c t 0 j)
    (fun j => iblk2_6_apply V c t j q) (iblk2_7_apply V c t 0 q)

/-- An index of the output array is in point `t`'s block iff each coordinate is in the block's range on its axis. -/
theorem mem_blk2 (t : Fin cfg2.N) (i : S100000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v44).slice (win2_8.rect t)).set ↔ _
  rw [View.set_slice_whole, Rect.mem_set_unit]
  exact Iff.rfl

/-- The 20 blocks tile the 100000 rows: row r is in the block of point r / 5000. -/
theorem cover2 (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨e0, e1⟩ := idx2_8 ⟨(i 0).val / 5000, hlt⟩
  refine ⟨⟨(i 0).val / 5000, hlt⟩, flush2_8 _, ?_⟩
  rw [mem_blk2]
  intro a
  match a with
  | ⟨0, _⟩ =>
    show win2_8.index ⟨(i 0).val / 5000, hlt⟩ (0 : Fin 2) * 5000 ≤ (i 0).val ∧ (i 0).val < win2_8.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_8.index ⟨(i 0).val / 5000, hlt⟩ (1 : Fin 2) * 128 ≤ (i 1).val ∧ (i 1).val < win2_8.index ⟨(i 0).val / 5000, hlt⟩ (1 : Fin 2) * 128 + 128
    rw [e1]
    omega

/-- After launch 2 its output array holds the class update of the row-normalised (previous update + messages). -/
theorem final2 (c : Dev nD) :
    (dat2 V c).arrAt 8 cfg2.N
      = classUpdK (l2n (addT (V c main_v16) (V c main_v41))) (V c main_v4) (V c main_v5) (V c main_v6) (V c main_v42)
          (V c main_v7) (V c main_v43) :=
  (dat2 V c).arrAt_eq_of_cover 8
    (classUpdK (l2n (addT (V c main_v16) (V c main_v41))) (V c main_v4) (V c main_v5) (V c main_v6) (V c main_v42)
      (V c main_v7) (V c main_v43))
    (fun t _ => flushed2_eq V c t) cover2

end Cert.Bridge.ClassK

end
-- ==== Proof.RelK.lean ====
/-
  The two relation launches (the same kernel, once per round), read as whole-array functions.
  The grid is 16 layers × 5 blocks of 5000 triples; a point loads the layer's own weight tables and a block of
  subject rows and object rows, and writes the subject head's and the object head's outputs for its 5000 triples.
  Every entry only involves its own triple's two rows and its layer's tables, so each written block is a block of
  one function of the whole arrays, and the 80 blocks tile the 16 × 25000 triples.
-/
import proofs.«406575_j23888608101388_2_alg».proof.Proof.Gen.KernelIdeal.Frame
import proofs.«406575_j23888608101388_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.RelK

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

-- The TensorCore's buffer contents when the region is entered (any contents: the run instantiates them).
variable (V : (c : Dev nD) → (b : Ref sig .tc) → Buf (Elt Ideal) ((c : Thread nD τ).loc b))

/-! ## A 5000 × 128 block times a 128 × 128 table

Both launches contract the block's second axis against the table's first. The four facts below say which coordinate of
each operand an output index (p, q) and a contraction index k select: (p, k) on the left, (k, q) on the right. -/

theorem mm_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a table, started from the zero table: entry (p, q) is the sum over k of row p's k-th entry times
    the table's entry (k, q). The zero word is the additive zero, so nothing is left of the start. -/
theorem mm_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-! ## The perceptron on one block, and `outRK` at an index -/

theorem hz3 : (![0, 0, 0] : Fin 3 → Nat) = fun _ => 0 := funext fun a => by fin_cases a <;> rfl

/-- Hidden unit j of triple p of a block: the subject row against the first table, the object row against the second,
    the bias row, rectified. The blocks keep their leading axis of extent one. -/
def hidB (x0 x1 : Vec Ideal S1x5000x128 .f32) (x2 x3 : Vec Ideal S1x128x128 .bf16) (x4 : Vec Ideal S1x1x128 .f32)
    (p : Fin 5000) (j : Fin 128) : EReal :=
  max (((∑ k : Fin 128, x0 (ix3 (0 : Fin 1) p k) * x2 (ix3 (0 : Fin 1) k j))
          + (∑ k : Fin 128, x1 (ix3 (0 : Fin 1) p k) * x3 (ix3 (0 : Fin 1) k j)))
         + x4 (ix3 (0 : Fin 1) (0 : Fin 1) j)) zeroW

/-- `outRK` at the index with coordinates (L, R, q): it involves row R of layer L of the two row arrays and layer L of
    each table. -/
theorem outRK_at (es eo : SLED.Idx → EReal) (w1s w1o : SRW.Idx → EReal) (b1r : SRROW.Idx → EReal)
    (w : SRW.Idx → EReal) (br : SRROW.Idx → EReal) (L : Fin 16) (R : Fin 25000) (q : Fin 128) :
    outRK es eo w1s w1o b1r w br (ix3 L R q)
      = (∑ j : Fin 128,
          max (((∑ k : Fin 128, es (ix3 L R k) * w1s (ix3 L k j)) + (∑ k : Fin 128, eo (ix3 L R k) * w1o (ix3 L k j)))
                + b1r (ix3 L (0 : Fin 1) j)) zeroW * w (ix3 L j q))
        + br (ix3 L (0 : Fin 1) q) := rfl

/-! # The first relation launch -/

/-! ## What the body computes, at an index

The changes of number format are the identity on extended reals, dropping or adding the leading axis of extent one
re-reads the same entry, and a bias row is repeated down the 5000 triples. -/

/-- The body's hidden layer, read at (p, j), is the block's hidden unit. -/
theorem hidden1_at (x0 x1 : Vec Ideal S1x5000x128 .f32) (x2 x3 : Vec Ideal S1x128x128 .bf16) (x4 : Vec Ideal S1x1x128 .f32)
    (p : Fin 5000) (j : Fin 128) :
    k1_pay3 (F := Ideal) x0 x1 x2 x3 x4 (ix2 p j) = hidB x0 x1 x2 x3 x4 p j := by
  unfold k1_pay3 hidB
  show max ((matmul _ none _ _ _ (ix2 p j) + matmul _ none _ _ _ (ix2 p j)) + broadcastTo S5000x128 _ _ (ix2 p j)) _ = _
  rw [mm_at, mm_at, broadcastTo_1b_ab_apply, shapeCast_1ab_ab_apply]
  simp only [truncf_apply, shapeCast_1ab_ab_apply]
  rfl

/-- What the body stores for the subject head, at (u, p, q): the hidden layer of triple p through the head's table,
    plus the head's bias row. -/
theorem subj1_at (x0 x1 : Vec Ideal S1x5000x128 .f32) (x2 x3 : Vec Ideal S1x128x128 .bf16) (x4 : Vec Ideal S1x1x128 .f32)
    (x5 : Vec Ideal S1x128x128 .bf16) (x6 : Vec Ideal S1x1x128 .f32) (u : Fin 1) (p : Fin 5000) (q : Fin 128) :
    k1_pay1 (F := Ideal) (k1_pay5 (F := Ideal) x0 x1 x2 x3 x4 x5 x6) (ix3 u p q)
      = (∑ j : Fin 128, hidB x0 x1 x2 x3 x4 p j * x5 (ix3 (0 : Fin 1) j q)) + x6 (ix3 (0 : Fin 1) (0 : Fin 1) q) := by
  unfold k1_pay1 k1_pay5
  rw [shapeCast_ab_1ab_apply]
  show matmul _ none _ _ _ (ix2 p q) + broadcastTo S5000x128 _ _ (ix2 p q) = _
  rw [mm_at, broadcastTo_1b_ab_apply, shapeCast_1ab_ab_apply]
  simp only [hidden1_at, shapeCast_1ab_ab_apply]

/-- The same for the object head, whose stored value is spelled from the shared hidden layer directly. -/
theorem obj1_at (x0 x1 : Vec Ideal S1x5000x128 .f32) (x2 x3 : Vec Ideal S1x128x128 .bf16) (x4 : Vec Ideal S1x1x128 .f32)
    (x7 : Vec Ideal S1x128x128 .bf16) (x8 : Vec Ideal S1x1x128 .f32) (u : Fin 1) (p : Fin 5000) (q : Fin 128) :
    k1_pay2 (F := Ideal) (k1_pay3 (F := Ideal) x0 x1 x2 x3 x4) (k1_pay4 (F := Ideal) x7) (constant (F := Ideal) S5000x128 .f32 0x00000000#32) x8 (ix3 u p q)
      = (∑ j : Fin 128, hidB x0 x1 x2 x3 x4 p j * x7 (ix3 (0 : Fin 1) j q)) + x8 (ix3 (0 : Fin 1) (0 : Fin 1) q) := by
  unfold k1_pay2 k1_pay4
  rw [shapeCast_ab_1ab_apply]
  show matmul _ none _ _ _ (ix2 p q) + broadcastTo S5000x128 _ _ (ix2 p q) = _
  rw [mm_at, broadcastTo_1b_ab_apply, shapeCast_1ab_ab_apply]
  simp only [hidden1_at, shapeCast_1ab_ab_apply]

/-! ## Where each window's block sits at a grid point -/

/-- The index maps over the 16 × 5 grid: the row windows (subject rows, object rows, both outputs) sit at
    (layer, block, 0), with layer ≤ 15 and block ≤ 4. -/
theorem maps1 : ∀ t : Fin cfg1.N,
    (win1_1.index t (0 : Fin 3) = win1_0.index t (0 : Fin 3) ∧ win1_1.index t (1 : Fin 3) = win1_0.index t (1 : Fin 3) ∧ win1_1.index t (2 : Fin 3) = 0)
    ∧ (win1_9.index t (0 : Fin 3) = win1_0.index t (0 : Fin 3) ∧ win1_9.index t (1 : Fin 3) = win1_0.index t (1 : Fin 3) ∧ win1_9.index t (2 : Fin 3) = 0)
    ∧ (win1_10.index t (0 : Fin 3) = win1_0.index t (0 : Fin 3) ∧ win1_10.index t (1 : Fin 3) = win1_0.index t (1 : Fin 3) ∧ win1_10.index t (2 : Fin 3) = 0)
    ∧ (win1_0.index t (0 : Fin 3) ≤ 15 ∧ win1_0.index t (1 : Fin 3) ≤ 4 ∧ win1_0.index t (2 : Fin 3) = 0) :=
  (by decide +kernel : ∀ t : Fin grid1.N, _)

/-- The four weight tables' windows sit at (layer, 0, 0). -/
theorem maps1_tables : ∀ t : Fin cfg1.N,
    (win1_2.index t (0 : Fin 3) = win1_0.index t (0 : Fin 3) ∧ win1_2.index t (1 : Fin 3) = 0 ∧ win1_2.index t (2 : Fin 3) = 0)
    ∧ (win1_3.index t (0 : Fin 3) = win1_0.index t (0 : Fin 3) ∧ win1_3.index t (1 : Fin 3) = 0 ∧ win1_3.index t (2 : Fin 3) = 0)
    ∧ (win1_5.index t (0 : Fin 3) = win1_0.index t (0 : Fin 3) ∧ win1_5.index t (1 : Fin 3) = 0 ∧ win1_5.index t (2 : Fin 3) = 0)
    ∧ (win1_7.index t (0 : Fin 3) = win1_0.index t (0 : Fin 3) ∧ win1_7.index t (1 : Fin 3) = 0 ∧ win1_7.index t (2 : Fin 3) = 0) :=
  (by decide +kernel : ∀ t : Fin grid1.N, _)

/-- So do the three bias rows' windows. -/
theorem maps1_biases : ∀ t : Fin cfg1.N,
    (win1_4.index t (0 : Fin 3) = win1_0.index t (0 : Fin 3) ∧ win1_4.index t (1 : Fin 3) = 0 ∧ win1_4.index t (2 : Fin 3) = 0)
    ∧ (win1_6.index t (0 : Fin 3) = win1_0.index t (0 : Fin 3) ∧ win1_6.index t (1 : Fin 3) = 0 ∧ win1_6.index t (2 : Fin 3) = 0)
    ∧ (win1_8.index t (0 : Fin 3) = win1_0.index t (0 : Fin 3) ∧ win1_8.index t (1 : Fin 3) = 0 ∧ win1_8.index t (2 : Fin 3) = 0) :=
  (by decide +kernel : ∀ t : Fin grid1.N, _)

/-- Every (layer, block) pair is some grid point's. -/
theorem maps1_onto : ∀ (l : Fin 16) (b : Fin 5), ∃ t : Fin cfg1.N, win1_0.index t = ![l.val, b.val, 0] :=
  (by decide +kernel : ∀ (l : Fin 16) (b : Fin 5), ∃ t : Fin grid1.N, win1_0.index t = ![l.val, b.val, 0])

/-! ## Each input block as entries of its array

A block's coordinate on an axis is the block index times the block's extent plus the coordinate inside the block. -/

/-- The subject rows' block at a point, read at (0, p, k): the array's entry (layer, 5000 · block + p, k). -/
theorem subjRows1_read (c : Dev nD) (t : Fin cfg1.N) (p : Fin 5000) (k : Fin 128) (L : Fin 16) (R : Fin 25000)
    (hL : L.val = win1_0.index t (0 : Fin 3)) (hR : R.val = win1_0.index t (1 : Fin 3) * 5000 + p.val) :
    (iblk1 V c 0 t : Vec Ideal S1x5000x128 .f32) (ix3 (0 : Fin 1) p k) = (V c main_v18 : S16x25000x128.Idx → EReal) (ix3 L R k) := by
  obtain ⟨-, -, -, ⟨e0, e1, e2⟩⟩ := maps1 t
  unfold iblk1
  rw [View.read_apply]
  show V c main_v18 _ = V c main_v18 _
  congr 1
  funext a
  apply Fin.ext
  match a with
  | ⟨0, _⟩ => show win1_0.index t (0 : Fin 3) * 1 + 1 * 0 = L.val; omega
  | ⟨1, _⟩ => show win1_0.index t (1 : Fin 3) * 5000 + 1 * p.val = R.val; omega
  | ⟨2, _⟩ => show win1_0.index t (2 : Fin 3) * 128 + 1 * k.val = k.val; omega

/-- The object rows' block at a point, read at (0, p, k): the array's entry (layer, 5000 · block + p, k). -/
theorem objRows1_read (c : Dev nD) (t : Fin cfg1.N) (p : Fin 5000) (k : Fin 128) (L : Fin 16) (R : Fin 25000)
    (hL : L.val = win1_0.index t (0 : Fin 3)) (hR : R.val = win1_0.index t (1 : Fin 3) * 5000 + p.val) :
    (iblk1 V c 1 t : Vec Ideal S1x5000x128 .f32) (ix3 (0 : Fin 1) p k) = (V c main_v20 : S16x25000x128.Idx → EReal) (ix3 L R k) := by
  obtain ⟨⟨a0, a1, a2⟩, -, -, ⟨e0, e1, e2⟩⟩ := maps1 t
  unfold iblk1
  rw [View.read_apply]
  show V c main_v20 _ = V c main_v20 _
  congr 1
  funext a
  apply Fin.ext
  match a with
  | ⟨0, _⟩ => show win1_1.index t (0 : Fin 3) * 1 + 1 * 0 = L.val; omega
  | ⟨1, _⟩ => show win1_1.index t (1 : Fin 3) * 5000 + 1 * p.val = R.val; omega
  | ⟨2, _⟩ => show win1_1.index t (2 : Fin 3) * 128 + 1 * k.val = k.val; omega

/-- The subject-side first table's block at a point, read at (0, k, j): the layer's own table at (k, j). -/
theorem subjTable1_read (c : Dev nD) (t : Fin cfg1.N) (k j : Fin 128) (L : Fin 16)
    (hL : L.val = win1_0.index t (0 : Fin 3)) :
    (iblk1 V c 2 t : Vec Ideal S1x128x128 .bf16) (ix3 (0 : Fin 1) k j) = (V c main_v8 : S16x128x128.Idx → EReal) (ix3 L k j) := by
  obtain ⟨⟨a0, a1, a2⟩, -, -, -⟩ := maps1_tables t
  unfold iblk1
  rw [View.read_apply]
  show V c main_v8 _ = V c main_v8 _
  congr 1
  funext a
  apply Fin.ext
  match a with
  | ⟨0, _⟩ => show win1_2.index t (0 : Fin 3) * 1 + 1 * 0 = L.val; omega
  | ⟨1, _⟩ => show win1_2.index t (1 : Fin 3) * 128 + 1 * k.val = k.val; omega
  | ⟨2, _⟩ => show win1_2.index t (2 : Fin 3) * 128 + 1 * j.val = j.val; omega

/-- The object-side first table's block at a point, read at (0, k, j): the layer's own table at (k, j). -/
theorem objTable1_read (c : Dev nD) (t : Fin cfg1.N) (k j : Fin 128) (L : Fin 16)
    (hL : L.val = win1_0.index t (0 : Fin 3)) :
    (iblk1 V c 3 t : Vec Ideal S1x128x128 .bf16) (ix3 (0 : Fin 1) k j) = (V c main_v9 : S16x128x128.Idx → EReal) (ix3 L k j) := by
  obtain ⟨-, ⟨a0, a1, a2⟩, -, -⟩ := maps1_tables t
  unfold iblk1
  rw [View.read_apply]
  show V c main_v9 _ = V c main_v9 _
  congr 1
  funext a
  apply Fin.ext
  match a with
  | ⟨0, _⟩ => show win1_3.index t (0 : Fin 3) * 1 + 1 * 0 = L.val; omega
  | ⟨1, _⟩ => show win1_3.index t (1 : Fin 3) * 128 + 1 * k.val = k.val; omega
  | ⟨2, _⟩ => show win1_3.index t (2 : Fin 3) * 128 + 1 * j.val = j.val; omega

/-- The hidden bias row's block at a point, read at (0, 0, j): the layer's own bias row at j. -/
theorem hidBias1_read (c : Dev nD) (t : Fin cfg1.N) (j : Fin 128) (L : Fin 16)
    (hL : L.val = win1_0.index t (0 : Fin 3)) :
    (iblk1 V c 4 t : Vec Ideal S1x1x128 .f32) (ix3 (0 : Fin 1) (0 : Fin 1) j) = (V c main_v21 : S16x1x128.Idx → EReal) (ix3 L (0 : Fin 1) j) := by
  obtain ⟨⟨a0, a1, a2⟩, -, -⟩ := maps1_biases t
  unfold iblk1
  rw [View.read_apply]
  show V c main_v21 _ = V c main_v21 _
  congr 1
  funext a
  apply Fin.ext
  match a with
  | ⟨0, _⟩ => show win1_4.index t (0 : Fin 3) * 1 + 1 * 0 = L.val; omega
  | ⟨1, _⟩ => show win1_4.index t (1 : Fin 3) * 1 + 1 * 0 = 0; omega
  | ⟨2, _⟩ => show win1_4.index t (2 : Fin 3) * 128 + 1 * j.val = j.val; omega

/-- The subject head's table's block at a point, read at (0, k, j): the layer's own table at (k, j). -/
theorem subjHead1_read (c : Dev nD) (t : Fin cfg1.N) (k j : Fin 128) (L : Fin 16)
    (hL : L.val = win1_0.index t (0 : Fin 3)) :
    (iblk1 V c 5 t : Vec Ideal S1x128x128 .bf16) (ix3 (0 : Fin 1) k j) = (V c main_v10 : S16x128x128.Idx → EReal) (ix3 L k j) := by
  obtain ⟨-, -, ⟨a0, a1, a2⟩, -⟩ := maps1_tables t
  unfold iblk1
  rw [View.read_apply]
  show V c main_v10 _ = V c main_v10 _
  congr 1
  funext a
  apply Fin.ext
  match a with
  | ⟨0, _⟩ => show win1_5.index t (0 : Fin 3) * 1 + 1 * 0 = L.val; omega
  | ⟨1, _⟩ => show win1_5.index t (1 : Fin 3) * 128 + 1 * k.val = k.val; omega
  | ⟨2, _⟩ => show win1_5.index t (2 : Fin 3) * 128 + 1 * j.val = j.val; omega

/-- The subject head's bias row's block at a point, read at (0, 0, j): the layer's own bias row at j. -/
theorem subjHeadBias1_read (c : Dev nD) (t : Fin cfg1.N) (j : Fin 128) (L : Fin 16)
    (hL : L.val = win1_0.index t (0 : Fin 3)) :
    (iblk1 V c 6 t : Vec Ideal S1x1x128 .f32) (ix3 (0 : Fin 1) (0 : Fin 1) j) = (V c main_v22 : S16x1x128.Idx → EReal) (ix3 L (0 : Fin 1) j) := by
  obtain ⟨-, ⟨a0, a1, a2⟩, -⟩ := maps1_biases t
  unfold iblk1
  rw [View.read_apply]
  show V c main_v22 _ = V c main_v22 _
  congr 1
  funext a
  apply Fin.ext
  match a with
  | ⟨0, _⟩ => show win1_6.index t (0 : Fin 3) * 1 + 1 * 0 = L.val; omega
  | ⟨1, _⟩ => show win1_6.index t (1 : Fin 3) * 1 + 1 * 0 = 0; omega
  | ⟨2, _⟩ => show win1_6.index t (2 : Fin 3) * 128 + 1 * j.val = j.val; omega

/-- The object head's table's block at a point, read at (0, k, j): the layer's own table at (k, j). -/
theorem objHead1_read (c : Dev nD) (t : Fin cfg1.N) (k j : Fin 128) (L : Fin 16)
    (hL : L.val = win1_0.index t (0 : Fin 3)) :
    (iblk1 V c 7 t : Vec Ideal S1x128x128 .bf16) (ix3 (0 : Fin 1) k j) = (V c main_v11 : S16x128x128.Idx → EReal) (ix3 L k j) := by
  obtain ⟨-, -, -, ⟨a0, a1, a2⟩⟩ := maps1_tables t
  unfold iblk1
  rw [View.read_apply]
  show V c main_v11 _ = V c main_v11 _
  congr 1
  funext a
  apply Fin.ext
  match a with
  | ⟨0, _⟩ => show win1_7.index t (0 : Fin 3) * 1 + 1 * 0 = L.val; omega
  | ⟨1, _⟩ => show win1_7.index t (1 : Fin 3) * 128 + 1 * k.val = k.val; omega
  | ⟨2, _⟩ => show win1_7.index t (2 : Fin 3) * 128 + 1 * j.val = j.val; omega

/-- The object head's bias row's block at a point, read at (0, 0, j): the layer's own bias row at j. -/
theorem objHeadBias1_read (c : Dev nD) (t : Fin cfg1.N) (j : Fin 128) (L : Fin 16)
    (hL : L.val = win1_0.index t (0 : Fin 3)) :
    (iblk1 V c 8 t : Vec Ideal S1x1x128 .f32) (ix3 (0 : Fin 1) (0 : Fin 1) j) = (V c main_v23 : S16x1x128.Idx → EReal) (ix3 L (0 : Fin 1) j) := by
  obtain ⟨-, -, ⟨a0, a1, a2⟩⟩ := maps1_biases t
  unfold iblk1
  rw [View.read_apply]
  show V c main_v23 _ = V c main_v23 _
  congr 1
  funext a
  apply Fin.ext
  match a with
  | ⟨0, _⟩ => show win1_8.index t (0 : Fin 3) * 1 + 1 * 0 = L.val; omega
  | ⟨1, _⟩ => show win1_8.index t (1 : Fin 3) * 1 + 1 * 0 = 0; omega
  | ⟨2, _⟩ => show win1_8.index t (2 : Fin 3) * 128 + 1 * j.val = j.val; omega

/-! ## The subject head's array -/

/-- What a grid point writes back to the subject head's array is that point's block of `outRK`: entry (0, p, q) of the
    block only involves triple p's two rows and the point's layer's tables, each read where the block sits. -/
theorem subjBlock1 (c : Dev nD) (t : Fin cfg1.N) :
    (dat1 V c).flushed 9 t = ((cfg1.win 9).blk t).view.read (Elt Ideal)
      (outRK (V c main_v18) (V c main_v20) (V c main_v8) (V c main_v9) (V c main_v21) (V c main_v10) (V c main_v22)) := by
  show (cfg1.win 9).cut (grid1.coords t) ((dat1 V c).after 9 t) = _
  rw [after1_9]
  unfold out1_9
  rw [View.canon_unit_zero hz3]
  simp only [View.ld_unit_zero (S := S1x5000x128) hz3, View.ld_unit_zero (S := S1x128x128) hz3, View.ld_unit_zero (S := S1x1x128) hz3]
  obtain ⟨-, ⟨o0, o1, o2⟩, -, ⟨e0, e1, e2⟩⟩ := maps1 t
  refine funext fun (y : S1x5000x128.Idx) => ?_
  obtain ⟨u, p, q, rfl⟩ : ∃ (u : Fin 1) (p : Fin 5000) (q : Fin 128), y = ix3 u p q := ⟨y 0, y 1, y 2, eq_ix3 y⟩
  have hu : u.val = 0 := by omega
  have hp : p.val < 5000 := p.isLt
  have hL : win1_0.index t (0 : Fin 3) < 16 := by omega
  have hR : win1_0.index t (1 : Fin 3) * 5000 + p.val < 25000 := by omega
  have hemb : ((cfg1.win 9).blk t).view.emb (ix3 u p q)
      = (ix3 (⟨win1_0.index t (0 : Fin 3), hL⟩ : Fin 16) (⟨win1_0.index t (1 : Fin 3) * 5000 + p.val, hR⟩ : Fin 25000) q : S16x25000x128.Idx) := by
    funext a
    apply Fin.ext
    match a with
    | ⟨0, _⟩ => show win1_9.index t (0 : Fin 3) * 1 + 1 * u.val = win1_0.index t (0 : Fin 3); omega
    | ⟨1, _⟩ => show win1_9.index t (1 : Fin 3) * 5000 + 1 * p.val = win1_0.index t (1 : Fin 3) * 5000 + p.val; omega
    | ⟨2, _⟩ => show win1_9.index t (2 : Fin 3) * 128 + 1 * q.val = q.val; omega
  show _ = outRK (V c main_v18) (V c main_v20) (V c main_v8) (V c main_v9) (V c main_v21) (V c main_v10) (V c main_v22)
      (((cfg1.win 9).blk t).view.emb (ix3 u p q))
  rw [hemb, outRK_at]
  refine (subj1_at (iblk1 V c 0 t) (iblk1 V c 1 t) (iblk1 V c 2 t) (iblk1 V c 3 t) (iblk1 V c 4 t) (iblk1 V c 5 t) (iblk1 V c 6 t) u p q).trans ?_
  unfold hidB
  simp only [fun k => subjRows1_read V c t p k ⟨win1_0.index t (0 : Fin 3), hL⟩ ⟨win1_0.index t (1 : Fin 3) * 5000 + p.val, hR⟩ rfl rfl,
    fun k => objRows1_read V c t p k ⟨win1_0.index t (0 : Fin 3), hL⟩ ⟨win1_0.index t (1 : Fin 3) * 5000 + p.val, hR⟩ rfl rfl,
    fun k j => subjTable1_read V c t k j ⟨win1_0.index t (0 : Fin 3), hL⟩ rfl,
    fun k j => objTable1_read V c t k j ⟨win1_0.index t (0 : Fin 3), hL⟩ rfl,
    fun j => hidBias1_read V c t j ⟨win1_0.index t (0 : Fin 3), hL⟩ rfl,
    fun k j => subjHead1_read V c t k j ⟨win1_0.index t (0 : Fin 3), hL⟩ rfl,
    fun j => subjHeadBias1_read V c t j ⟨win1_0.index t (0 : Fin 3), hL⟩ rfl]

/-- An index lies in a point's block of the subject head's array iff each coordinate lies in the block's range. -/
theorem mem_subjBlock1 (t : Fin cfg1.N) (i : S16x25000x128.Idx) :
    i ∈ ((cfg1.win 9).blk t).view.set ↔ ∀ a : Fin 3, win1_9.index t a * S1x5000x128.size a ≤ (i a).val ∧ (i a).val < win1_9.index t a * S1x5000x128.size a + S1x5000x128.size a := by
  show i ∈ ((View.whole main_v24_0).slice (win1_9.rect t)).set ↔ _
  rw [View.set_slice_whole, Rect.mem_set_unit]
  exact Iff.rfl

/-- The 80 blocks tile the 16 × 25000 triples: (l, e, d) lies in the block of the point at layer l, block e / 5000. -/
theorem subjTiles1 (i : S16x25000x128.Idx) :
    ∃ t : Fin cfg1.N, (cfg1.win 9).flush t = true ∧ i ∈ ((cfg1.win 9).blk t).view.set := by
  have h0 : (i 0).val < 16 := (i 0).isLt
  have h1 : (i 1).val < 25000 := (i 1).isLt
  have h2 : (i 2).val < 128 := (i 2).isLt
  obtain ⟨t, ht⟩ := maps1_onto ⟨(i 0).val, h0⟩ ⟨(i 1).val / 5000, by omega⟩
  obtain ⟨-, ⟨o0, o1, o2⟩, -, -⟩ := maps1 t
  have q0 : win1_0.index t (0 : Fin 3) = (i 0).val := congrFun ht 0
  have q1 : win1_0.index t (1 : Fin 3) = (i 1).val / 5000 := congrFun ht 1
  refine ⟨t, flush1_9 t, ?_⟩
  rw [mem_subjBlock1]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 5000 ≤ (i 1).val ∧ (i 1).val < win1_9.index t (1 : Fin 3) * 5000 + 5000; omega
  | ⟨2, _⟩ => show win1_9.index t (2 : Fin 3) * 128 ≤ (i 2).val ∧ (i 2).val < win1_9.index t (2 : Fin 3) * 128 + 128; omega

/-- After the first relation launch the subject head's array holds `outRK` of the gathered rows and the subject head's weights. -/
theorem final1_9 (c : Dev nD) :
    (dat1 V c).arrAt 9 cfg1.N
      = outRK (V c main_v18) (V c main_v20) (V c main_v8) (V c main_v9) (V c main_v21) (V c main_v10) (V c main_v22) :=
  (dat1 V c).arrAt_eq_of_cover 9 _ (fun t _ => subjBlock1 V c t) subjTiles1

/-! ## The object head's array -/

/-- What a grid point writes back to the object head's array is that point's block of `outRK` with the object head's
    table and bias row: the hidden layer is the same, only the last table and bias differ. -/
theorem objBlock1 (c : Dev nD) (t : Fin cfg1.N) :
    (dat1 V c).flushed 10 t = ((cfg1.win 10).blk t).view.read (Elt Ideal)
      (outRK (V c main_v18) (V c main_v20) (V c main_v8) (V c main_v9) (V c main_v21) (V c main_v11) (V c main_v23)) := by
  show (cfg1.win 10).cut (grid1.coords t) ((dat1 V c).after 10 t) = _
  rw [after1_10]
  unfold out1_10
  rw [View.canon_unit_zero hz3]
  simp only [View.ld_unit_zero (S := S1x5000x128) hz3, View.ld_unit_zero (S := S1x128x128) hz3, View.ld_unit_zero (S := S1x1x128) hz3]
  obtain ⟨-, -, ⟨o0, o1, o2⟩, ⟨e0, e1, e2⟩⟩ := maps1 t
  refine funext fun (y : S1x5000x128.Idx) => ?_
  obtain ⟨u, p, q, rfl⟩ : ∃ (u : Fin 1) (p : Fin 5000) (q : Fin 128), y = ix3 u p q := ⟨y 0, y 1, y 2, eq_ix3 y⟩
  have hu : u.val = 0 := by omega
  have hp : p.val < 5000 := p.isLt
  have hL : win1_0.index t (0 : Fin 3) < 16 := by omega
  have hR : win1_0.index t (1 : Fin 3) * 5000 + p.val < 25000 := by omega
  have hemb : ((cfg1.win 10).blk t).view.emb (ix3 u p q)
      = (ix3 (⟨win1_0.index t (0 : Fin 3), hL⟩ : Fin 16) (⟨win1_0.index t (1 : Fin 3) * 5000 + p.val, hR⟩ : Fin 25000) q : S16x25000x128.Idx) := by
    funext a
    apply Fin.ext
    match a with
    | ⟨0, _⟩ => show win1_10.index t (0 : Fin 3) * 1 + 1 * u.val = win1_0.index t (0 : Fin 3); omega
    | ⟨1, _⟩ => show win1_10.index t (1 : Fin 3) * 5000 + 1 * p.val = win1_0.index t (1 : Fin 3) * 5000 + p.val; omega
    | ⟨2, _⟩ => show win1_10.index t (2 : Fin 3) * 128 + 1 * q.val = q.val; omega
  show _ = outRK (V c main_v18) (V c main_v20) (V c main_v8) (V c main_v9) (V c main_v21) (V c main_v11) (V c main_v23)
      (((cfg1.win 10).blk t).view.emb (ix3 u p q))
  rw [hemb, outRK_at]
  refine (obj1_at (iblk1 V c 0 t) (iblk1 V c 1 t) (iblk1 V c 2 t) (iblk1 V c 3 t) (iblk1 V c 4 t) (iblk1 V c 7 t) (iblk1 V c 8 t) u p q).trans ?_
  unfold hidB
  simp only [fun k => subjRows1_read V c t p k ⟨win1_0.index t (0 : Fin 3), hL⟩ ⟨win1_0.index t (1 : Fin 3) * 5000 + p.val, hR⟩ rfl rfl,
    fun k => objRows1_read V c t p k ⟨win1_0.index t (0 : Fin 3), hL⟩ ⟨win1_0.index t (1 : Fin 3) * 5000 + p.val, hR⟩ rfl rfl,
    fun k j => subjTable1_read V c t k j ⟨win1_0.index t (0 : Fin 3), hL⟩ rfl,
    fun k j => objTable1_read V c t k j ⟨win1_0.index t (0 : Fin 3), hL⟩ rfl,
    fun j => hidBias1_read V c t j ⟨win1_0.index t (0 : Fin 3), hL⟩ rfl,
    fun k j => objHead1_read V c t k j ⟨win1_0.index t (0 : Fin 3), hL⟩ rfl,
    fun j => objHeadBias1_read V c t j ⟨win1_0.index t (0 : Fin 3), hL⟩ rfl]

/-- An index lies in a point's block of the object head's array iff each coordinate lies in the block's range. -/
theorem mem_objBlock1 (t : Fin cfg1.N) (i : S16x25000x128.Idx) :
    i ∈ ((cfg1.win 10).blk t).view.set ↔ ∀ a : Fin 3, win1_10.index t a * S1x5000x128.size a ≤ (i a).val ∧ (i a).val < win1_10.index t a * S1x5000x128.size a + S1x5000x128.size a := by
  show i ∈ ((View.whole main_v24_1).slice (win1_10.rect t)).set ↔ _
  rw [View.set_slice_whole, Rect.mem_set_unit]
  exact Iff.rfl

/-- The object head's 80 blocks tile its array the same way. -/
theorem objTiles1 (i : S16x25000x128.Idx) :
    ∃ t : Fin cfg1.N, (cfg1.win 10).flush t = true ∧ i ∈ ((cfg1.win 10).blk t).view.set := by
  have h0 : (i 0).val < 16 := (i 0).isLt
  have h1 : (i 1).val < 25000 := (i 1).isLt
  have h2 : (i 2).val < 128 := (i 2).isLt
  obtain ⟨t, ht⟩ := maps1_onto ⟨(i 0).val, h0⟩ ⟨(i 1).val / 5000, by omega⟩
  obtain ⟨-, -, ⟨o0, o1, o2⟩, -⟩ := maps1 t
  have q0 : win1_0.index t (0 : Fin 3) = (i 0).val := congrFun ht 0
  have q1 : win1_0.index t (1 : Fin 3) = (i 1).val / 5000 := congrFun ht 1
  refine ⟨t, flush1_10 t, ?_⟩
  rw [mem_objBlock1]
  intro a
  match a with
  | ⟨0, _⟩ => show win1_10.index t (0 : Fin 3) * 1 ≤ (i 0).val ∧ (i 0).val < win1_10.index t (0 : Fin 3) * 1 + 1; omega
  | ⟨1, _⟩ => show win1_10.index t (1 : Fin 3) * 5000 ≤ (i 1).val ∧ (i 1).val < win1_10.index t (1 : Fin 3) * 5000 + 5000; omega
  | ⟨2, _⟩ => show win1_10.index t (2 : Fin 3) * 128 ≤ (i 2).val ∧ (i 2).val < win1_10.index t (2 : Fin 3) * 128 + 128; omega

/-- … and the object head's array the same with the object head's weights. -/
theorem final1_10 (c : Dev nD) :
    (dat1 V c).arrAt 10 cfg1.N
      = outRK (V c main_v18) (V c main_v20) (V c main_v8) (V c main_v9) (V c main_v21) (V c main_v11) (V c main_v23) :=
  (dat1 V c).arrAt_eq_of_cover 10 _ (fun t _ => objBlock1 V c t) objTiles1

/-! # The second relation launch

The same kernel on the second round's gathered rows and bias rows; the grid, the windows' places and the body are those
of the first launch, so each step below is the first launch's step on this launch's names. -/

/-! ## What the body computes, at an index -/

/-- The body's hidden layer, read at (p, j), is the block's hidden unit. -/
theorem hidden3_at (x0 x1 : Vec Ideal S1x5000x128 .f32) (x2 x3 : Vec Ideal S1x128x128 .bf16) (x4 : Vec Ideal S1x1x128 .f32)
    (p : Fin 5000) (j : Fin 128) :
    k3_pay3 (F := Ideal) x0 x1 x2 x3 x4 (ix2 p j) = hidB x0 x1 x2 x3 x4 p j := by
  unfold k3_pay3 hidB
  show max ((matmul _ none _ _ _ (ix2 p j) + matmul _ none _ _ _ (ix2 p j)) + broadcastTo S5000x128 _ _ (ix2 p j)) _ = _
  rw [mm_at, mm_at, broadcastTo_1b_ab_apply, shapeCast_1ab_ab_apply]
  simp only [truncf_apply, shapeCast_1ab_ab_apply]
  rfl

/-- What the body stores for the subject head, at (u, p, q): the hidden layer of triple p through the head's table,
    plus the head's bias row. -/
theorem subj3_at (x0 x1 : Vec Ideal S1x5000x128 .f32) (x2 x3 : Vec Ideal S1x128x128 .bf16) (x4 : Vec Ideal S1x1x128 .f32)
    (x5 : Vec Ideal S1x128x128 .bf16) (x6 : Vec Ideal S1x1x128 .f32) (u : Fin 1) (p : Fin 5000) (q : Fin 128) :
    k3_pay1 (F := Ideal) (k3_pay5 (F := Ideal) x0 x1 x2 x3 x4 x5 x6) (ix3 u p q)
      = (∑ j : Fin 128, hidB x0 x1 x2 x3 x4 p j * x5 (ix3 (0 : Fin 1) j q)) + x6 (ix3 (0 : Fin 1) (0 : Fin 1) q) := by
  unfold k3_pay1 k3_pay5
  rw [shapeCast_ab_1ab_apply]
  show matmul _ none _ _ _ (ix2 p q) + broadcastTo S5000x128 _ _ (ix2 p q) = _
  rw [mm_at, broadcastTo_1b_ab_apply, shapeCast_1ab_ab_apply]
  simp only [hidden3_at, shapeCast_1ab_ab_apply]

/-- The same for the object head, whose stored value is spelled from the shared hidden layer directly. -/
theorem obj3_at (x0 x1 : Vec Ideal S1x5000x128 .f32) (x2 x3 : Vec Ideal S1x128x128 .bf16) (x4 : Vec Ideal S1x1x128 .f32)
    (x7 : Vec Ideal S1x128x128 .bf16) (x8 : Vec Ideal S1x1x128 .f32) (u : Fin 1) (p : Fin 5000) (q : Fin 128) :
    k3_pay2 (F := Ideal) (k3_pay3 (F := Ideal) x0 x1 x2 x3 x4) (k3_pay4 (F := Ideal) x7) (constant (F := Ideal) S5000x128 .f32 0x00000000#32) x8 (ix3 u p q)
      = (∑ j : Fin 128, hidB x0 x1 x2 x3 x4 p j * x7 (ix3 (0 : Fin 1) j q)) + x8 (ix3 (0 : Fin 1) (0 : Fin 1) q) := by
  unfold k3_pay2 k3_pay4
  rw [shapeCast_ab_1ab_apply]
  show matmul _ none _ _ _ (ix2 p q) + broadcastTo S5000x128 _ _ (ix2 p q) = _
  rw [mm_at, broadcastTo_1b_ab_apply, shapeCast_1ab_ab_apply]
  simp only [hidden3_at, shapeCast_1ab_ab_apply]

/-! ## Where each window's block sits at a grid point -/

/-- The index maps over the 16 × 5 grid: the row windows (subject rows, object rows, both outputs) sit at
    (layer, block, 0), with layer ≤ 15 and block ≤ 4. -/
theorem maps3 : ∀ t : Fin cfg3.N,
    (win3_1.index t (0 : Fin 3) = win3_0.index t (0 : Fin 3) ∧ win3_1.index t (1 : Fin 3) = win3_0.index t (1 : Fin 3) ∧ win3_1.index t (2 : Fin 3) = 0)
    ∧ (win3_9.index t (0 : Fin 3) = win3_0.index t (0 : Fin 3) ∧ win3_9.index t (1 : Fin 3) = win3_0.index t (1 : Fin 3) ∧ win3_9.index t (2 : Fin 3) = 0)
    ∧ (win3_10.index t (0 : Fin 3) = win3_0.index t (0 : Fin 3) ∧ win3_10.index t (1 : Fin 3) = win3_0.index t (1 : Fin 3) ∧ win3_10.index t (2 : Fin 3) = 0)
    ∧ (win3_0.index t (0 : Fin 3) ≤ 15 ∧ win3_0.index t (1 : Fin 3) ≤ 4 ∧ win3_0.index t (2 : Fin 3) = 0) :=
  (by decide +kernel : ∀ t : Fin grid3.N, _)

/-- The four weight tables' windows sit at (layer, 0, 0). -/
theorem maps3_tables : ∀ t : Fin cfg3.N,
    (win3_2.index t (0 : Fin 3) = win3_0.index t (0 : Fin 3) ∧ win3_2.index t (1 : Fin 3) = 0 ∧ win3_2.index t (2 : Fin 3) = 0)
    ∧ (win3_3.index t (0 : Fin 3) = win3_0.index t (0 : Fin 3) ∧ win3_3.index t (1 : Fin 3) = 0 ∧ win3_3.index t (2 : Fin 3) = 0)
    ∧ (win3_5.index t (0 : Fin 3) = win3_0.index t (0 : Fin 3) ∧ win3_5.index t (1 : Fin 3) = 0 ∧ win3_5.index t (2 : Fin 3) = 0)
    ∧ (win3_7.index t (0 : Fin 3) = win3_0.index t (0 : Fin 3) ∧ win3_7.index t (1 : Fin 3) = 0 ∧ win3_7.index t (2 : Fin 3) = 0) :=
  (by decide +kernel : ∀ t : Fin grid3.N, _)

/-- So do the three bias rows' windows. -/
theorem maps3_biases : ∀ t : Fin cfg3.N,
    (win3_4.index t (0 : Fin 3) = win3_0.index t (0 : Fin 3) ∧ win3_4.index t (1 : Fin 3) = 0 ∧ win3_4.index t (2 : Fin 3) = 0)
    ∧ (win3_6.index t (0 : Fin 3) = win3_0.index t (0 : Fin 3) ∧ win3_6.index t (1 : Fin 3) = 0 ∧ win3_6.index t (2 : Fin 3) = 0)
    ∧ (win3_8.index t (0 : Fin 3) = win3_0.index t (0 : Fin 3) ∧ win3_8.index t (1 : Fin 3) = 0 ∧ win3_8.index t (2 : Fin 3) = 0) :=
  (by decide +kernel : ∀ t : Fin grid3.N, _)

/-- Every (layer, block) pair is some grid point's. -/
theorem maps3_onto : ∀ (l : Fin 16) (b : Fin 5), ∃ t : Fin cfg3.N, win3_0.index t = ![l.val, b.val, 0] :=
  (by decide +kernel : ∀ (l : Fin 16) (b : Fin 5), ∃ t : Fin grid3.N, win3_0.index t = ![l.val, b.val, 0])

/-! ## Each input block as entries of its array -/

/-- The subject rows' block at a point, read at (0, p, k): the array's entry (layer, 5000 · block + p, k). -/
theorem subjRows3_read (c : Dev nD) (t : Fin cfg3.N) (p : Fin 5000) (k : Fin 128) (L : Fin 16) (R : Fin 25000)
    (hL : L.val = win3_0.index t (0 : Fin 3)) (hR : R.val = win3_0.index t (1 : Fin 3) * 5000 + p.val) :
    (iblk3 V c 0 t : Vec Ideal S1x5000x128 .f32) (ix3 (0 : Fin 1) p k) = (V c main_v46 : S16x25000x128.Idx → EReal) (ix3 L R k) := by
  obtain ⟨-, -, -, ⟨e0, e1, e2⟩⟩ := maps3 t
  unfold iblk3
  rw [View.read_apply]
  show V c main_v46 _ = V c main_v46 _
  congr 1
  funext a
  apply Fin.ext
  match a with
  | ⟨0, _⟩ => show win3_0.index t (0 : Fin 3) * 1 + 1 * 0 = L.val; omega
  | ⟨1, _⟩ => show win3_0.index t (1 : Fin 3) * 5000 + 1 * p.val = R.val; omega
  | ⟨2, _⟩ => show win3_0.index t (2 : Fin 3) * 128 + 1 * k.val = k.val; omega

/-- The object rows' block at a point, read at (0, p, k): the array's entry (layer, 5000 · block + p, k). -/
theorem objRows3_read (c : Dev nD) (t : Fin cfg3.N) (p : Fin 5000) (k : Fin 128) (L : Fin 16) (R : Fin 25000)
    (hL : L.val = win3_0.index t (0 : Fin 3)) (hR : R.val = win3_0.index t (1 : Fin 3) * 5000 + p.val) :
    (iblk3 V c 1 t : Vec Ideal S1x5000x128 .f32) (ix3 (0 : Fin 1) p k) = (V c main_v48 : S16x25000x128.Idx → EReal) (ix3 L R k) := by
  obtain ⟨⟨a0, a1, a2⟩, -, -, ⟨e0, e1, e2⟩⟩ := maps3 t
  unfold iblk3
  rw [View.read_apply]
  show V c main_v48 _ = V c main_v48 _
  congr 1
  funext a
  apply Fin.ext
  match a with
  | ⟨0, _⟩ => show win3_1.index t (0 : Fin 3) * 1 + 1 * 0 = L.val; omega
  | ⟨1, _⟩ => show win3_1.index t (1 : Fin 3) * 5000 + 1 * p.val = R.val; omega
  | ⟨2, _⟩ => show win3_1.index t (2 : Fin 3) * 128 + 1 * k.val = k.val; omega

/-- The subject-side first table's block at a point, read at (0, k, j): the layer's own table at (k, j). -/
theorem subjTable3_read (c : Dev nD) (t : Fin cfg3.N) (k j : Fin 128) (L : Fin 16)
    (hL : L.val = win3_0.index t (0 : Fin 3)) :
    (iblk3 V c 2 t : Vec Ideal S1x128x128 .bf16) (ix3 (0 : Fin 1) k j) = (V c main_v8 : S16x128x128.Idx → EReal) (ix3 L k j) := by
  obtain ⟨⟨a0, a1, a2⟩, -, -, -⟩ := maps3_tables t
  unfold iblk3
  rw [View.read_apply]
  show V c main_v8 _ = V c main_v8 _
  congr 1
  funext a
  apply Fin.ext
  match a with
  | ⟨0, _⟩ => show win3_2.index t (0 : Fin 3) * 1 + 1 * 0 = L.val; omega
  | ⟨1, _⟩ => show win3_2.index t (1 : Fin 3) * 128 + 1 * k.val = k.val; omega
  | ⟨2, _⟩ => show win3_2.index t (2 : Fin 3) * 128 + 1 * j.val = j.val; omega

/-- The object-side first table's block at a point, read at (0, k, j): the layer's own table at (k, j). -/
theorem objTable3_read (c : Dev nD) (t : Fin cfg3.N) (k j : Fin 128) (L : Fin 16)
    (hL : L.val = win3_0.index t (0 : Fin 3)) :
    (iblk3 V c 3 t : Vec Ideal S1x128x128 .bf16) (ix3 (0 : Fin 1) k j) = (V c main_v9 : S16x128x128.Idx → EReal) (ix3 L k j) := by
  obtain ⟨-, ⟨a0, a1, a2⟩, -, -⟩ := maps3_tables t
  unfold iblk3
  rw [View.read_apply]
  show V c main_v9 _ = V c main_v9 _
  congr 1
  funext a
  apply Fin.ext
  match a with
  | ⟨0, _⟩ => show win3_3.index t (0 : Fin 3) * 1 + 1 * 0 = L.val; omega
  | ⟨1, _⟩ => show win3_3.index t (1 : Fin 3) * 128 + 1 * k.val = k.val; omega
  | ⟨2, _⟩ => show win3_3.index t (2 : Fin 3) * 128 + 1 * j.val = j.val; omega

/-- The hidden bias row's block at a point, read at (0, 0, j): the layer's own bias row at j. -/
theorem hidBias3_read (c : Dev nD) (t : Fin cfg3.N) (j : Fin 128) (L : Fin 16)
    (hL : L.val = win3_0.index t (0 : Fin 3)) :
    (iblk3 V c 4 t : Vec Ideal S1x1x128 .f32) (ix3 (0 : Fin 1) (0 : Fin 1) j) = (V c main_v49 : S16x1x128.Idx → EReal) (ix3 L (0 : Fin 1) j) := by
  obtain ⟨⟨a0, a1, a2⟩, -, -⟩ := maps3_biases t
  unfold iblk3
  rw [View.read_apply]
  show V c main_v49 _ = V c main_v49 _
  congr 1
  funext a
  apply Fin.ext
  match a with
  | ⟨0, _⟩ => show win3_4.index t (0 : Fin 3) * 1 + 1 * 0 = L.val; omega
  | ⟨1, _⟩ => show win3_4.index t (1 : Fin 3) * 1 + 1 * 0 = 0; omega
  | ⟨2, _⟩ => show win3_4.index t (2 : Fin 3) * 128 + 1 * j.val = j.val; omega

/-- The subject head's table's block at a point, read at (0, k, j): the layer's own table at (k, j). -/
theorem subjHead3_read (c : Dev nD) (t : Fin cfg3.N) (k j : Fin 128) (L : Fin 16)
    (hL : L.val = win3_0.index t (0 : Fin 3)) :
    (iblk3 V c 5 t : Vec Ideal S1x128x128 .bf16) (ix3 (0 : Fin 1) k j) = (V c main_v10 : S16x128x128.Idx → EReal) (ix3 L k j) := by
  obtain ⟨-, -, ⟨a0, a1, a2⟩, -⟩ := maps3_tables t
  unfold iblk3
  rw [View.read_apply]
  show V c main_v10 _ = V c main_v10 _
  congr 1
  funext a
  apply Fin.ext
  match a with
  | ⟨0, _⟩ => show win3_5.index t (0 : Fin 3) * 1 + 1 * 0 = L.val; omega
  | ⟨1, _⟩ => show win3_5.index t (1 : Fin 3) * 128 + 1 * k.val = k.val; omega
  | ⟨2, _⟩ => show win3_5.index t (2 : Fin 3) * 128 + 1 * j.val = j.val; omega

/-- The subject head's bias row's block at a point, read at (0, 0, j): the layer's own bias row at j. -/
theorem subjHeadBias3_read (c : Dev nD) (t : Fin cfg3.N) (j : Fin 128) (L : Fin 16)
    (hL : L.val = win3_0.index t (0 : Fin 3)) :
    (iblk3 V c 6 t : Vec Ideal S1x1x128 .f32) (ix3 (0 : Fin 1) (0 : Fin 1) j) = (V c main_v50 : S16x1x128.Idx → EReal) (ix3 L (0 : Fin 1) j) := by
  obtain ⟨-, ⟨a0, a1, a2⟩, -⟩ := maps3_biases t
  unfold iblk3
  rw [View.read_apply]
  show V c main_v50 _ = V c main_v50 _
  congr 1
  funext a
  apply Fin.ext
  match a with
  | ⟨0, _⟩ => show win3_6.index t (0 : Fin 3) * 1 + 1 * 0 = L.val; omega
  | ⟨1, _⟩ => show win3_6.index t (1 : Fin 3) * 1 + 1 * 0 = 0; omega
  | ⟨2, _⟩ => show win3_6.index t (2 : Fin 3) * 128 + 1 * j.val = j.val; omega

/-- The object head's table's block at a point, read at (0, k, j): the layer's own table at (k, j). -/
theorem objHead3_read (c : Dev nD) (t : Fin cfg3.N) (k j : Fin 128) (L : Fin 16)
    (hL : L.val = win3_0.index t (0 : Fin 3)) :
    (iblk3 V c 7 t : Vec Ideal S1x128x128 .bf16) (ix3 (0 : Fin 1) k j) = (V c main_v11 : S16x128x128.Idx → EReal) (ix3 L k j) := by
  obtain ⟨-, -, -, ⟨a0, a1, a2⟩⟩ := maps3_tables t
  unfold iblk3
  rw [View.read_apply]
  show V c main_v11 _ = V c main_v11 _
  congr 1
  funext a
  apply Fin.ext
  match a with
  | ⟨0, _⟩ => show win3_7.index t (0 : Fin 3) * 1 + 1 * 0 = L.val; omega
  | ⟨1, _⟩ => show win3_7.index t (1 : Fin 3) * 128 + 1 * k.val = k.val; omega
  | ⟨2, _⟩ => show win3_7.index t (2 : Fin 3) * 128 + 1 * j.val = j.val; omega

/-- The object head's bias row's block at a point, read at (0, 0, j): the layer's own bias row at j. -/
theorem objHeadBias3_read (c : Dev nD) (t : Fin cfg3.N) (j : Fin 128) (L : Fin 16)
    (hL : L.val = win3_0.index t (0 : Fin 3)) :
    (iblk3 V c 8 t : Vec Ideal S1x1x128 .f32) (ix3 (0 : Fin 1) (0 : Fin 1) j) = (V c main_v51 : S16x1x128.Idx → EReal) (ix3 L (0 : Fin 1) j) := by
  obtain ⟨-, -, ⟨a0, a1, a2⟩⟩ := maps3_biases t
  unfold iblk3
  rw [View.read_apply]
  show V c main_v51 _ = V c main_v51 _
  congr 1
  funext a
  apply Fin.ext
  match a with
  | ⟨0, _⟩ => show win3_8.index t (0 : Fin 3) * 1 + 1 * 0 = L.val; omega
  | ⟨1, _⟩ => show win3_8.index t (1 : Fin 3) * 1 + 1 * 0 = 0; omega
  | ⟨2, _⟩ => show win3_8.index t (2 : Fin 3) * 128 + 1 * j.val = j.val; omega

/-! ## The subject head's array -/

/-- What a grid point writes back to the subject head's array is that point's block of `outRK`: entry (0, p, q) of the
    block only involves triple p's two rows and the point's layer's tables, each read where the block sits. -/
theorem subjBlock3 (c : Dev nD) (t : Fin cfg3.N) :
    (dat3 V c).flushed 9 t = ((cfg3.win 9).blk t).view.read (Elt Ideal)
      (outRK (V c main_v46) (V c main_v48) (V c main_v8) (V c main_v9) (V c main_v49) (V c main_v10) (V c main_v50)) := by
  show (cfg3.win 9).cut (grid3.coords t) ((dat3 V c).after 9 t) = _
  rw [after3_9]
  unfold out3_9
  rw [View.canon_unit_zero hz3]
  simp only [View.ld_unit_zero (S := S1x5000x128) hz3, View.ld_unit_zero (S := S1x128x128) hz3, View.ld_unit_zero (S := S1x1x128) hz3]
  obtain ⟨-, ⟨o0, o1, o2⟩, -, ⟨e0, e1, e2⟩⟩ := maps3 t
  refine funext fun (y : S1x5000x128.Idx) => ?_
  obtain ⟨u, p, q, rfl⟩ : ∃ (u : Fin 1) (p : Fin 5000) (q : Fin 128), y = ix3 u p q := ⟨y 0, y 1, y 2, eq_ix3 y⟩
  have hu : u.val = 0 := by omega
  have hp : p.val < 5000 := p.isLt
  have hL : win3_0.index t (0 : Fin 3) < 16 := by omega
  have hR : win3_0.index t (1 : Fin 3) * 5000 + p.val < 25000 := by omega
  have hemb : ((cfg3.win 9).blk t).view.emb (ix3 u p q)
      = (ix3 (⟨win3_0.index t (0 : Fin 3), hL⟩ : Fin 16) (⟨win3_0.index t (1 : Fin 3) * 5000 + p.val, hR⟩ : Fin 25000) q : S16x25000x128.Idx) := by
    funext a
    apply Fin.ext
    match a with
    | ⟨0, _⟩ => show win3_9.index t (0 : Fin 3) * 1 + 1 * u.val = win3_0.index t (0 : Fin 3); omega
    | ⟨1, _⟩ => show win3_9.index t (1 : Fin 3) * 5000 + 1 * p.val = win3_0.index t (1 : Fin 3) * 5000 + p.val; omega
    | ⟨2, _⟩ => show win3_9.index t (2 : Fin 3) * 128 + 1 * q.val = q.val; omega
  show _ = outRK (V c main_v46) (V c main_v48) (V c main_v8) (V c main_v9) (V c main_v49) (V c main_v10) (V c main_v50)
      (((cfg3.win 9).blk t).view.emb (ix3 u p q))
  rw [hemb, outRK_at]
  refine (subj3_at (iblk3 V c 0 t) (iblk3 V c 1 t) (iblk3 V c 2 t) (iblk3 V c 3 t) (iblk3 V c 4 t) (iblk3 V c 5 t) (iblk3 V c 6 t) u p q).trans ?_
  unfold hidB
  simp only [fun k => subjRows3_read V c t p k ⟨win3_0.index t (0 : Fin 3), hL⟩ ⟨win3_0.index t (1 : Fin 3) * 5000 + p.val, hR⟩ rfl rfl,
    fun k => objRows3_read V c t p k ⟨win3_0.index t (0 : Fin 3), hL⟩ ⟨win3_0.index t (1 : Fin 3) * 5000 + p.val, hR⟩ rfl rfl,
    fun k j => subjTable3_read V c t k j ⟨win3_0.index t (0 : Fin 3), hL⟩ rfl,
    fun k j => objTable3_read V c t k j ⟨win3_0.index t (0 : Fin 3), hL⟩ rfl,
    fun j => hidBias3_read V c t j ⟨win3_0.index t (0 : Fin 3), hL⟩ rfl,
    fun k j => subjHead3_read V c t k j ⟨win3_0.index t (0 : Fin 3), hL⟩ rfl,
    fun j => subjHeadBias3_read V c t j ⟨win3_0.index t (0 : Fin 3), hL⟩ rfl]

/-- An index lies in a point's block of the subject head's array iff each coordinate lies in the block's range. -/
theorem mem_subjBlock3 (t : Fin cfg3.N) (i : S16x25000x128.Idx) :
    i ∈ ((cfg3.win 9).blk t).view.set ↔ ∀ a : Fin 3, win3_9.index t a * S1x5000x128.size a ≤ (i a).val ∧ (i a).val < win3_9.index t a * S1x5000x128.size a + S1x5000x128.size a := by
  show i ∈ ((View.whole main_v52_0).slice (win3_9.rect t)).set ↔ _
  rw [View.set_slice_whole, Rect.mem_set_unit]
  exact Iff.rfl

/-- The 80 blocks tile the 16 × 25000 triples: (l, e, d) lies in the block of the point at layer l, block e / 5000. -/
theorem subjTiles3 (i : S16x25000x128.Idx) :
    ∃ t : Fin cfg3.N, (cfg3.win 9).flush t = true ∧ i ∈ ((cfg3.win 9).blk t).view.set := by
  have h0 : (i 0).val < 16 := (i 0).isLt
  have h1 : (i 1).val < 25000 := (i 1).isLt
  have h2 : (i 2).val < 128 := (i 2).isLt
  obtain ⟨t, ht⟩ := maps3_onto ⟨(i 0).val, h0⟩ ⟨(i 1).val / 5000, by omega⟩
  obtain ⟨-, ⟨o0, o1, o2⟩, -, -⟩ := maps3 t
  have q0 : win3_0.index t (0 : Fin 3) = (i 0).val := congrFun ht 0
  have q1 : win3_0.index t (1 : Fin 3) = (i 1).val / 5000 := congrFun ht 1
  refine ⟨t, flush3_9 t, ?_⟩
  rw [mem_subjBlock3]
  intro a
  match a with
  | ⟨0, _⟩ => show win3_9.index t (0 : Fin 3) * 1 ≤ (i 0).val ∧ (i 0).val < win3_9.index t (0 : Fin 3) * 1 + 1; omega
  | ⟨1, _⟩ => show win3_9.index t (1 : Fin 3) * 5000 ≤ (i 1).val ∧ (i 1).val < win3_9.index t (1 : Fin 3) * 5000 + 5000; omega
  | ⟨2, _⟩ => show win3_9.index t (2 : Fin 3) * 128 ≤ (i 2).val ∧ (i 2).val < win3_9.index t (2 : Fin 3) * 128 + 128; omega

/-- The second relation launch, subject head. -/
theorem final3_9 (c : Dev nD) :
    (dat3 V c).arrAt 9 cfg3.N
      = outRK (V c main_v46) (V c main_v48) (V c main_v8) (V c main_v9) (V c main_v49) (V c main_v10) (V c main_v50) :=
  (dat3 V c).arrAt_eq_of_cover 9 _ (fun t _ => subjBlock3 V c t) subjTiles3

/-! ## The object head's array -/

/-- What a grid point writes back to the object head's array is that point's block of `outRK` with the object head's
    table and bias row: the hidden layer is the same, only the last table and bias differ. -/
theorem objBlock3 (c : Dev nD) (t : Fin cfg3.N) :
    (dat3 V c).flushed 10 t = ((cfg3.win 10).blk t).view.read (Elt Ideal)
      (outRK (V c main_v46) (V c main_v48) (V c main_v8) (V c main_v9) (V c main_v49) (V c main_v11) (V c main_v51)) := by
  show (cfg3.win 10).cut (grid3.coords t) ((dat3 V c).after 10 t) = _
  rw [after3_10]
  unfold out3_10
  rw [View.canon_unit_zero hz3]
  simp only [View.ld_unit_zero (S := S1x5000x128) hz3, View.ld_unit_zero (S := S1x128x128) hz3, View.ld_unit_zero (S := S1x1x128) hz3]
  obtain ⟨-, -, ⟨o0, o1, o2⟩, ⟨e0, e1, e2⟩⟩ := maps3 t
  refine funext fun (y : S1x5000x128.Idx) => ?_
  obtain ⟨u, p, q, rfl⟩ : ∃ (u : Fin 1) (p : Fin 5000) (q : Fin 128), y = ix3 u p q := ⟨y 0, y 1, y 2, eq_ix3 y⟩
  have hu : u.val = 0 := by omega
  have hp : p.val < 5000 := p.isLt
  have hL : win3_0.index t (0 : Fin 3) < 16 := by omega
  have hR : win3_0.index t (1 : Fin 3) * 5000 + p.val < 25000 := by omega
  have hemb : ((cfg3.win 10).blk t).view.emb (ix3 u p q)
      = (ix3 (⟨win3_0.index t (0 : Fin 3), hL⟩ : Fin 16) (⟨win3_0.index t (1 : Fin 3) * 5000 + p.val, hR⟩ : Fin 25000) q : S16x25000x128.Idx) := by
    funext a
    apply Fin.ext
    match a with
    | ⟨0, _⟩ => show win3_10.index t (0 : Fin 3) * 1 + 1 * u.val = win3_0.index t (0 : Fin 3); omega
    | ⟨1, _⟩ => show win3_10.index t (1 : Fin 3) * 5000 + 1 * p.val = win3_0.index t (1 : Fin 3) * 5000 + p.val; omega
    | ⟨2, _⟩ => show win3_10.index t (2 : Fin 3) * 128 + 1 * q.val = q.val; omega
  show _ = outRK (V c main_v46) (V c main_v48) (V c main_v8) (V c main_v9) (V c main_v49) (V c main_v11) (V c main_v51)
      (((cfg3.win 10).blk t).view.emb (ix3 u p q))
  rw [hemb, outRK_at]
  refine (obj3_at (iblk3 V c 0 t) (iblk3 V c 1 t) (iblk3 V c 2 t) (iblk3 V c 3 t) (iblk3 V c 4 t) (iblk3 V c 7 t) (iblk3 V c 8 t) u p q).trans ?_
  unfold hidB
  simp only [fun k => subjRows3_read V c t p k ⟨win3_0.index t (0 : Fin 3), hL⟩ ⟨win3_0.index t (1 : Fin 3) * 5000 + p.val, hR⟩ rfl rfl,
    fun k => objRows3_read V c t p k ⟨win3_0.index t (0 : Fin 3), hL⟩ ⟨win3_0.index t (1 : Fin 3) * 5000 + p.val, hR⟩ rfl rfl,
    fun k j => subjTable3_read V c t k j ⟨win3_0.index t (0 : Fin 3), hL⟩ rfl,
    fun k j => objTable3_read V c t k j ⟨win3_0.index t (0 : Fin 3), hL⟩ rfl,
    fun j => hidBias3_read V c t j ⟨win3_0.index t (0 : Fin 3), hL⟩ rfl,
    fun k j => objHead3_read V c t k j ⟨win3_0.index t (0 : Fin 3), hL⟩ rfl,
    fun j => objHeadBias3_read V c t j ⟨win3_0.index t (0 : Fin 3), hL⟩ rfl]

/-- An index lies in a point's block of the object head's array iff each coordinate lies in the block's range. -/
theorem mem_objBlock3 (t : Fin cfg3.N) (i : S16x25000x128.Idx) :
    i ∈ ((cfg3.win 10).blk t).view.set ↔ ∀ a : Fin 3, win3_10.index t a * S1x5000x128.size a ≤ (i a).val ∧ (i a).val < win3_10.index t a * S1x5000x128.size a + S1x5000x128.size a := by
  show i ∈ ((View.whole main_v52_1).slice (win3_10.rect t)).set ↔ _
  rw [View.set_slice_whole, Rect.mem_set_unit]
  exact Iff.rfl

/-- The object head's 80 blocks tile its array the same way. -/
theorem objTiles3 (i : S16x25000x128.Idx) :
    ∃ t : Fin cfg3.N, (cfg3.win 10).flush t = true ∧ i ∈ ((cfg3.win 10).blk t).view.set := by
  have h0 : (i 0).val < 16 := (i 0).isLt
  have h1 : (i 1).val < 25000 := (i 1).isLt
  have h2 : (i 2).val < 128 := (i 2).isLt
  obtain ⟨t, ht⟩ := maps3_onto ⟨(i 0).val, h0⟩ ⟨(i 1).val / 5000, by omega⟩
  obtain ⟨-, -, ⟨o0, o1, o2⟩, -⟩ := maps3 t
  have q0 : win3_0.index t (0 : Fin 3) = (i 0).val := congrFun ht 0
  have q1 : win3_0.index t (1 : Fin 3) = (i 1).val / 5000 := congrFun ht 1
  refine ⟨t, flush3_10 t, ?_⟩
  rw [mem_objBlock3]
  intro a
  match a with
  | ⟨0, _⟩ => show win3_10.index t (0 : Fin 3) * 1 ≤ (i 0).val ∧ (i 0).val < win3_10.index t (0 : Fin 3) * 1 + 1; omega
  | ⟨1, _⟩ => show win3_10.index t (1 : Fin 3) * 5000 ≤ (i 1).val ∧ (i 1).val < win3_10.index t (1 : Fin 3) * 5000 + 5000; omega
  | ⟨2, _⟩ => show win3_10.index t (2 : Fin 3) * 128 ≤ (i 2).val ∧ (i 2).val < win3_10.index t (2 : Fin 3) * 128 + 128; omega

/-- The second relation launch, object head. -/
theorem final3_10 (c : Dev nD) :
    (dat3 V c).arrAt 10 cfg3.N
      = outRK (V c main_v46) (V c main_v48) (V c main_v8) (V c main_v9) (V c main_v49) (V c main_v11) (V c main_v51) :=
  (dat3 V c).arrAt_eq_of_cover 10 _ (fun t _ => objBlock3 V c t) objTiles3

end Cert.Bridge.RelK

end
-- ==== Proof.NormK.lean ====
/-
  The closing launch, read as a whole-array function: block by block of 5000 rows it adds the last update and the
  accumulated messages and divides every row by its length (floored). A row's length involves that row only, so the
  20 written blocks are the blocks of one function of the two whole arrays and tile the 100000 rows.
-/
import proofs.«406575_j23888608101388_2_alg».proof.Proof.Gen.KernelIdeal.Frame
import proofs.«406575_j23888608101388_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.NormK

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

-- The TensorCore's buffer contents when the region is entered (any contents: the run instantiates them).
variable (V : (c : Dev nD) → (b : Ref sig .tc) → Buf (Elt Ideal) ((c : Thread nD τ).loc b))

/-! ## The body's arithmetic at an entry of its block -/

/-- The lane sums re-laid as a column: entry (p, 0) of the column is entry p of the sums. -/
theorem col_cast_apply (v : FVec Ideal S5000 .f32) (p : Fin 5000) (z : Fin 1) :
    shapeCast S5000x1 v shapeCasts_S5000_S5000x1 (ix2 p z) = v (ix1 p) :=
  shapeCast_apply v _ _ _ (by
    have hz : z.val = 0 := by omega
    rw [Shape.rowMajor_val_one, Shape.rowMajor_val_two]
    show p.val = p.val * 1 + z.val
    omega)

/-- A column broadcast along the lanes: entry (p, q) reads the column's entry (p, 0). -/
theorem col_bcast_apply (v : FVec Ideal S5000x1 .f32) (p : Fin 5000) (q : Fin 128) :
    broadcastTo S5000x128 v broadcasts_S5000x1_S5000x128 (ix2 p q) = v (ix2 p (0 : Fin 1)) :=
  broadcastTo_apply v _ _ _ (fun a => match a with
    | ⟨0, _⟩ => by
      show p.val = if (5000 : Nat) = 1 then 0 else p.val
      rw [if_neg (by omega)]
    | ⟨1, _⟩ => by
      show (0 : Nat) = if (1 : Nat) = 1 then 0 else q.val
      rw [if_pos rfl])

/-- The sum over the lanes of row p is the sum over the row's 128 columns. -/
theorem lane_sum_apply (v : FVec Ideal S5000x128 .f32) (hacc : (0x00000000#32 : BitVec 32) = 0x00000000#32)
    (p : Fin 5000) :
    multiReduction (F := Ideal) .add [1] S5000 v 0x00000000#32 reduces_S5000x128_S5000 (.inl rfl) hacc (ix1 p)
      = ∑ k : Fin 128, v (ix2 p k) := by
  refine (Ideal.multiReduction_add_single v 0x00000000#32 reduces_S5000x128_S5000 (.inl rfl) hacc (ix1 p)).trans ?_
  show ∑ k : Fin 128, v (reduces_S5000x128_S5000.lift (ix1 p) k) = _
  refine Finset.sum_congr rfl fun k _ => congrArg v ?_
  funext a
  refine Fin.ext ?_
  match a with
  | ⟨0, _⟩ => rfl
  | ⟨1, _⟩ => rfl

/-- The stored value at (p, q) of a block: the sum of the two loaded blocks there, divided by the length of row p of
    that sum (the root of the row's sum of squares), the length floored at the printed constant. -/
theorem norm_pay_apply (x0 x1 : FVec Ideal S5000x128 .f32) (p : Fin 5000) (q : Fin 128) :
    k4_pay1 (F := Ideal) x0 x1 (ix2 p q)
      = Ideal.div (x0 (ix2 p q) + x1 (ix2 p q))
          (max (Ideal.sqrt (∑ k : Fin 128, (x0 (ix2 p k) + x1 (ix2 p k)) * (x0 (ix2 p k) + x1 (ix2 p k)))) epsW) := by
  unfold k4_pay1
  simp only [shapeCast_self]
  show Ideal.div (x0 (ix2 p q) + x1 (ix2 p q)) (broadcastTo S5000x128 _ broadcasts_S5000x1_S5000x128 (ix2 p q)) = _
  rw [col_bcast_apply]
  show Ideal.div _ (max (Ideal.sqrt (shapeCast S5000x1 _ shapeCasts_S5000_S5000x1 (ix2 p (0 : Fin 1)))) epsW) = _
  rw [col_cast_apply, lane_sum_apply]
  rfl

/-! ## From the blocks to the array -/

theorem hz : (![0, 0] : Fin 2 → Nat) = fun _ => 0 := funext fun a => by fin_cases a <;> rfl

/-- The three windows move together: at point t each is at block (t, 0) of its array. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- If row p of the two loaded blocks is row r of two whole tables, the stored value at (p, q) is the row-normalised
    sum of the tables at (r, q): a row's length involves that row only. -/
theorem l2n_of_rows (x0 x1 : FVec Ideal S5000x128 .f32) (A B : SND.Idx → EReal) (p : Fin 5000) (q : Fin 128)
    (r : Fin 100000) (h0 : ∀ k : Fin 128, x0 (ix2 p k) = A (ix2 r k)) (h1 : ∀ k : Fin 128, x1 (ix2 p k) = B (ix2 r k)) :
    k4_pay1 (F := Ideal) x0 x1 (ix2 p q) = l2n (addT A B) (ix2 r q) := by
  rw [norm_pay_apply]
  simp only [h0, h1]
  rfl

/-- Row p of the last update's block at point t is row 5000·t + p of the last update. -/
theorem upd_blk_read (c : Dev nD) (t : Fin cfg4.N) (p : Fin 5000) (k : Fin 128) (hr : t.val * 5000 + p.val < 100000) :
    (iblk4 V c 0 t : FVec Ideal S5000x128 .f32) (ix2 p k)
      = (V c main_v44 : SND.Idx → EReal) (ix2 (⟨t.val * 5000 + p.val, hr⟩ : Fin 100000) k) := by
  obtain ⟨e0, e1, -⟩ := idx_facts t
  unfold iblk4
  show (V c main_v44 : SND.Idx → EReal) (((cfg4.win 0).blk t).view.emb (ix2 p k)) = _
  refine congrArg (V c main_v44 : SND.Idx → EReal) (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

/-- Row p of the messages' block at point t is row 5000·t + p of the accumulated messages. -/
theorem msg_blk_read (c : Dev nD) (t : Fin cfg4.N) (p : Fin 5000) (k : Fin 128) (hr : t.val * 5000 + p.val < 100000) :
    (iblk4 V c 1 t : FVec Ideal S5000x128 .f32) (ix2 p k)
      = (V c main_v69 : SND.Idx → EReal) (ix2 (⟨t.val * 5000 + p.val, hr⟩ : Fin 100000) k) := by
  obtain ⟨-, -, e2, e3, -⟩ := idx_facts t
  unfold iblk4
  show (V c main_v69 : SND.Idx → EReal) (((cfg4.win 1).blk t).view.emb (ix2 p k)) = _
  refine congrArg (V c main_v69 : SND.Idx → EReal) (funext fun a => Fin.ext ?_)
  match a with
  | ⟨0, _⟩ => show win4_1.index t (0 : Fin 2) * 5000 + 1 * p.val = t.val * 5000 + p.val; rw [e2]; omega
  | ⟨1, _⟩ => show win4_1.index t (1 : Fin 2) * 128 + 1 * k.val = k.val; rw [e3]; omega

/-- Entry (p, q) of the result's block at point t sits at (5000·t + p, q) of the result. -/
theorem out_blk_emb (t : Fin cfg4.N) (p : Fin 5000) (q : Fin 128) (hr : t.val * 5000 + p.val < 100000) :
    (((cfg4.win 2).blk t).view.emb (ix2 p q) : SND.Idx) = ix2 (⟨t.val * 5000 + p.val, hr⟩ : Fin 100000) q := by
  obtain ⟨-, -, -, -, e4, e5⟩ := idx_facts t
  refine funext fun a => Fin.ext ?_
  match a with
  | ⟨0, _⟩ => show win4_2.index t (0 : Fin 2) * 5000 + 1 * p.val = t.val * 5000 + p.val; rw [e4]; omega
  | ⟨1, _⟩ => show win4_2.index t (1 : Fin 2) * 128 + 1 * q.val = q.val; rw [e5]; omega

/-- What point t writes back is block t of the row-normalised (update + messages). -/
theorem flushed_eq (c : Dev nD) (t : Fin cfg4.N) :
    (dat4 V c).flushed 2 t
      = ((cfg4.win 2).blk t).view.read (Elt Ideal) (l2n (addT (V c main_v44) (V c main_v69))) := by
  show (cfg4.win 2).cut (grid4.coords t) ((dat4 V c).after 2 t) = _
  rw [after4_2]
  unfold out4_2
  rw [View.canon_unit_zero hz]
  simp only [View.ld_unit_zero (S := S5000x128) hz]
  funext j
  obtain ⟨p, q, rfl⟩ : ∃ (p : Fin 5000) (q : Fin 128), j = ix2 p q :=
    ⟨j 0, j 1, eq_ix2 (n0 := 5000) (n1 := 128) j⟩
  have hN : grid4.N = 20 := N_4
  have ht : t.val < grid4.N := t.isLt
  have hr : t.val * 5000 + p.val < 100000 := by omega
  refine (l2n_of_rows (iblk4 V c 0 t) (iblk4 V c 1 t) (V c main_v44) (V c main_v69) p q ⟨t.val * 5000 + p.val, hr⟩
    (fun k => upd_blk_read V c t p k hr) (fun k => msg_blk_read V c t p k hr)).trans ?_
  show _ = l2n (addT (V c main_v44) (V c main_v69)) (((cfg4.win 2).blk t).view.emb (ix2 p q))
  exact congrArg (l2n (addT (V c main_v44) (V c main_v69))) (out_blk_emb t p q hr).symm

/-- An entry of the result is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v70).slice (win4_2.rect t)).set ↔ _
  rw [View.set_slice_whole, Rect.mem_set_unit]
  exact Iff.rfl

/-- The 20 blocks tile the 100000 rows: row r is in the block of point r / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  obtain ⟨t, ht⟩ : ∃ t : Fin cfg4.N, t.val = (i 0).val / 5000 :=
    ⟨⟨(i 0).val / 5000, by show _ < grid4.N; rw [hN]; omega⟩, rfl⟩
  obtain ⟨-, -, -, -, e4, e5⟩ := idx_facts t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    rw [e4]; omega
  | ⟨1, _⟩ =>
    show win4_2.index t (1 : Fin 2) * 128 ≤ (i 1).val ∧ (i 1).val < win4_2.index t (1 : Fin 2) * 128 + 128
    rw [e5]; omega

/-- After the closing launch the result array holds the row-normalised (update + messages). -/
theorem final4 (c : Dev nD) :
    (dat4 V c).arrAt 2 cfg4.N = l2n (addT (V c main_v44) (V c main_v69)) :=
  (dat4 V c).arrAt_eq_of_cover 2 (l2n (addT (V c main_v44) (V c main_v69))) (fun t _ => flushed_eq V c t) cover

end Cert.Bridge.NormK

end
-- ==== Proof.Fold.lean ====
/-
  The program's run, folded: what the result array holds at the end is the closed expression `KT.out` of the
  fourteen argument arrays.
  The run is five launches among stretches of host operations; the contents of every buffer at each boundary are a
  fold from the launch memory. A launch changes only its output arrays (to what its blocks' write-backs leave: the
  whole-array functions of ClassK, RelK, NormK, at the launch's entry contents); a host operation changes only the
  buffer it writes. So each launch's operand, read at the launch's entry, walks back through the boundaries that do
  not write it to the operation (or the launch) that did, and the last launch's output is the result.
-/
import proofs.«406575_j23888608101388_2_alg».proof.Proof.Gen.KernelIdeal.Frame
import proofs.«406575_j23888608101388_2_alg».proof.Proof.KTerms
import proofs.«406575_j23888608101388_2_alg».proof.Proof.ClassK
import proofs.«406575_j23888608101388_2_alg».proof.Proof.RelK
import proofs.«406575_j23888608101388_2_alg».proof.Proof.NormK
import Idealize.ShloMosaic.Lib.StableHlo.Run

set_option maxRecDepth 16384

noncomputable section

namespace Cert.Bridge.Fold

open Cert.KernelIdeal Cert.KernelIdeal.Gen Cert.Bridge
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The arguments as launched -/

abbrev A0 : SND.Idx → EReal := m ((c : Thread nD τ).loc main_arg0)
abbrev A1 : SNK.Idx → EReal := m ((c : Thread nD τ).loc main_arg1)
abbrev A2 : SW1.Idx → EReal := m ((c : Thread nD τ).loc main_arg2)
abbrev A3 : SV.Idx → EReal := m ((c : Thread nD τ).loc main_arg3)
abbrev A4 : SW2.Idx → EReal := m ((c : Thread nD τ).loc main_arg4)
abbrev A5 : SV.Idx → EReal := m ((c : Thread nD τ).loc main_arg5)
abbrev A6 : SRW1.Idx → EReal := m ((c : Thread nD τ).loc main_arg6)
abbrev A7 : SRB.Idx → EReal := m ((c : Thread nD τ).loc main_arg7)
abbrev A8 : SRW.Idx → EReal := m ((c : Thread nD τ).loc main_arg8)
abbrev A9 : SRB.Idx → EReal := m ((c : Thread nD τ).loc main_arg9)
abbrev A10 : SRW.Idx → EReal := m ((c : Thread nD τ).loc main_arg10)
abbrev A11 : SRB.Idx → EReal := m ((c : Thread nD τ).loc main_arg11)
abbrev A12 : IVec SLE 32 := m ((c : Thread nD τ).loc main_arg12)
abbrev A13 : IVec SLE 32 := m ((c : Thread nD τ).loc main_arg13)

/-! ## A host stretch leaves every buffer it does not write as it found it

One lemma per stretch, for any buffer outside the list of the stretch's destinations. -/

/-- The step every `keep` lemma closes with: none of the stretch's operations writes the buffer. -/
macro "keep_by " ops:ident " , " h:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne ($h:ident _ (by decide)))))

abbrev dst0 : List (Ref sig .tc) := [main_v0, main_v1, main_v2, main_v3, main_v4, main_v5, main_v6, main_v7, main_v8, main_v9, main_v10, main_v11, main_v12, main_v13, main_v14, main_v15]
abbrev dst1 : List (Ref sig .tc) := [main_call0_v0, main_v17]
abbrev dst1_1 : List (Ref sig .tc) := [main_v18]
abbrev dst1_2 : List (Ref sig .tc) := [main_call1_v0, main_v19]
abbrev dst1_3 : List (Ref sig .tc) := [main_v20, main_v21, main_v22, main_v23]
abbrev dst2 : List (Ref sig .tc) := [main_cst, main_v25, main_v26, main_c, main_v27, main_v28, main_c_0, main_v29, main_v30, main_v31, main_v32, main_v33, main_v34, main_c_1, main_v35, main_v36, main_c_2, main_v37, main_v38, main_v39, main_v40, main_v41, main_v42, main_v43]
abbrev dst3 : List (Ref sig .tc) := [main_call2_v0, main_v45]
abbrev dst3_1 : List (Ref sig .tc) := [main_v46]
abbrev dst3_2 : List (Ref sig .tc) := [main_call3_v0, main_v47]
abbrev dst3_3 : List (Ref sig .tc) := [main_v48, main_v49, main_v50, main_v51]
abbrev dst4 : List (Ref sig .tc) := [main_cst_3, main_v53, main_v54, main_c_4, main_v55, main_v56, main_c_5, main_v57, main_v58, main_v59, main_v60, main_v61, main_v62, main_c_6, main_v63, main_v64, main_c_7, main_v65, main_v66, main_v67, main_v68, main_v69]

section keep
variable (b : Ref sig .tc)

theorem keep1 (h : ∀ d ∈ dst0, b ≠ d) : W1 m ρ c (Proc.devRef .tc b) = W0 m ρ c (Proc.devRef .tc b) := by keep_by hostOps0 , h
theorem keep3 (h : ∀ d ∈ dst1, b ≠ d) : W3 m ρ c (Proc.devRef .tc b) = W2 m ρ c (Proc.devRef .tc b) := by keep_by hostOps1 , h
theorem keep4 (h : ∀ d ∈ dst1_1, b ≠ d) : W4 m ρ c (Proc.devRef .tc b) = W3 m ρ c (Proc.devRef .tc b) := by keep_by hostOps1_1 , h
theorem keep5 (h : ∀ d ∈ dst1_2, b ≠ d) : W5 m ρ c (Proc.devRef .tc b) = W4 m ρ c (Proc.devRef .tc b) := by keep_by hostOps1_2 , h
theorem keep6 (h : ∀ d ∈ dst1_3, b ≠ d) : W6 m ρ c (Proc.devRef .tc b) = W5 m ρ c (Proc.devRef .tc b) := by keep_by hostOps1_3 , h
theorem keep8 (h : ∀ d ∈ dst2, b ≠ d) : W8 m ρ c (Proc.devRef .tc b) = W7 m ρ c (Proc.devRef .tc b) := by keep_by hostOps2 , h
theorem keep10 (h : ∀ d ∈ dst3, b ≠ d) : W10 m ρ c (Proc.devRef .tc b) = W9 m ρ c (Proc.devRef .tc b) := by keep_by hostOps3 , h
theorem keep11 (h : ∀ d ∈ dst3_1, b ≠ d) : W11 m ρ c (Proc.devRef .tc b) = W10 m ρ c (Proc.devRef .tc b) := by keep_by hostOps3_1 , h
theorem keep12 (h : ∀ d ∈ dst3_2, b ≠ d) : W12 m ρ c (Proc.devRef .tc b) = W11 m ρ c (Proc.devRef .tc b) := by keep_by hostOps3_2 , h
theorem keep13 (h : ∀ d ∈ dst3_3, b ≠ d) : W13 m ρ c (Proc.devRef .tc b) = W12 m ρ c (Proc.devRef .tc b) := by keep_by hostOps3_3 , h
theorem keep15 (h : ∀ d ∈ dst4, b ≠ d) : W15 m ρ c (Proc.devRef .tc b) = W14 m ρ c (Proc.devRef .tc b) := by keep_by hostOps4 , h

/-- From the first launch's exit to the second launch's entry (four stretches). -/
theorem keep2to6 (h3 : ∀ d ∈ dst1, b ≠ d) (h4 : ∀ d ∈ dst1_1, b ≠ d) (h5 : ∀ d ∈ dst1_2, b ≠ d) (h6 : ∀ d ∈ dst1_3, b ≠ d) :
    W6 m ρ c (Proc.devRef .tc b) = W2 m ρ c (Proc.devRef .tc b) :=
  (keep6 m ρ c b h6).trans ((keep5 m ρ c b h5).trans ((keep4 m ρ c b h4).trans (keep3 m ρ c b h3)))
/-- From the third launch's exit to the fourth launch's entry (four stretches). -/
theorem keep9to13 (h10 : ∀ d ∈ dst3, b ≠ d) (h11 : ∀ d ∈ dst3_1, b ≠ d) (h12 : ∀ d ∈ dst3_2, b ≠ d) (h13 : ∀ d ∈ dst3_3, b ≠ d) :
    W13 m ρ c (Proc.devRef .tc b) = W9 m ρ c (Proc.devRef .tc b) :=
  (keep13 m ρ c b h13).trans ((keep12 m ρ c b h12).trans ((keep11 m ρ c b h11).trans (keep10 m ρ c b h10)))
/-- From the first stretch's end to the second launch's entry, for a buffer no launch and no stretch in between writes. -/
theorem keep1to6 (h2 : ∀ w, Pipeline.arrRef spec0 w ≠ b) (h3 : ∀ d ∈ dst1, b ≠ d) (h4 : ∀ d ∈ dst1_1, b ≠ d)
    (h5 : ∀ d ∈ dst1_2, b ≠ d) (h6 : ∀ d ∈ dst1_3, b ≠ d) :
    W6 m ρ c (Proc.devRef .tc b) = W1 m ρ c (Proc.devRef .tc b) :=
  (keep2to6 m ρ c b h3 h4 h5 h6).trans (W2_of_ne m ρ c b h2)
/-- … to the third launch's entry. -/
theorem keep1to8 (h2 : ∀ w, Pipeline.arrRef spec0 w ≠ b) (h3 : ∀ d ∈ dst1, b ≠ d) (h4 : ∀ d ∈ dst1_1, b ≠ d)
    (h5 : ∀ d ∈ dst1_2, b ≠ d) (h6 : ∀ d ∈ dst1_3, b ≠ d) (h7 : ∀ w, Pipeline.arrRef spec1 w ≠ b) (h8 : ∀ d ∈ dst2, b ≠ d) :
    W8 m ρ c (Proc.devRef .tc b) = W1 m ρ c (Proc.devRef .tc b) :=
  (keep8 m ρ c b h8).trans ((W7_of_ne m ρ c b h7).trans (keep1to6 m ρ c b h2 h3 h4 h5 h6))
/-- … to the fourth launch's entry. -/
theorem keep1to13 (h2 : ∀ w, Pipeline.arrRef spec0 w ≠ b) (h3 : ∀ d ∈ dst1, b ≠ d) (h4 : ∀ d ∈ dst1_1, b ≠ d)
    (h5 : ∀ d ∈ dst1_2, b ≠ d) (h6 : ∀ d ∈ dst1_3, b ≠ d) (h7 : ∀ w, Pipeline.arrRef spec1 w ≠ b) (h8 : ∀ d ∈ dst2, b ≠ d)
    (h9 : ∀ w, Pipeline.arrRef spec2 w ≠ b) (h10 : ∀ d ∈ dst3, b ≠ d) (h11 : ∀ d ∈ dst3_1, b ≠ d) (h12 : ∀ d ∈ dst3_2, b ≠ d)
    (h13 : ∀ d ∈ dst3_3, b ≠ d) :
    W13 m ρ c (Proc.devRef .tc b) = W1 m ρ c (Proc.devRef .tc b) :=
  (keep9to13 m ρ c b h10 h11 h12 h13).trans ((W9_of_ne m ρ c b h9).trans (keep1to8 m ρ c b h2 h3 h4 h5 h6 h7 h8))

end keep

/-! ## What the first stretch writes: the cut weights, the one-row biases, the flattened indices -/

/-- Reading one buffer after a stretch: the operation that wrote it, applied to what its operands held. -/
macro "read_ops " ops:ident : tactic => `(tactic| (dsimp only [$ops:ident]; after_results))

theorem R1_arg0 : W1 m ρ c (Proc.devRef .tc main_arg0) = A0 m c := (keep1 m ρ c main_arg0 (by decide)).trans rfl
theorem R1_v4 : W1 m ρ c (Proc.devRef .tc main_v4) = A1 m c := by
  show StableHlo.after hostOps0 (W0 m ρ c) (Proc.devRef .tc main_v4) = _
  read_ops hostOps0; rfl
theorem R1_v5 : W1 m ρ c (Proc.devRef .tc main_v5) = KT.w1e (A2 m c) := by
  show StableHlo.after hostOps0 (W0 m ρ c) (Proc.devRef .tc main_v5) = _
  read_ops hostOps0; rfl
theorem R1_v6 : W1 m ρ c (Proc.devRef .tc main_v6) = KT.w1m (A2 m c) := by
  show StableHlo.after hostOps0 (W0 m ρ c) (Proc.devRef .tc main_v6) = _
  read_ops hostOps0; rfl
theorem R1_v7 : W1 m ρ c (Proc.devRef .tc main_v7) = A4 m c := by
  show StableHlo.after hostOps0 (W0 m ρ c) (Proc.devRef .tc main_v7) = _
  read_ops hostOps0; rfl
theorem R1_v8 : W1 m ρ c (Proc.devRef .tc main_v8) = KT.w1s (A6 m c) := by
  show StableHlo.after hostOps0 (W0 m ρ c) (Proc.devRef .tc main_v8) = _
  read_ops hostOps0; rfl
theorem R1_v9 : W1 m ρ c (Proc.devRef .tc main_v9) = KT.w1o (A6 m c) := by
  show StableHlo.after hostOps0 (W0 m ρ c) (Proc.devRef .tc main_v9) = _
  read_ops hostOps0; rfl
theorem R1_v10 : W1 m ρ c (Proc.devRef .tc main_v10) = A8 m c := by
  show StableHlo.after hostOps0 (W0 m ρ c) (Proc.devRef .tc main_v10) = _
  read_ops hostOps0; rfl
theorem R1_v11 : W1 m ρ c (Proc.devRef .tc main_v11) = A10 m c := by
  show StableHlo.after hostOps0 (W0 m ρ c) (Proc.devRef .tc main_v11) = _
  read_ops hostOps0; rfl
theorem R1_v12 : W1 m ρ c (Proc.devRef .tc main_v12) = KT.flat (A12 m c) := by
  show StableHlo.after hostOps0 (W0 m ρ c) (Proc.devRef .tc main_v12) = _
  read_ops hostOps0; rfl
theorem R1_v13 : W1 m ρ c (Proc.devRef .tc main_v13) = KT.flat (A13 m c) := by
  show StableHlo.after hostOps0 (W0 m ρ c) (Proc.devRef .tc main_v13) = _
  read_ops hostOps0; rfl
theorem R1_v14 : W1 m ρ c (Proc.devRef .tc main_v14) = KT.brow (A3 m c) := by
  show StableHlo.after hostOps0 (W0 m ρ c) (Proc.devRef .tc main_v14) = _
  read_ops hostOps0; rfl
theorem R1_v15 : W1 m ρ c (Proc.devRef .tc main_v15) = KT.brow (A5 m c) := by
  show StableHlo.after hostOps0 (W0 m ρ c) (Proc.devRef .tc main_v15) = _
  read_ops hostOps0; rfl

/-! ## Reading a buffer at a later boundary

Every host stretch on the way is opened at once; what is left is the operation that wrote the buffer, applied to reads
at the exit of the launch before it. -/

macro "read_through" : tactic => `(tactic| (
  dsimp only [W1, W3, W4, W5, W6, W8, W10, W11, W12, W13, W15, hostOps0, hostOps1, hostOps1_1, hostOps1_2, hostOps1_3, hostOps2,
    hostOps3, hostOps3_1, hostOps3_2, hostOps3_3, hostOps4]
  after_results))

/-- The closed expression of the first class update. -/
abbrev U0 : SND.Idx → EReal := KT.upd0 (A0 m c) (A1 m c) (A2 m c) (A3 m c) (A4 m c) (A5 m c)
/-- The closed expression of the second class update. -/
abbrev U1 : SND.Idx → EReal := KT.upd1 (A0 m c) (A1 m c) (A2 m c) (A3 m c) (A4 m c) (A5 m c) (A6 m c) (A7 m c) (A8 m c) (A9 m c) (A10 m c) (A11 m c) (A12 m c) (A13 m c)

/-! ## The first launch -/

theorem R2_v16 : W2 m ρ c (Proc.devRef .tc main_v16) = U0 m c := by
  refine (W2_arr m ρ c 7).trans ?_
  rw [ClassK.final0 (V1 m ρ) c]
  show classUpdK (W1 m ρ c (Proc.devRef .tc main_arg0)) (W1 m ρ c (Proc.devRef .tc main_v4)) (W1 m ρ c (Proc.devRef .tc main_v5)) (W1 m ρ c (Proc.devRef .tc main_v6)) (W1 m ρ c (Proc.devRef .tc main_v14)) (W1 m ρ c (Proc.devRef .tc main_v7)) (W1 m ρ c (Proc.devRef .tc main_v15)) = _
  rw [R1_arg0, R1_v4, R1_v5, R1_v6, R1_v14, R1_v7, R1_v15]
  rfl

/-- An argument no launch window of the first launch holds and the first stretch does not write, at the first launch's exit. -/
theorem R2_arg (b : Ref sig .tc) (h2 : ∀ w, Pipeline.arrRef spec0 w ≠ b) (h1 : ∀ d ∈ dst0, b ≠ d) :
    W2 m ρ c (Proc.devRef .tc b) = W0 m ρ c (Proc.devRef .tc b) := (W2_of_ne m ρ c b h2).trans (keep1 m ρ c b h1)

/-! ## To the second launch's entry: the gathered rows, the relation weights, the one-row biases -/

theorem R6_v18 : W6 m ρ c (Proc.devRef .tc main_v18) = KT.gath (U0 m c) (A12 m c) := by
  read_through
  rw [R2_v16, W2_of_ne m ρ c main_v12 (by decide), R1_v12]
  rfl
theorem R6_v20 : W6 m ρ c (Proc.devRef .tc main_v20) = KT.gath (U0 m c) (A13 m c) := by
  read_through
  rw [R2_v16, W2_of_ne m ρ c main_v13 (by decide), R1_v13]
  rfl
theorem R6_v8 : W6 m ρ c (Proc.devRef .tc main_v8) = KT.w1s (A6 m c) :=
  (keep1to6 m ρ c main_v8 (by decide) (by decide) (by decide) (by decide) (by decide)).trans (R1_v8 m ρ c)
theorem R6_v9 : W6 m ρ c (Proc.devRef .tc main_v9) = KT.w1o (A6 m c) :=
  (keep1to6 m ρ c main_v9 (by decide) (by decide) (by decide) (by decide) (by decide)).trans (R1_v9 m ρ c)
theorem R6_v10 : W6 m ρ c (Proc.devRef .tc main_v10) = (A8 m c) :=
  (keep1to6 m ρ c main_v10 (by decide) (by decide) (by decide) (by decide) (by decide)).trans (R1_v10 m ρ c)
theorem R6_v11 : W6 m ρ c (Proc.devRef .tc main_v11) = (A10 m c) :=
  (keep1to6 m ρ c main_v11 (by decide) (by decide) (by decide) (by decide) (by decide)).trans (R1_v11 m ρ c)
theorem R6_v21 : W6 m ρ c (Proc.devRef .tc main_v21) = KT.brow3 (A7 m c) := by
  read_through
  rw [R2_arg m ρ c main_arg7 (by decide) (by decide)]
  rfl
theorem R6_v22 : W6 m ρ c (Proc.devRef .tc main_v22) = KT.brow3 (A9 m c) := by
  read_through
  rw [R2_arg m ρ c main_arg9 (by decide) (by decide)]
  rfl
theorem R6_v23 : W6 m ρ c (Proc.devRef .tc main_v23) = KT.brow3 (A11 m c) := by
  read_through
  rw [R2_arg m ρ c main_arg11 (by decide) (by decide)]
  rfl

/-! ## The second launch: the first round's relation heads -/

theorem R7_v24_0 : W7 m ρ c (Proc.devRef .tc main_v24_0) = KT.rel (U0 m c) (A6 m c) (A7 m c) (A8 m c) (A9 m c) (A12 m c) (A13 m c) := by
  refine (W7_arr m ρ c 9).trans ?_
  rw [RelK.final1_9 (V6 m ρ) c]
  show outRK (W6 m ρ c (Proc.devRef .tc main_v18)) (W6 m ρ c (Proc.devRef .tc main_v20)) (W6 m ρ c (Proc.devRef .tc main_v8)) (W6 m ρ c (Proc.devRef .tc main_v9)) (W6 m ρ c (Proc.devRef .tc main_v21)) (W6 m ρ c (Proc.devRef .tc main_v10)) (W6 m ρ c (Proc.devRef .tc main_v22)) = _
  rw [R6_v18, R6_v20, R6_v8, R6_v9, R6_v21, R6_v10, R6_v22]
  rfl
theorem R7_v24_1 : W7 m ρ c (Proc.devRef .tc main_v24_1) = KT.rel (U0 m c) (A6 m c) (A7 m c) (A10 m c) (A11 m c) (A12 m c) (A13 m c) := by
  refine (W7_arr m ρ c 10).trans ?_
  rw [RelK.final1_10 (V6 m ρ) c]
  show outRK (W6 m ρ c (Proc.devRef .tc main_v18)) (W6 m ρ c (Proc.devRef .tc main_v20)) (W6 m ρ c (Proc.devRef .tc main_v8)) (W6 m ρ c (Proc.devRef .tc main_v9)) (W6 m ρ c (Proc.devRef .tc main_v21)) (W6 m ρ c (Proc.devRef .tc main_v11)) (W6 m ρ c (Proc.devRef .tc main_v23)) = _
  rw [R6_v18, R6_v20, R6_v8, R6_v9, R6_v21, R6_v11, R6_v23]
  rfl
theorem R7_v12 : W7 m ρ c (Proc.devRef .tc main_v12) = KT.flat (A12 m c) :=
  (W7_of_ne m ρ c main_v12 (by decide)).trans ((keep1to6 m ρ c main_v12 (by decide) (by decide) (by decide) (by decide) (by decide)).trans (R1_v12 m ρ c))
theorem R7_v13 : W7 m ρ c (Proc.devRef .tc main_v13) = KT.flat (A13 m c) :=
  (W7_of_ne m ρ c main_v13 (by decide)).trans ((keep1to6 m ρ c main_v13 (by decide) (by decide) (by decide) (by decide) (by decide)).trans (R1_v13 m ρ c))
theorem R7_v16 : W7 m ρ c (Proc.devRef .tc main_v16) = U0 m c :=
  (W7_of_ne m ρ c main_v16 (by decide)).trans ((keep2to6 m ρ c main_v16 (by decide) (by decide) (by decide) (by decide)).trans (R2_v16 m ρ c))
/-- An argument nothing before the third launch writes or holds as an output, at the second launch's exit. -/
theorem R7_arg (b : Ref sig .tc) (h7 : ∀ w, Pipeline.arrRef spec1 w ≠ b) (h3 : ∀ d ∈ dst1, b ≠ d) (h4 : ∀ d ∈ dst1_1, b ≠ d)
    (h5 : ∀ d ∈ dst1_2, b ≠ d) (h6 : ∀ d ∈ dst1_3, b ≠ d) (h2 : ∀ w, Pipeline.arrRef spec0 w ≠ b) (h1 : ∀ d ∈ dst0, b ≠ d) :
    W7 m ρ c (Proc.devRef .tc b) = W0 m ρ c (Proc.devRef .tc b) :=
  (W7_of_ne m ρ c b h7).trans ((keep2to6 m ρ c b h3 h4 h5 h6).trans (R2_arg m ρ c b h2 h1))

/-! ## To the third launch's entry: the first messages, and the class weights again

The memberships and the class weights are input windows of the first launch: an input window's array leaves a launch
as it entered it. -/

theorem R2_v4 : W2 m ρ c (Proc.devRef .tc main_v4) = (A1 m c) :=
  (W2_arr m ρ c 1).trans ((((dat0 (V1 m ρ) c).arrAt_in 1 rfl _).trans (A_eq0 (V1 m ρ) c 1)).trans (R1_v4 m ρ c))
theorem R2_v5 : W2 m ρ c (Proc.devRef .tc main_v5) = KT.w1e (A2 m c) :=
  (W2_arr m ρ c 2).trans ((((dat0 (V1 m ρ) c).arrAt_in 2 rfl _).trans (A_eq0 (V1 m ρ) c 2)).trans (R1_v5 m ρ c))
theorem R2_v6 : W2 m ρ c (Proc.devRef .tc main_v6) = KT.w1m (A2 m c) :=
  (W2_arr m ρ c 3).trans ((((dat0 (V1 m ρ) c).arrAt_in 3 rfl _).trans (A_eq0 (V1 m ρ) c 3)).trans (R1_v6 m ρ c))
theorem R2_v7 : W2 m ρ c (Proc.devRef .tc main_v7) = (A4 m c) :=
  (W2_arr m ρ c 5).trans ((((dat0 (V1 m ρ) c).arrAt_in 5 rfl _).trans (A_eq0 (V1 m ρ) c 5)).trans (R1_v7 m ρ c))
/-- From the first launch's exit to the third launch's entry, for a buffer nothing in between writes. -/
theorem keep2to8 (b : Ref sig .tc) (h3 : ∀ d ∈ dst1, b ≠ d) (h4 : ∀ d ∈ dst1_1, b ≠ d) (h5 : ∀ d ∈ dst1_2, b ≠ d)
    (h6 : ∀ d ∈ dst1_3, b ≠ d) (h7 : ∀ w, Pipeline.arrRef spec1 w ≠ b) (h8 : ∀ d ∈ dst2, b ≠ d) :
    W8 m ρ c (Proc.devRef .tc b) = W2 m ρ c (Proc.devRef .tc b) :=
  (keep8 m ρ c b h8).trans ((W7_of_ne m ρ c b h7).trans (keep2to6 m ρ c b h3 h4 h5 h6))

theorem R8_v16 : W8 m ρ c (Proc.devRef .tc main_v16) = U0 m c := (keep8 m ρ c main_v16 (by decide)).trans (R7_v16 m ρ c)
theorem R8_v41 : W8 m ρ c (Proc.devRef .tc main_v41) = KT.msgs (U0 m c) (A6 m c) (A7 m c) (A8 m c) (A9 m c) (A10 m c) (A11 m c) (A12 m c) (A13 m c) := by
  show StableHlo.after hostOps2 (W7 m ρ c) (Proc.devRef .tc main_v41) = _
  dsimp only [hostOps2]
  after_results_simp
  rw [R7_v24_0, R7_v24_1, R7_v12, R7_v13]
  rfl
theorem R8_v4 : W8 m ρ c (Proc.devRef .tc main_v4) = (A1 m c) :=
  (keep2to8 m ρ c main_v4 (by decide) (by decide) (by decide) (by decide) (by decide) (by decide)).trans (R2_v4 m ρ c)
theorem R8_v5 : W8 m ρ c (Proc.devRef .tc main_v5) = KT.w1e (A2 m c) :=
  (keep2to8 m ρ c main_v5 (by decide) (by decide) (by decide) (by decide) (by decide) (by decide)).trans (R2_v5 m ρ c)
theorem R8_v6 : W8 m ρ c (Proc.devRef .tc main_v6) = KT.w1m (A2 m c) :=
  (keep2to8 m ρ c main_v6 (by decide) (by decide) (by decide) (by decide) (by decide) (by decide)).trans (R2_v6 m ρ c)
theorem R8_v7 : W8 m ρ c (Proc.devRef .tc main_v7) = (A4 m c) :=
  (keep2to8 m ρ c main_v7 (by decide) (by decide) (by decide) (by decide) (by decide) (by decide)).trans (R2_v7 m ρ c)
theorem R8_v42 : W8 m ρ c (Proc.devRef .tc main_v42) = KT.brow (A3 m c) := by
  read_through
  rw [R7_arg m ρ c main_arg3 (by decide) (by decide) (by decide) (by decide) (by decide) (by decide) (by decide)]
  rfl
theorem R8_v43 : W8 m ρ c (Proc.devRef .tc main_v43) = KT.brow (A5 m c) := by
  read_through
  rw [R7_arg m ρ c main_arg5 (by decide) (by decide) (by decide) (by decide) (by decide) (by decide) (by decide)]
  rfl

/-! ## The third launch: the second class update -/

theorem R9_v44 : W9 m ρ c (Proc.devRef .tc main_v44) = U1 m c := by
  refine (W9_arr m ρ c 8).trans ?_
  rw [ClassK.final2 (V8 m ρ) c]
  show classUpdK (l2n (addT (W8 m ρ c (Proc.devRef .tc main_v16)) (W8 m ρ c (Proc.devRef .tc main_v41)))) (W8 m ρ c (Proc.devRef .tc main_v4)) (W8 m ρ c (Proc.devRef .tc main_v5)) (W8 m ρ c (Proc.devRef .tc main_v6)) (W8 m ρ c (Proc.devRef .tc main_v42)) (W8 m ρ c (Proc.devRef .tc main_v7)) (W8 m ρ c (Proc.devRef .tc main_v43)) = _
  rw [R8_v16, R8_v41, R8_v4, R8_v5, R8_v6, R8_v42, R8_v7, R8_v43]
  rfl

/-! ## To the fourth launch's entry: the second round's gathered rows, the relation weights and biases again

The relation weights are input windows of the second launch, which leaves them as it found them. -/

theorem R9_v12 : W9 m ρ c (Proc.devRef .tc main_v12) = KT.flat (A12 m c) :=
  (W9_of_ne m ρ c main_v12 (by decide)).trans ((keep8 m ρ c main_v12 (by decide)).trans (R7_v12 m ρ c))
theorem R9_v13 : W9 m ρ c (Proc.devRef .tc main_v13) = KT.flat (A13 m c) :=
  (W9_of_ne m ρ c main_v13 (by decide)).trans ((keep8 m ρ c main_v13 (by decide)).trans (R7_v13 m ρ c))
theorem R13_v46 : W13 m ρ c (Proc.devRef .tc main_v46) = KT.gath (U1 m c) (A12 m c) := by
  read_through
  rw [R9_v44, R9_v12]
  rfl
theorem R13_v48 : W13 m ρ c (Proc.devRef .tc main_v48) = KT.gath (U1 m c) (A13 m c) := by
  read_through
  rw [R9_v44, R9_v13]
  rfl
theorem R7_v8 : W7 m ρ c (Proc.devRef .tc main_v8) = KT.w1s (A6 m c) :=
  (W7_arr m ρ c 2).trans ((((dat1 (V6 m ρ) c).arrAt_in 2 rfl _).trans (A_eq1 (V6 m ρ) c 2)).trans (R6_v8 m ρ c))
theorem R7_v9 : W7 m ρ c (Proc.devRef .tc main_v9) = KT.w1o (A6 m c) :=
  (W7_arr m ρ c 3).trans ((((dat1 (V6 m ρ) c).arrAt_in 3 rfl _).trans (A_eq1 (V6 m ρ) c 3)).trans (R6_v9 m ρ c))
theorem R7_v10 : W7 m ρ c (Proc.devRef .tc main_v10) = (A8 m c) :=
  (W7_arr m ρ c 5).trans ((((dat1 (V6 m ρ) c).arrAt_in 5 rfl _).trans (A_eq1 (V6 m ρ) c 5)).trans (R6_v10 m ρ c))
theorem R7_v11 : W7 m ρ c (Proc.devRef .tc main_v11) = (A10 m c) :=
  (W7_arr m ρ c 7).trans ((((dat1 (V6 m ρ) c).arrAt_in 7 rfl _).trans (A_eq1 (V6 m ρ) c 7)).trans (R6_v11 m ρ c))
/-- From the second launch's exit to the fourth launch's entry, for a buffer nothing in between writes. -/
theorem keep7to13 (b : Ref sig .tc) (h8 : ∀ d ∈ dst2, b ≠ d) (h9 : ∀ w, Pipeline.arrRef spec2 w ≠ b) (h10 : ∀ d ∈ dst3, b ≠ d)
    (h11 : ∀ d ∈ dst3_1, b ≠ d) (h12 : ∀ d ∈ dst3_2, b ≠ d) (h13 : ∀ d ∈ dst3_3, b ≠ d) :
    W13 m ρ c (Proc.devRef .tc b) = W7 m ρ c (Proc.devRef .tc b) :=
  (keep9to13 m ρ c b h10 h11 h12 h13).trans ((W9_of_ne m ρ c b h9).trans (keep8 m ρ c b h8))
theorem R13_v8 : W13 m ρ c (Proc.devRef .tc main_v8) = KT.w1s (A6 m c) := (keep7to13 m ρ c main_v8 (by decide) (by decide) (by decide) (by decide) (by decide) (by decide)).trans (R7_v8 m ρ c)
theorem R13_v9 : W13 m ρ c (Proc.devRef .tc main_v9) = KT.w1o (A6 m c) := (keep7to13 m ρ c main_v9 (by decide) (by decide) (by decide) (by decide) (by decide) (by decide)).trans (R7_v9 m ρ c)
theorem R13_v10 : W13 m ρ c (Proc.devRef .tc main_v10) = (A8 m c) := (keep7to13 m ρ c main_v10 (by decide) (by decide) (by decide) (by decide) (by decide) (by decide)).trans (R7_v10 m ρ c)
theorem R13_v11 : W13 m ρ c (Proc.devRef .tc main_v11) = (A10 m c) := (keep7to13 m ρ c main_v11 (by decide) (by decide) (by decide) (by decide) (by decide) (by decide)).trans (R7_v11 m ρ c)
/-- An argument nothing before the fourth launch writes or holds as an output, at the third launch's exit. -/
theorem R9_arg (b : Ref sig .tc) (h9 : ∀ w, Pipeline.arrRef spec2 w ≠ b) (h8 : ∀ d ∈ dst2, b ≠ d)
    (h7 : ∀ w, Pipeline.arrRef spec1 w ≠ b) (h3 : ∀ d ∈ dst1, b ≠ d) (h4 : ∀ d ∈ dst1_1, b ≠ d)
    (h5 : ∀ d ∈ dst1_2, b ≠ d) (h6 : ∀ d ∈ dst1_3, b ≠ d) (h2 : ∀ w, Pipeline.arrRef spec0 w ≠ b) (h1 : ∀ d ∈ dst0, b ≠ d) :
    W9 m ρ c (Proc.devRef .tc b) = W0 m ρ c (Proc.devRef .tc b) :=
  (W9_of_ne m ρ c b h9).trans ((keep8 m ρ c b h8).trans (R7_arg m ρ c b h7 h3 h4 h5 h6 h2 h1))
theorem R13_v49 : W13 m ρ c (Proc.devRef .tc main_v49) = KT.brow3 (A7 m c) := by
  read_through
  rw [R9_arg m ρ c main_arg7 (by decide) (by decide) (by decide) (by decide) (by decide) (by decide) (by decide) (by decide) (by decide)]
  rfl
theorem R13_v50 : W13 m ρ c (Proc.devRef .tc main_v50) = KT.brow3 (A9 m c) := by
  read_through
  rw [R9_arg m ρ c main_arg9 (by decide) (by decide) (by decide) (by decide) (by decide) (by decide) (by decide) (by decide) (by decide)]
  rfl
theorem R13_v51 : W13 m ρ c (Proc.devRef .tc main_v51) = KT.brow3 (A11 m c) := by
  read_through
  rw [R9_arg m ρ c main_arg11 (by decide) (by decide) (by decide) (by decide) (by decide) (by decide) (by decide) (by decide) (by decide)]
  rfl

/-! ## The fourth launch: the second round's relation heads -/

theorem R14_v52_0 : W14 m ρ c (Proc.devRef .tc main_v52_0) = KT.rel (U1 m c) (A6 m c) (A7 m c) (A8 m c) (A9 m c) (A12 m c) (A13 m c) := by
  refine (W14_arr m ρ c 9).trans ?_
  rw [RelK.final3_9 (V13 m ρ) c]
  show outRK (W13 m ρ c (Proc.devRef .tc main_v46)) (W13 m ρ c (Proc.devRef .tc main_v48)) (W13 m ρ c (Proc.devRef .tc main_v8)) (W13 m ρ c (Proc.devRef .tc main_v9)) (W13 m ρ c (Proc.devRef .tc main_v49)) (W13 m ρ c (Proc.devRef .tc main_v10)) (W13 m ρ c (Proc.devRef .tc main_v50)) = _
  rw [R13_v46, R13_v48, R13_v8, R13_v9, R13_v49, R13_v10, R13_v50]
  rfl
theorem R14_v52_1 : W14 m ρ c (Proc.devRef .tc main_v52_1) = KT.rel (U1 m c) (A6 m c) (A7 m c) (A10 m c) (A11 m c) (A12 m c) (A13 m c) := by
  refine (W14_arr m ρ c 10).trans ?_
  rw [RelK.final3_10 (V13 m ρ) c]
  show outRK (W13 m ρ c (Proc.devRef .tc main_v46)) (W13 m ρ c (Proc.devRef .tc main_v48)) (W13 m ρ c (Proc.devRef .tc main_v8)) (W13 m ρ c (Proc.devRef .tc main_v9)) (W13 m ρ c (Proc.devRef .tc main_v49)) (W13 m ρ c (Proc.devRef .tc main_v11)) (W13 m ρ c (Proc.devRef .tc main_v51)) = _
  rw [R13_v46, R13_v48, R13_v8, R13_v9, R13_v49, R13_v11, R13_v51]
  rfl
theorem R14_v12 : W14 m ρ c (Proc.devRef .tc main_v12) = KT.flat (A12 m c) :=
  (W14_of_ne m ρ c main_v12 (by decide)).trans ((keep9to13 m ρ c main_v12 (by decide) (by decide) (by decide) (by decide)).trans (R9_v12 m ρ c))
theorem R14_v13 : W14 m ρ c (Proc.devRef .tc main_v13) = KT.flat (A13 m c) :=
  (W14_of_ne m ρ c main_v13 (by decide)).trans ((keep9to13 m ρ c main_v13 (by decide) (by decide) (by decide) (by decide)).trans (R9_v13 m ρ c))
theorem R14_v44 : W14 m ρ c (Proc.devRef .tc main_v44) = U1 m c :=
  (W14_of_ne m ρ c main_v44 (by decide)).trans ((keep9to13 m ρ c main_v44 (by decide) (by decide) (by decide) (by decide)).trans (R9_v44 m ρ c))

/-! ## To the closing launch's entry, and the result -/

theorem R15_v44 : W15 m ρ c (Proc.devRef .tc main_v44) = U1 m c := (keep15 m ρ c main_v44 (by decide)).trans (R14_v44 m ρ c)
theorem R15_v69 : W15 m ρ c (Proc.devRef .tc main_v69) = KT.msgs (U1 m c) (A6 m c) (A7 m c) (A8 m c) (A9 m c) (A10 m c) (A11 m c) (A12 m c) (A13 m c) := by
  show StableHlo.after hostOps4 (W14 m ρ c) (Proc.devRef .tc main_v69) = _
  dsimp only [hostOps4]
  after_results_simp
  rw [R14_v52_0, R14_v52_1, R14_v12, R14_v13]
  rfl

/-- At the end of the run the result buffer holds the closed expression of the arguments. -/
theorem out_closed :
    W16 m ρ c (Proc.devRef .tc main_v70)
      = KT.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W16_arr m ρ c 2).trans ?_
  rw [NormK.final4 (V15 m ρ) c]
  show l2n (addT (W15 m ρ c (Proc.devRef .tc main_v44)) (W15 m ρ c (Proc.devRef .tc main_v69))) = _
  rw [R15_v44, R15_v69]
  rfl

end Cert.Bridge.Fold

end
-- ==== Proof.BridgeK.lean ====
/-
  The program's pieces, read at an index: the launches' operands are the specification's.
  A slice of the first 128 (or the last 64, or the last 128) rows of a weight matrix reads the matrix at the row moved
  by the slice's offset; a bias vector laid out as a one-row table reads the vector at the column; the rows gathered
  at the flattened indices and re-laid as 16 × 25000 × 128 are, at (l, t, d), the table's row at index (l, t) read
  signed and clamped, column d (the flattened position of (l, t) is 25000·l + t on both sides of the re-laying).
-/
import proofs.«406575_j23888608101388_2_alg».proof.Proof.KTerms
import Idealize.ShloMosaic.Lib.Pipeline.Value
import Idealize.ShloMosaic.Lib.ValueIdx
import Idealize.ShloMosaic.Lib.ValueLayout

noncomputable section

open scoped BigOperators

namespace Cert.Bridge.BridgeK

open Cert.KernelIdeal Cert.Bridge
open Cert.KernelIdeal.Facts₀ Cert.KernelIdeal.Facts
open Idealize.ShloMosaic Idealize.ShloMosaic.ValueIdx

/-! ## The cut weight matrices, read at an entry -/

/-- The first 128 rows of the 192-row matrix: entry (k, j) is the matrix's entry (k, j). -/
theorem w1e_apply (a2 : SW1.Idx → EReal) (k j : Fin 128) :
    KT.w1e a2 (ix2 k j) = a2 (ix2 (⟨k.val, by omega⟩ : Fin 192) j) :=
  extractStridedSlice_apply _ a2 _ _ _ (fun a => match a with
    | ⟨0, _⟩ => by show k.val = 0 + k.val; omega
    | ⟨1, _⟩ => by show j.val = 0 + j.val; omega)

/-- The last 64 rows: entry (k, j) is the matrix's entry (128 + k, j). -/
theorem w1m_apply (a2 : SW1.Idx → EReal) (k : Fin 64) (j : Fin 128) :
    KT.w1m a2 (ix2 k j) = a2 (ix2 (⟨128 + k.val, by omega⟩ : Fin 192) j) :=
  extractStridedSlice_apply _ a2 _ _ _ (fun a => match a with
    | ⟨0, _⟩ => by show 128 + k.val = 128 + k.val; rfl
    | ⟨1, _⟩ => by show j.val = 0 + j.val; omega)

/-- Layer l's first 128 rows of its 256-row matrix: entry (l, k, j) is the matrix's entry (l, k, j). -/
theorem w1s_apply (a6 : SRW1.Idx → EReal) (l : Fin 16) (k j : Fin 128) :
    KT.w1s a6 (ix3 l k j) = a6 (ix3 l (⟨k.val, by omega⟩ : Fin 256) j) :=
  extractStridedSlice_apply _ a6 _ _ _ (fun a => match a with
    | ⟨0, _⟩ => by show l.val = 0 + l.val; omega
    | ⟨1, _⟩ => by show k.val = 0 + k.val; omega
    | ⟨2, _⟩ => by show j.val = 0 + j.val; omega)

/-- Layer l's last 128 rows: entry (l, k, j) is the matrix's entry (l, 128 + k, j). -/
theorem w1o_apply (a6 : SRW1.Idx → EReal) (l : Fin 16) (k j : Fin 128) :
    KT.w1o a6 (ix3 l k j) = a6 (ix3 l (⟨128 + k.val, by omega⟩ : Fin 256) j) :=
  extractStridedSlice_apply _ a6 _ _ _ (fun a => match a with
    | ⟨0, _⟩ => by show l.val = 0 + l.val; omega
    | ⟨1, _⟩ => by show 128 + k.val = 128 + k.val; rfl
    | ⟨2, _⟩ => by show j.val = 0 + j.val; omega)

/-! ## The biases as one-row tables -/

/-- A bias vector as a one-row table reads the vector at the column. -/
theorem brow_apply (b : SV.Idx → EReal) (z : Fin 1) (j : Fin 128) : KT.brow b (ix2 z j) = b (ix1 j) :=
  shapeCast_a_1a_apply b _ z j

/-- The layers' bias vectors as one one-row table per layer: (l, 0, j) reads (l, j), both at position 128·l + j. -/
theorem brow3_apply (b : SRB.Idx → EReal) (l : Fin 16) (z : Fin 1) (j : Fin 128) :
    KT.brow3 b (ix3 l z j) = b (ix2 l j) :=
  shapeCast_apply b _ _ _ (by
    have hz : z.val = 0 := by omega
    rw [Shape.rowMajor_val_two, Shape.rowMajor_val_three]
    show l.val * 128 + j.val = (l.val * 1 + z.val) * 128 + j.val
    rw [hz, Nat.mul_one, Nat.add_zero])

/-! ## The gathered rows -/

/-- The flattened index array at position 25000·l + t is the array's entry (l, t). -/
theorem flat_apply (idx : IVec SLE 32) (l : Fin 16) (t : Fin 25000) (p : Fin 400000)
    (hp : p.val = l.val * 25000 + t.val) : KT.flat idx (ix1 p) = idx (ix2 l t) :=
  shapeCast_apply idx _ _ _ (by
    rw [Shape.rowMajor_val_two, Shape.rowMajor_val_one]
    show l.val * 25000 + t.val = p.val
    omega)

/-- The flattened indices as a one-column table read the entry of their row. -/
theorem col_apply (f : IVec S400000 32) (p : Fin 400000) (z : Fin 1) : KT.col f (ix2 p z) = f (ix1 p) :=
  broadcastInDim_apply _ _ f _ _ (fun a => match a with
    | ⟨0, _⟩ => by
      show p.val = if (400000 : Nat) = 1 then 0 else p.val
      rw [if_neg (by omega)])

/-- The gather's row coordinate at result entry (p, d): the one-column table's entry p read signed and clamped into the
    table's 100000 rows (row 0 of the operand is collapsed, nothing batches, the slice on it has one row). -/
theorem gather_row (I : IVec S400000x1 32) (p : Fin 400000) (d : Fin 128) :
    (gather_S100000x128_S400000x1_S400000x128_1_0_n_n_0_1_1128.operandIdx (ix2 p d) I 0).val
      = min (I (ix2 p (0 : Fin 1))).toInt.toNat 99999 := by
  show gather_S100000x128_S400000x1_S400000x128_1_0_n_n_0_1_1128.start (ix2 p d) I 0
      + gather_S100000x128_S400000x1_S400000x128_1_0_n_n_0_1_1128.batchCoord (ix2 p d) 0
      + gather_S100000x128_S400000x1_S400000x128_1_0_n_n_0_1_1128.offCoord (ix2 p d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x128_S400000x1_S400000x128_1_0_n_n_0_1_1128.startIndexMap
    from List.mem_singleton.mpr rfl)]
  have hsi : gather_S100000x128_S400000x1_S400000x128_1_0_n_n_0_1_1128.siIdx (ix2 p d)
      ⟨List.idxOf (0 : Fin 2) gather_S100000x128_S400000x1_S400000x128_1_0_n_n_0_1_1128.startIndexMap,
        List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- The gather's column coordinate at result entry (p, d) is d: column is the one offset axis, with no start on it. -/
theorem gather_col (I : IVec S400000x1 32) (p : Fin 400000) (d : Fin 128) :
    (gather_S100000x128_S400000x1_S400000x128_1_0_n_n_0_1_1128.operandIdx (ix2 p d) I 1).val = d.val := by
  show gather_S100000x128_S400000x1_S400000x128_1_0_n_n_0_1_1128.start (ix2 p d) I 1
      + gather_S100000x128_S400000x1_S400000x128_1_0_n_n_0_1_1128.batchCoord (ix2 p d) 1
      + gather_S100000x128_S400000x1_S400000x128_1_0_n_n_0_1_1128.offCoord (ix2 p d) 1 = _
  rw [GatherDims.batchCoord_eq_zero _ _ _ List.not_mem_nil]
  unfold GatherDims.start
  rw [dif_neg (show ¬ (1 : Fin 2) ∈ gather_S100000x128_S400000x1_S400000x128_1_0_n_n_0_1_1128.startIndexMap
    from by decide)]
  unfold GatherDims.offCoord
  rw [dif_pos (show (1 : Fin 2) ∈ gather_S100000x128_S400000x1_S400000x128_1_0_n_n_0_1_1128.sKept from by decide)]
  show 0 + 0 + d.val = d.val
  omega

/-- The gather read at (p, d): the table's row named by entry p of the one-column index table, read signed and clamped,
    at column d. -/
theorem gather_apply (u : SND.Idx → EReal) (I : IVec S400000x1 32) (p : Fin 400000) (d : Fin 128) :
    Host.gather gather_S100000x128_S400000x1_S400000x128_1_0_n_n_0_1_1128 u I (ix2 p d)
      = u (ix2 (⟨min (I (ix2 p (0 : Fin 1))).toInt.toNat 99999, by omega⟩ : Fin 100000) d) := by
  unfold Host.gather
  refine congrArg u (funext fun a => Fin.ext ?_)
  match a with
  | ⟨0, _⟩ => exact gather_row I p d
  | ⟨1, _⟩ => exact gather_col I p d

/-- The gathered rows re-laid as 16 × 25000 × 128, at (l, t, d): position (25000·l + t)·128 + d on both sides of the
    re-laying, so row 25000·l + t of the gather, whose index is the array's entry (l, t). -/
theorem gath_apply (u : SND.Idx → EReal) (idx : IVec SLE 32) (l : Fin 16) (t : Fin 25000) (d : Fin 128) :
    KT.gath u idx (ix3 l t d)
      = u (ix2 (⟨min (idx (ix2 l t)).toInt.toNat 99999, by omega⟩ : Fin 100000) d) := by
  have hp : l.val * 25000 + t.val < 400000 := by omega
  unfold KT.gath
  refine (shapeCast_apply _ _ (ix3 l t d) (ix2 (⟨l.val * 25000 + t.val, hp⟩ : Fin 400000) d) ?_).trans ?_
  · rw [Shape.rowMajor_val_two, Shape.rowMajor_val_three]
    rfl
  refine (gather_apply u _ _ d).trans ?_
  have e : KT.col (KT.flat idx) (ix2 (⟨l.val * 25000 + t.val, hp⟩ : Fin 400000) (0 : Fin 1)) = idx (ix2 l t) :=
    (col_apply _ _ _).trans (flat_apply idx l t _ rfl)
  exact congrArg u (congrArg (fun r : Fin 100000 => ix2 r d) (Fin.ext (by
    show min _ 99999 = min _ 99999
    rw [e])))

/-- The gathered and re-laid rows are the specification's `rows`. -/
theorem gath_eq (u : SND.Idx → EReal) (idx : IVec SLE 32) : KT.gath u idx = rows u idx := by
  funext i
  obtain ⟨l, t, d, rfl⟩ : ∃ (l : Fin 16) (t : Fin 25000) (d : Fin 128), i = ix3 l t d := ⟨i 0, i 1, i 2, eq_ix3 i⟩
  exact gath_apply u idx l t d

/-- The class update on the cut weights and the one-row biases is the specification's class update. -/
theorem cls_eq (e : SND.Idx → EReal) (a1 : SNK.Idx → EReal) (a2 : SW1.Idx → EReal) (a3 : SV.Idx → EReal)
    (a4 : SW2.Idx → EReal) (a5 : SV.Idx → EReal) : KT.cls e a1 a2 a3 a4 a5 = classUpd e a1 a2 a3 a4 a5 := by
  funext i
  obtain ⟨n, c, rfl⟩ : ∃ (n : Fin 100000) (c : Fin 128), i = ix2 n c := ⟨i 0, i 1, eq_ix2 i⟩
  show (∑ j : Fin 128,
        max (((∑ k : Fin 128, e (ix2 n k) * KT.w1e a2 (ix2 k j)) + (∑ k : Fin 64, a1 (ix2 n k) * KT.w1m a2 (ix2 k j)))
              + KT.brow a3 (ix2 (0 : Fin 1) j)) zeroW * a4 (ix2 j c))
      + KT.brow a5 (ix2 (0 : Fin 1) c)
    = (∑ j : Fin 128,
        max (((∑ k : Fin 128, e (ix2 n k) * a2 (ix2 (⟨k.val, by omega⟩ : Fin 192) j))
              + (∑ k : Fin 64, a1 (ix2 n k) * a2 (ix2 (⟨128 + k.val, by omega⟩ : Fin 192) j)))
              + a3 (ix1 j)) zeroW * a4 (ix2 j c))
      + a5 (ix1 c)
  simp only [w1e_apply, w1m_apply, brow_apply]

/-- A relation head on the cut weights, the one-row biases and the gathered rows is the specification's head on the
    specification's rows. -/
theorem rel_eq (u : SND.Idx → EReal) (a6 : SRW1.Idx → EReal) (a7 : SRB.Idx → EReal) (w : SRW.Idx → EReal)
    (b : SRB.Idx → EReal) (s o : IVec SLE 32) :
    KT.rel u a6 a7 w b s o = outR (rows u s) (rows u o) a6 a7 w b := by
  unfold KT.rel
  rw [gath_eq, gath_eq]
  funext i
  obtain ⟨l, t, d, rfl⟩ : ∃ (l : Fin 16) (t : Fin 25000) (d : Fin 128), i = ix3 l t d := ⟨i 0, i 1, i 2, eq_ix3 i⟩
  show (∑ j : Fin 128,
        max (((∑ k : Fin 128, rows u s (ix3 l t k) * KT.w1s a6 (ix3 l k j))
              + (∑ k : Fin 128, rows u o (ix3 l t k) * KT.w1o a6 (ix3 l k j)))
              + KT.brow3 a7 (ix3 l (0 : Fin 1) j)) zeroW * w (ix3 l j d))
      + KT.brow3 b (ix3 l (0 : Fin 1) d)
    = (∑ j : Fin 128,
        max (((∑ k : Fin 128, rows u s (ix3 l t k) * a6 (ix3 l (⟨k.val, by omega⟩ : Fin 256) j))
              + (∑ k : Fin 128, rows u o (ix3 l t k) * a6 (ix3 l (⟨128 + k.val, by omega⟩ : Fin 256) j)))
              + a7 (ix2 l j)) zeroW * w (ix3 l j d))
      + b (ix2 l d)
  simp only [w1s_apply, w1o_apply, brow3_apply]

end Cert.Bridge.BridgeK

end
-- ==== Proof.RefClass.lean ====
/-
  The reference's class update and its row normalisation, read as the specification's functions.
  The reference joins each row with its memberships into 192 entries and multiplies by the whole 192-row weight
  matrix; a sum over the 192 joined entries is the sum over the first 128 (the row's own entries) plus the sum over
  the last 64 (the memberships), which is how the specification writes it. Its row normalisation sums a row's squares
  from a zero initial value, takes the root, floors it and divides.
-/
import proofs.«406575_j23888608101388_2_alg».proof.Proof.RefStages
import proofs.«406575_j23888608101388_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.RefClass

open Cert.ReferenceIdeal Cert.ReferenceIdeal.Read Cert.Bridge
open Idealize.ShloMosaic Idealize.ShloMosaic.ValueIdx

-- The reference's fourteen arguments, as arrays of extended reals and of 32-bit words.
variable (x0 : (⟨S100000x128, .f32⟩ : BufTy).Contents (Elt Ideal))
  (x1 : (⟨S100000x64, .f32⟩ : BufTy).Contents (Elt Ideal))
  (x2 : (⟨S192x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S16x256x128, .f32⟩ : BufTy).Contents (Elt Ideal))
  (x7 : (⟨S16x128, .f32⟩ : BufTy).Contents (Elt Ideal))
  (x8 : (⟨S16x128x128, .f32⟩ : BufTy).Contents (Elt Ideal))
  (x9 : (⟨S16x128, .f32⟩ : BufTy).Contents (Elt Ideal))
  (x10 : (⟨S16x128x128, .f32⟩ : BufTy).Contents (Elt Ideal))
  (x11 : (⟨S16x128, .f32⟩ : BufTy).Contents (Elt Ideal))
  (x12 : (⟨S16x25000, .i32⟩ : BufTy).Contents (Elt Ideal))
  (x13 : (⟨S16x25000, .i32⟩ : BufTy).Contents (Elt Ideal))

/-- A sum over the 192 joined entries of a row, each against its row of the first weight matrix, is the sum over the
    row's own 128 entries plus the sum over its 64 memberships: the joined row reads the embedding on its first 128
    places and the memberships on the remaining 64 (moved down by 128). -/
private theorem joined_sum (e : (⟨S100000x128, .f32⟩ : BufTy).Contents (Elt Ideal)) (mem : (⟨S100000x64, .f32⟩ : BufTy).Contents (Elt Ideal)) (w1 : (⟨S192x128, .f32⟩ : BufTy).Contents (Elt Ideal)) (n : Fin 100000) (j : Fin 128) :
    (∑ k : Fin 192, val_main_v0 (F := Ideal) e mem (lidx_main_v1 (ix2 n j) k) * w1 (ridx_main_v1 (ix2 n j) k))
      = (∑ k : Fin 128, e (ix2 n k) * w1 (ix2 (⟨k.val, by omega⟩ : Fin 192) j))
        + ∑ k : Fin 64, mem (ix2 n k) * w1 (ix2 (⟨128 + k.val, by omega⟩ : Fin 192) j) := by
  have hL : ∀ k : Fin 128, val_main_v0 (F := Ideal) e mem (lidx_main_v1 (ix2 n j) (Fin.castAdd 64 k)) = e (ix2 n k) := fun k => by
    unfold val_main_v0
    exact concatenate_pair_apply_left (t := S100000x192) (s₁ := S100000x128) (s₂ := S100000x64) (1 : Fin 2) e mem _
      (lidx_main_v1 (ix2 n j) (Fin.castAdd 64 k)) rfl (ix2 n k)
      (fun b => by match b with | ⟨0, _⟩ => rfl | ⟨1, _⟩ => rfl)
  have hR : ∀ k : Fin 64, val_main_v0 (F := Ideal) e mem (lidx_main_v1 (ix2 n j) (Fin.natAdd 128 k)) = mem (ix2 n k) := fun k => by
    unfold val_main_v0
    exact concatenate_pair_apply_right (t := S100000x192) (s₁ := S100000x128) (s₂ := S100000x64) (1 : Fin 2) e mem _
      (lidx_main_v1 (ix2 n j) (Fin.natAdd 128 k)) rfl rfl (ix2 n k)
      (fun b hb => by
        match b, hb with
        | ⟨0, _⟩, _ => rfl
        | ⟨1, _⟩, hb => exact absurd (Fin.ext rfl) hb)
      (by show k.val + 128 = 128 + k.val; omega)
  have hwL : ∀ k : Fin 128, ridx_main_v1 (ix2 n j) (Fin.castAdd 64 k) = ix2 (⟨k.val, by omega⟩ : Fin 192) j := fun k =>
    funext fun a => Fin.ext (by match a with | ⟨0, _⟩ => rfl | ⟨1, _⟩ => rfl)
  have hwR : ∀ k : Fin 64, ridx_main_v1 (ix2 n j) (Fin.natAdd 128 k) = ix2 (⟨128 + k.val, by omega⟩ : Fin 192) j := fun k =>
    funext fun a => Fin.ext (by match a with | ⟨0, _⟩ => rfl | ⟨1, _⟩ => rfl)
  refine (Fin.sum_univ_add (a := 128) (b := 64)
    (fun k => val_main_v0 (F := Ideal) e mem (lidx_main_v1 (ix2 n j) k) * w1 (ridx_main_v1 (ix2 n j) k))).trans ?_
  simp only [hL, hR, hwL, hwR]

/-- The reference's hidden layer at row `n`, unit `j`: the joined row against column `j` of the first weights, plus the
    bias (broadcast over the rows), rectified against the zero word. -/
private theorem hidden_read (e : (⟨S100000x128, .f32⟩ : BufTy).Contents (Elt Ideal)) (mem : (⟨S100000x64, .f32⟩ : BufTy).Contents (Elt Ideal)) (w1 : (⟨S192x128, .f32⟩ : BufTy).Contents (Elt Ideal)) (b1 : (⟨S128, .f32⟩ : BufTy).Contents (Elt Ideal)) (n : Fin 100000) (j : Fin 128) :
    val_main_v5 (F := Ideal) e mem w1 b1 (ix2 n j) = hidC e mem w1 b1 n j := by
  rw [val_main_v5_apply, val_main_v4_apply, val_main_v1_apply, val_main_v3_apply, val_main_v2_apply, val_main_call0_v0_apply,
    val_main_call0_cst_apply, joined_sum e mem w1 n j]
  have hb : idx_main_v2 (idx_main_v3 (ix2 n j)) = ix1 j := funext fun a => Fin.ext (by match a with | ⟨0, _⟩ => rfl)
  rw [hb]
  rfl

/-- The first round's class update. -/
theorem ref_upd0 : (val_main_v9 (F := Ideal) x0 x1 x2 x3 x4 x5) = classUpd x0 x1 x2 x3 x4 x5 := by
  funext i
  obtain ⟨n, j, rfl⟩ : ∃ (n : Fin 100000) (j : Fin 128), i = ix2 n j := ⟨i 0, i 1, eq_ix2 i⟩
  rw [val_main_v9_apply, val_main_v6_apply, val_main_v8_apply, val_main_v7_apply]
  have hl : ∀ k : Fin 128, lidx_main_v6 (ix2 n j) k = ix2 n k := fun k =>
    funext fun a => Fin.ext (by match a with | ⟨0, _⟩ => rfl | ⟨1, _⟩ => rfl)
  have hr : ∀ k : Fin 128, ridx_main_v6 (ix2 n j) k = ix2 k j := fun k =>
    funext fun a => Fin.ext (by match a with | ⟨0, _⟩ => rfl | ⟨1, _⟩ => rfl)
  have hb : idx_main_v7 (idx_main_v8 (ix2 n j)) = ix1 j := funext fun a => Fin.ext (by match a with | ⟨0, _⟩ => rfl)
  simp only [hl, hr, hb, hidden_read]
  rfl

/-- The first round's normalised table: of (first update + first messages). -/
theorem ref_norm0 : (val_main_v65 (F := Ideal) x0 x1 x2 x3 x4 x5 x6 x7 x8 x9 x10 x11 x12 x13) = l2n (addT (val_main_v9 (F := Ideal) x0 x1 x2 x3 x4 x5) (val_main_v56 (F := Ideal) x0 x1 x2 x3 x4 x5 x6 x7 x8 x9 x10 x11 x12 x13)) := by
  funext i
  obtain ⟨n, j, rfl⟩ : ∃ (n : Fin 100000) (j : Fin 128), i = ix2 n j := ⟨i 0, i 1, eq_ix2 i⟩
  rw [val_main_v65_apply, val_main_v64_apply, val_main_v63_apply, val_main_v61_apply, val_main_v60_apply,
    val_main_v59_apply, val_main_v62_apply, val_main_cst_7_apply, val_main_cst_8_apply]
  -- the reduction at row n runs over that row's 128 columns; it starts from the zero word, which adds nothing
  have hidx : ∀ k : Fin 128, idx_main_v59 (idx_main_v60 (idx_main_v64 (ix2 n j))) k = ix2 n k := fun k =>
    funext fun a => Fin.ext (by match a with | ⟨0, _⟩ => rfl | ⟨1, _⟩ => rfl)
  simp only [hidx, val_main_v58_apply, val_main_v57_apply, Ideal.hostDivf_def, Ideal.maximumf_def, Ideal.hostUnary_sqrt_def,
    Ideal.mulf_def, Ideal.addf_def, Ideal.ofBits_def, Ideal.ofBits_zero_f32, zero_add]
  generalize val_main_v9 (F := Ideal) x0 x1 x2 x3 x4 x5 = a
  generalize val_main_v56 (F := Ideal) x0 x1 x2 x3 x4 x5 x6 x7 x8 x9 x10 x11 x12 x13 = b
  rfl

/-- The second round's perceptron is the first round's, operation for operation, on the normalised table. -/
private theorem upd1_is_upd0 : (val_main_v75 (F := Ideal) x0 x1 x2 x3 x4 x5 x6 x7 x8 x9 x10 x11 x12 x13)
    = val_main_v9 (F := Ideal) (val_main_v65 (F := Ideal) x0 x1 x2 x3 x4 x5 x6 x7 x8 x9 x10 x11 x12 x13) x1 x2 x3 x4 x5 := by
  -- both sides are the same ten operations with the same weights and biases; only the first operand differs
  unfold val_main_v75 val_main_v72 val_main_v74 val_main_v73 val_main_v71 val_main_v70 val_main_v67 val_main_v69 val_main_v68
    val_main_v66 val_main_call2_v0 val_main_call2_cst
  unfold val_main_v9 val_main_v6 val_main_v8 val_main_v7 val_main_v5 val_main_v4 val_main_v1 val_main_v3 val_main_v2
    val_main_v0 val_main_call0_v0 val_main_call0_cst
  generalize val_main_v65 (F := Ideal) x0 x1 x2 x3 x4 x5 x6 x7 x8 x9 x10 x11 x12 x13 = y
  rfl

/-- The second round's class update: of the first round's normalised table. -/
theorem ref_upd1 : (val_main_v75 (F := Ideal) x0 x1 x2 x3 x4 x5 x6 x7 x8 x9 x10 x11 x12 x13) = classUpd (val_main_v65 (F := Ideal) x0 x1 x2 x3 x4 x5 x6 x7 x8 x9 x10 x11 x12 x13) x1 x2 x3 x4 x5 := by
  rw [upd1_is_upd0]
  exact ref_upd0 _ x1 x2 x3 x4 x5

/-- The reference's result: the normalised (second update + second messages). -/
theorem ref_out : (val_main_v131 (F := Ideal) x0 x1 x2 x3 x4 x5 x6 x7 x8 x9 x10 x11 x12 x13) = l2n (addT (val_main_v75 (F := Ideal) x0 x1 x2 x3 x4 x5 x6 x7 x8 x9 x10 x11 x12 x13) (val_main_v122 (F := Ideal) x0 x1 x2 x3 x4 x5 x6 x7 x8 x9 x10 x11 x12 x13)) := by
  funext i
  obtain ⟨n, j, rfl⟩ : ∃ (n : Fin 100000) (j : Fin 128), i = ix2 n j := ⟨i 0, i 1, eq_ix2 i⟩
  rw [val_main_v131_apply, val_main_v130_apply, val_main_v129_apply, val_main_v127_apply, val_main_v126_apply,
    val_main_v125_apply, val_main_v128_apply, val_main_cst_18_apply, val_main_cst_19_apply]
  -- the reduction at row n runs over that row's 128 columns; it starts from the zero word, which adds nothing
  have hidx : ∀ k : Fin 128, idx_main_v125 (idx_main_v126 (idx_main_v130 (ix2 n j))) k = ix2 n k := fun k =>
    funext fun a => Fin.ext (by match a with | ⟨0, _⟩ => rfl | ⟨1, _⟩ => rfl)
  simp only [hidx, val_main_v124_apply, val_main_v123_apply, Ideal.hostDivf_def, Ideal.maximumf_def, Ideal.hostUnary_sqrt_def,
    Ideal.mulf_def, Ideal.addf_def, Ideal.ofBits_def, Ideal.ofBits_zero_f32, zero_add]
  generalize val_main_v75 (F := Ideal) x0 x1 x2 x3 x4 x5 x6 x7 x8 x9 x10 x11 x12 x13 = a
  generalize val_main_v122 (F := Ideal) x0 x1 x2 x3 x4 x5 x6 x7 x8 x9 x10 x11 x12 x13 = b
  rfl

end Cert.Bridge.RefClass

end
-- ==== Proof.RefRel.lean ====
/-
  The reference's relation stage, read as the specification's functions.
  It reads the subject's and the object's updated rows at the (wrapped) indices — a gather whose start index is read
  signed and clamped into the table —, joins the two rows into 256 entries against the layer's whole 256-row weight
  matrix (a sum over 256 joined entries is the subject's 128 plus the object's 128), and applies the two output heads.
  Its scatter-add of the heads' outputs is spelt with the same operations as the program's and is only re-named.
-/
import proofs.«406575_j23888608101388_2_alg».proof.Proof.RefStages
import proofs.«406575_j23888608101388_2_alg».proof.Proof.Spec
import proofs.«406575_j23888608101388_2_alg».proof.Proof.KTerms
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.RefRel

open Cert.ReferenceIdeal Cert.ReferenceIdeal.Gen Cert.ReferenceIdeal.Read Cert.Bridge
open Idealize.ShloMosaic Idealize.ShloMosaic.ValueIdx

/-- The start-indices entry the gather reads for result index (l, t, d): the index array's entry (l, t), on the trailing
    unit axis. -/
private theorem gather_si (l : Fin 16) (t : Fin 25000) (d : Fin 128)
    (c : Fin gather_S100000x128_S16x25000x1_S16x25000x128_2_0_n_n_0_2_1128.startIndexMap.length) :
    gather_S100000x128_S16x25000x1_S16x25000x128_2_0_n_n_0_2_1128.siIdx (ix3 l t d) c = ix3 l t (0 : Fin 1) := by
  funext b; refine Fin.ext ?_
  match b with
  | ⟨0, _⟩ => rfl
  | ⟨1, _⟩ => rfl
  | ⟨2, _⟩ =>
    show c.val = 0
    have := c.isLt
    have h1 : gather_S100000x128_S16x25000x1_S16x25000x128_2_0_n_n_0_2_1128.startIndexMap.length = 1 := rfl
    omega

/-- The gather of rows: with one start index per (l, t), collapsed row axis and a whole row as the slice, entry (l, t, d)
    is the table at the row the start index names (read signed, clamped into the table) and column d. -/
private theorem gather_rows (u : (⟨S100000x128, .f32⟩ : BufTy).Contents (Elt Ideal))
    (w : (⟨S16x25000, .i32⟩ : BufTy).Contents (Elt Ideal)) :
    Host.gather gather_S100000x128_S16x25000x1_S16x25000x128_2_0_n_n_0_2_1128 u
      (broadcastInDim S16x25000x1 ![0, 1] bcast_S16x25000_S16x25000x1_0_1 w) = rows u w := by
  funext i
  obtain ⟨l, t, d, rfl⟩ : ∃ (l : Fin 16) (t : Fin 25000) (d : Fin 128), i = ix3 l t d := ⟨i 0, i 1, i 2, eq_ix3 i⟩
  unfold Host.gather rows
  refine congrArg u (funext fun a => Fin.ext ?_)
  match a with
  | ⟨0, _⟩ =>
    show gather_S100000x128_S16x25000x1_S16x25000x128_2_0_n_n_0_2_1128.start (ix3 l t d) _ 0
        + gather_S100000x128_S16x25000x1_S16x25000x128_2_0_n_n_0_2_1128.batchCoord (ix3 l t d) 0
        + gather_S100000x128_S16x25000x1_S16x25000x128_2_0_n_n_0_2_1128.offCoord (ix3 l t d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S100000x128.rank) ∈ gather_S100000x128_S16x25000x1_S16x25000x128_2_0_n_n_0_2_1128.startIndexMap from List.mem_singleton.mpr rfl)]
    rw [gather_si]
    have hb : broadcastInDim S16x25000x1 ![0, 1] bcast_S16x25000_S16x25000x1_0_1 w (ix3 l t (0 : Fin 1)) = w (ix2 l t) :=
      broadcastInDim_apply _ bcast_S16x25000_S16x25000x1_0_1 w _ _ (fun a => match a with
        | ⟨0, _⟩ => by show l.val = if (16 : Nat) = 1 then 0 else l.val; rw [if_neg (by decide)]
        | ⟨1, _⟩ => by show t.val = if (25000 : Nat) = 1 then 0 else t.val; rw [if_neg (by decide)])
    exact congrArg (fun z : BitVec 32 => min z.toInt.toNat 99999) hb
  | ⟨1, _⟩ =>
    show gather_S100000x128_S16x25000x1_S16x25000x128_2_0_n_n_0_2_1128.start (ix3 l t d) _ 1
        + gather_S100000x128_S16x25000x1_S16x25000x128_2_0_n_n_0_2_1128.batchCoord (ix3 l t d) 1
        + gather_S100000x128_S16x25000x1_S16x25000x128_2_0_n_n_0_2_1128.offCoord (ix3 l t d) 1 = d.val
    rw [GatherDims.batchCoord_eq_zero _ _ _ List.not_mem_nil]
    unfold GatherDims.start
    rw [dif_neg (show ¬ (1 : Fin S100000x128.rank) ∈ gather_S100000x128_S16x25000x1_S16x25000x128_2_0_n_n_0_2_1128.startIndexMap by decide)]
    unfold GatherDims.offCoord
    rw [dif_pos (show (1 : Fin S100000x128.rank) ∈ gather_S100000x128_S16x25000x1_S16x25000x128_2_0_n_n_0_2_1128.sKept by decide)]
    simp only [Nat.zero_add, Nat.add_zero]
    rfl

/-- A sum over the 256 joined entries (the subject's 128 rows followed by the object's 128) against a layer's 256-row weight
    matrix is the sum over the subject's entries against the first 128 rows plus the sum over the object's against the last
    128: the joined axis splits as 128 + 128, and the join reads its first piece below 128 and its second from 128 on. -/
private theorem sum_joined (A B : (⟨S16x25000x128, .f32⟩ : BufTy).Contents (Elt Ideal))
    (W : (⟨S16x256x128, .f32⟩ : BufTy).Contents (Elt Ideal)) (l : Fin 16) (t : Fin 25000) (j : Fin 128) :
    (∑ k : Fin 256, concatenate S16x25000x256 2 [⟨S16x25000x128, A⟩, ⟨S16x25000x128, B⟩]
        concatenates_S16x25000x128_S16x25000x128_S16x25000x256_d2 (ix3 l t k) * W (ix3 l k j))
      = (∑ k : Fin 128, A (ix3 l t k) * W (ix3 l (⟨k.val, by omega⟩ : Fin 256) j))
        + ∑ k : Fin 128, B (ix3 l t k) * W (ix3 l (⟨128 + k.val, by omega⟩ : Fin 256) j) := by
  refine (Fin.sum_univ_add (a := 128) (b := 128) (fun k : Fin (128 + 128) =>
      concatenate S16x25000x256 2 [⟨S16x25000x128, A⟩, ⟨S16x25000x128, B⟩]
        concatenates_S16x25000x128_S16x25000x128_S16x25000x256_d2 (ix3 l t (k : Fin 256)) * W (ix3 l (k : Fin 256) j))).trans ?_
  refine congrArg₂ (· + ·) (Finset.sum_congr rfl fun k _ => ?_) (Finset.sum_congr rfl fun k _ => ?_)
  · refine congrArg₂ (· * ·) ?_ ?_
    · exact concatenate_pair_apply_left (2 : Fin S16x25000x256.rank) A B
        concatenates_S16x25000x128_S16x25000x128_S16x25000x256_d2 _ rfl (ix3 l t k) (fun b => by
          match b with
          | ⟨0, _⟩ => rfl
          | ⟨1, _⟩ => rfl
          | ⟨2, _⟩ => rfl)
    · exact congrArg W (funext fun a => Fin.ext (by
        match a with
        | ⟨0, _⟩ => rfl
        | ⟨1, _⟩ => rfl
        | ⟨2, _⟩ => rfl))
  · refine congrArg₂ (· * ·) ?_ ?_
    · exact concatenate_pair_apply_right (2 : Fin S16x25000x256.rank) A B
        concatenates_S16x25000x128_S16x25000x128_S16x25000x256_d2 _ rfl rfl (ix3 l t k) (fun b hb => by
          match b with
          | ⟨0, _⟩ => rfl
          | ⟨1, _⟩ => rfl
          | ⟨2, _⟩ => exact absurd rfl hb) (by
          show k.val + 128 = 128 + k.val
          omega)
    · exact congrArg W (funext fun a => Fin.ext (by
        match a with
        | ⟨0, _⟩ => rfl
        | ⟨1, _⟩ => rfl
        | ⟨2, _⟩ => rfl))

/-- The two scatter-adds as the reference spells them are the program's accumulation: the same operations on the same
    operands, in the same order (flatten the index array, move a negative index up by the table's height, make it a
    column, add the flattened head outputs into the rows it names — first the subject head into a zero table, then the
    object head into the result). -/
private theorem acc_spelling (s o : (⟨S16x25000, .i32⟩ : BufTy).Contents (Elt Ideal))
    (us uo : (⟨S16x25000x128, .f32⟩ : BufTy).Contents (Elt Ideal)) :
    Host.scatterAdd (F := Ideal) (φ := .f32) scatter_S100000x128_S400000x1_S400000x128_1_0_0_1
      (Host.scatterAdd (F := Ideal) (φ := .f32) scatter_S100000x128_S400000x1_S400000x128_1_0_0_1
        (broadcastInDim S100000x128 ![] bcast_S_S100000x128 (constant (F := Ideal) S_ .f32 0x00000000#32))
        (broadcastInDim S400000x1 ![0] bcast_S400000_S400000x1_0
          (select (cmpi .slt (shapeCast _ s shapeCasts_S16x25000_S400000) (broadcastInDim S400000 ![] bcast_S_S400000 (constantI S_ 32 0#32)))
            (addi (shapeCast _ s shapeCasts_S16x25000_S400000) (broadcastInDim S400000 ![] bcast_S_S400000 (constantI S_ 32 100000#32)))
            (shapeCast _ s shapeCasts_S16x25000_S400000)))
        (shapeCast _ us shapeCasts_S16x25000x128_S400000x128))
      (broadcastInDim S400000x1 ![0] bcast_S400000_S400000x1_0
        (select (cmpi .slt (shapeCast _ o shapeCasts_S16x25000_S400000) (broadcastInDim S400000 ![] bcast_S_S400000 (constantI S_ 32 0#32)))
          (addi (shapeCast _ o shapeCasts_S16x25000_S400000) (broadcastInDim S400000 ![] bcast_S_S400000 (constantI S_ 32 100000#32)))
          (shapeCast _ o shapeCasts_S16x25000_S400000)))
      (shapeCast _ uo shapeCasts_S16x25000x128_S400000x128)
    = KT.acc s o us uo := by
  unfold KT.acc KT.col KT.wrapF KT.flat KT.flatU KT.zeros
  rfl

-- The reference's fourteen arguments, as arrays of extended reals and of 32-bit words.
variable (x0 : (⟨S100000x128, .f32⟩ : BufTy).Contents (Elt Ideal))
  (x1 : (⟨S100000x64, .f32⟩ : BufTy).Contents (Elt Ideal))
  (x2 : (⟨S192x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S16x256x128, .f32⟩ : BufTy).Contents (Elt Ideal))
  (x7 : (⟨S16x128, .f32⟩ : BufTy).Contents (Elt Ideal))
  (x8 : (⟨S16x128x128, .f32⟩ : BufTy).Contents (Elt Ideal))
  (x9 : (⟨S16x128, .f32⟩ : BufTy).Contents (Elt Ideal))
  (x10 : (⟨S16x128x128, .f32⟩ : BufTy).Contents (Elt Ideal))
  (x11 : (⟨S16x128, .f32⟩ : BufTy).Contents (Elt Ideal))
  (x12 : (⟨S16x25000, .i32⟩ : BufTy).Contents (Elt Ideal))
  (x13 : (⟨S16x25000, .i32⟩ : BufTy).Contents (Elt Ideal))

/-- First round: the subjects' rows of the update, at the wrapped subject indices. -/
theorem ref_es0 : (val_main_v16 (F := Ideal) x0 x1 x2 x3 x4 x5 x12) = rows (val_main_v9 (F := Ideal) x0 x1 x2 x3 x4 x5) (val_main_v14 (F := Ideal) x12) := by
  unfold val_main_v16 val_main_v15
  exact gather_rows _ _
/-- First round: the objects' rows. -/
theorem ref_eo0 : (val_main_v23 (F := Ideal) x0 x1 x2 x3 x4 x5 x13) = rows (val_main_v9 (F := Ideal) x0 x1 x2 x3 x4 x5) (val_main_v21 (F := Ideal) x13) := by
  unfold val_main_v23 val_main_v22
  exact gather_rows _ _
/-- First round: the hidden layer of the relation perceptron at (l, t, j), the joined sum split into its subject and object halves. -/
private theorem hid0 (l : Fin 16) (t : Fin 25000) (j : Fin 128) :
    val_main_v29 (F := Ideal) x0 x1 x2 x3 x4 x5 x6 x7 x12 x13 (ix3 l t j)
      = hidR (val_main_v16 (F := Ideal) x0 x1 x2 x3 x4 x5 x12) (val_main_v23 (F := Ideal) x0 x1 x2 x3 x4 x5 x13) x6 x7 l t j := by
  have el : ∀ k : Fin 256, lidx_main_v25 (ix3 l t j) k = ix3 l t k := fun k => funext fun a => Fin.ext (by
      match a with
      | ⟨0, _⟩ => rfl
      | ⟨1, _⟩ => rfl
      | ⟨2, _⟩ => rfl)
  have er : ∀ k : Fin 256, ridx_main_v25 (ix3 l t j) k = ix3 l k j := fun k => funext fun a => Fin.ext (by
      match a with
      | ⟨0, _⟩ => rfl
      | ⟨1, _⟩ => rfl
      | ⟨2, _⟩ => rfl)
  have eb : idx_main_v26 (idx_main_v27 (ix3 l t j)) = ix2 l j := funext fun a => Fin.ext (by
      match a with
      | ⟨0, _⟩ => rfl
      | ⟨1, _⟩ => rfl)
  rw [val_main_v29_apply, val_main_v28_apply, val_main_v25_apply, val_main_v27_apply, val_main_v26_apply,
    val_main_call1_v0_apply, val_main_call1_cst_apply]
  unfold val_main_v24 hidR
  simp only [el, er, eb]
  rw [sum_joined]
  rfl

/-- First round: the subject head. -/
theorem ref_us0 : (val_main_v33 (F := Ideal) x0 x1 x2 x3 x4 x5 x6 x7 x8 x9 x12 x13) = outR (val_main_v16 (F := Ideal) x0 x1 x2 x3 x4 x5 x12) (val_main_v23 (F := Ideal) x0 x1 x2 x3 x4 x5 x13) x6 x7 x8 x9 := by
  funext i
  obtain ⟨l, t, d, rfl⟩ : ∃ (l : Fin 16) (t : Fin 25000) (d : Fin 128), i = ix3 l t d := ⟨i 0, i 1, i 2, eq_ix3 i⟩
  have el : ∀ k : Fin 128, lidx_main_v30 (ix3 l t d) k = ix3 l t k := fun k => funext fun a => Fin.ext (by
      match a with
      | ⟨0, _⟩ => rfl
      | ⟨1, _⟩ => rfl
      | ⟨2, _⟩ => rfl)
  have er : ∀ k : Fin 128, ridx_main_v30 (ix3 l t d) k = ix3 l k d := fun k => funext fun a => Fin.ext (by
      match a with
      | ⟨0, _⟩ => rfl
      | ⟨1, _⟩ => rfl
      | ⟨2, _⟩ => rfl)
  have eb : idx_main_v31 (idx_main_v32 (ix3 l t d)) = ix2 l d := funext fun a => Fin.ext (by
      match a with
      | ⟨0, _⟩ => rfl
      | ⟨1, _⟩ => rfl)
  rw [val_main_v33_apply, val_main_v30_apply, val_main_v32_apply, val_main_v31_apply]
  unfold outR
  simp only [el, er, eb, hid0]
  rfl
/-- First round: the object head. -/
theorem ref_uo0 : (val_main_v37 (F := Ideal) x0 x1 x2 x3 x4 x5 x6 x7 x10 x11 x12 x13) = outR (val_main_v16 (F := Ideal) x0 x1 x2 x3 x4 x5 x12) (val_main_v23 (F := Ideal) x0 x1 x2 x3 x4 x5 x13) x6 x7 x10 x11 := by
  funext i
  obtain ⟨l, t, d, rfl⟩ : ∃ (l : Fin 16) (t : Fin 25000) (d : Fin 128), i = ix3 l t d := ⟨i 0, i 1, i 2, eq_ix3 i⟩
  have el : ∀ k : Fin 128, lidx_main_v34 (ix3 l t d) k = ix3 l t k := fun k => funext fun a => Fin.ext (by
      match a with
      | ⟨0, _⟩ => rfl
      | ⟨1, _⟩ => rfl
      | ⟨2, _⟩ => rfl)
  have er : ∀ k : Fin 128, ridx_main_v34 (ix3 l t d) k = ix3 l k d := fun k => funext fun a => Fin.ext (by
      match a with
      | ⟨0, _⟩ => rfl
      | ⟨1, _⟩ => rfl
      | ⟨2, _⟩ => rfl)
  have eb : idx_main_v35 (idx_main_v36 (ix3 l t d)) = ix2 l d := funext fun a => Fin.ext (by
      match a with
      | ⟨0, _⟩ => rfl
      | ⟨1, _⟩ => rfl)
  rw [val_main_v37_apply, val_main_v34_apply, val_main_v36_apply, val_main_v35_apply]
  unfold outR
  simp only [el, er, eb, hid0]
  rfl
/-- First round: the accumulated messages, the program's own spelling of the two scatter-adds. -/
theorem ref_acc0 : (val_main_v56 (F := Ideal) x0 x1 x2 x3 x4 x5 x6 x7 x8 x9 x10 x11 x12 x13) = KT.acc x12 x13 (val_main_v33 (F := Ideal) x0 x1 x2 x3 x4 x5 x6 x7 x8 x9 x12 x13) (val_main_v37 (F := Ideal) x0 x1 x2 x3 x4 x5 x6 x7 x10 x11 x12 x13) := by
  unfold val_main_v56 val_main_v55 val_main_v54 val_main_v53 val_main_v52 val_main_c_6 val_main_v51 val_main_v50 val_main_c_5 val_main_v49 val_main_v48 val_main_v47 val_main_v46 val_main_v45 val_main_v44 val_main_v43 val_main_c_4 val_main_v42 val_main_v41 val_main_c_3 val_main_v40 val_main_v39 val_main_v38 val_main_cst
  exact acc_spelling _ _ _ _

/-- Second round: the subjects' rows of the second update. -/
theorem ref_es1 : (val_main_v82 (F := Ideal) x0 x1 x2 x3 x4 x5 x6 x7 x8 x9 x10 x11 x12 x13) = rows (val_main_v75 (F := Ideal) x0 x1 x2 x3 x4 x5 x6 x7 x8 x9 x10 x11 x12 x13) (val_main_v80 (F := Ideal) x12) := by
  unfold val_main_v82 val_main_v81
  exact gather_rows _ _
/-- Second round: the objects' rows. -/
theorem ref_eo1 : (val_main_v89 (F := Ideal) x0 x1 x2 x3 x4 x5 x6 x7 x8 x9 x10 x11 x12 x13) = rows (val_main_v75 (F := Ideal) x0 x1 x2 x3 x4 x5 x6 x7 x8 x9 x10 x11 x12 x13) (val_main_v87 (F := Ideal) x13) := by
  unfold val_main_v89 val_main_v88
  exact gather_rows _ _
/-- Second round: the hidden layer of the relation perceptron at (l, t, j). -/
private theorem hid1 (l : Fin 16) (t : Fin 25000) (j : Fin 128) :
    val_main_v95 (F := Ideal) x0 x1 x2 x3 x4 x5 x6 x7 x8 x9 x10 x11 x12 x13 (ix3 l t j)
      = hidR (val_main_v82 (F := Ideal) x0 x1 x2 x3 x4 x5 x6 x7 x8 x9 x10 x11 x12 x13) (val_main_v89 (F := Ideal) x0 x1 x2 x3 x4 x5 x6 x7 x8 x9 x10 x11 x12 x13) x6 x7 l t j := by
  have el : ∀ k : Fin 256, lidx_main_v91 (ix3 l t j) k = ix3 l t k := fun k => funext fun a => Fin.ext (by
      match a with
      | ⟨0, _⟩ => rfl
      | ⟨1, _⟩ => rfl
      | ⟨2, _⟩ => rfl)
  have er : ∀ k : Fin 256, ridx_main_v91 (ix3 l t j) k = ix3 l k j := fun k => funext fun a => Fin.ext (by
      match a with
      | ⟨0, _⟩ => rfl
      | ⟨1, _⟩ => rfl
      | ⟨2, _⟩ => rfl)
  have eb : idx_main_v92 (idx_main_v93 (ix3 l t j)) = ix2 l j := funext fun a => Fin.ext (by
      match a with
      | ⟨0, _⟩ => rfl
      | ⟨1, _⟩ => rfl)
  rw [val_main_v95_apply, val_main_v94_apply, val_main_v91_apply, val_main_v93_apply, val_main_v92_apply,
    val_main_call3_v0_apply, val_main_call3_cst_apply]
  unfold val_main_v90 hidR
  simp only [el, er, eb]
  rw [sum_joined]
  rfl

/-- Second round: the subject head. -/
theorem ref_us1 : (val_main_v99 (F := Ideal) x0 x1 x2 x3 x4 x5 x6 x7 x8 x9 x10 x11 x12 x13) = outR (val_main_v82 (F := Ideal) x0 x1 x2 x3 x4 x5 x6 x7 x8 x9 x10 x11 x12 x13) (val_main_v89 (F := Ideal) x0 x1 x2 x3 x4 x5 x6 x7 x8 x9 x10 x11 x12 x13) x6 x7 x8 x9 := by
  funext i
  obtain ⟨l, t, d, rfl⟩ : ∃ (l : Fin 16) (t : Fin 25000) (d : Fin 128), i = ix3 l t d := ⟨i 0, i 1, i 2, eq_ix3 i⟩
  have el : ∀ k : Fin 128, lidx_main_v96 (ix3 l t d) k = ix3 l t k := fun k => funext fun a => Fin.ext (by
      match a with
      | ⟨0, _⟩ => rfl
      | ⟨1, _⟩ => rfl
      | ⟨2, _⟩ => rfl)
  have er : ∀ k : Fin 128, ridx_main_v96 (ix3 l t d) k = ix3 l k d := fun k => funext fun a => Fin.ext (by
      match a with
      | ⟨0, _⟩ => rfl
      | ⟨1, _⟩ => rfl
      | ⟨2, _⟩ => rfl)
  have eb : idx_main_v97 (idx_main_v98 (ix3 l t d)) = ix2 l d := funext fun a => Fin.ext (by
      match a with
      | ⟨0, _⟩ => rfl
      | ⟨1, _⟩ => rfl)
  rw [val_main_v99_apply, val_main_v96_apply, val_main_v98_apply, val_main_v97_apply]
  unfold outR
  simp only [el, er, eb, hid1]
  rfl
/-- Second round: the object head. -/
theorem ref_uo1 : (val_main_v103 (F := Ideal) x0 x1 x2 x3 x4 x5 x6 x7 x8 x9 x10 x11 x12 x13) = outR (val_main_v82 (F := Ideal) x0 x1 x2 x3 x4 x5 x6 x7 x8 x9 x10 x11 x12 x13) (val_main_v89 (F := Ideal) x0 x1 x2 x3 x4 x5 x6 x7 x8 x9 x10 x11 x12 x13) x6 x7 x10 x11 := by
  funext i
  obtain ⟨l, t, d, rfl⟩ : ∃ (l : Fin 16) (t : Fin 25000) (d : Fin 128), i = ix3 l t d := ⟨i 0, i 1, i 2, eq_ix3 i⟩
  have el : ∀ k : Fin 128, lidx_main_v100 (ix3 l t d) k = ix3 l t k := fun k => funext fun a => Fin.ext (by
      match a with
      | ⟨0, _⟩ => rfl
      | ⟨1, _⟩ => rfl
      | ⟨2, _⟩ => rfl)
  have er : ∀ k : Fin 128, ridx_main_v100 (ix3 l t d) k = ix3 l k d := fun k => funext fun a => Fin.ext (by
      match a with
      | ⟨0, _⟩ => rfl
      | ⟨1, _⟩ => rfl
      | ⟨2, _⟩ => rfl)
  have eb : idx_main_v101 (idx_main_v102 (ix3 l t d)) = ix2 l d := funext fun a => Fin.ext (by
      match a with
      | ⟨0, _⟩ => rfl
      | ⟨1, _⟩ => rfl)
  rw [val_main_v103_apply, val_main_v100_apply, val_main_v102_apply, val_main_v101_apply]
  unfold outR
  simp only [el, er, eb, hid1]
  rfl
/-- Second round: the accumulated messages. -/
theorem ref_acc1 : (val_main_v122 (F := Ideal) x0 x1 x2 x3 x4 x5 x6 x7 x8 x9 x10 x11 x12 x13) = KT.acc x12 x13 (val_main_v99 (F := Ideal) x0 x1 x2 x3 x4 x5 x6 x7 x8 x9 x10 x11 x12 x13) (val_main_v103 (F := Ideal) x0 x1 x2 x3 x4 x5 x6 x7 x8 x9 x10 x11 x12 x13) := by
  unfold val_main_v122 val_main_v121 val_main_v120 val_main_v119 val_main_v118 val_main_c_17 val_main_v117 val_main_v116 val_main_c_16 val_main_v115 val_main_v114 val_main_v113 val_main_v112 val_main_v111 val_main_v110 val_main_v109 val_main_c_15 val_main_v108 val_main_v107 val_main_c_14 val_main_v106 val_main_v105 val_main_v104 val_main_cst_13
  exact acc_spelling _ _ _ _

end Cert.Bridge.RefRel

end
-- ==== Proof.Pre.lean ====
/-
  What the precondition says of the two index arrays, and what it buys.
  The precondition's last two conjuncts are "every subject index is at least 0" and "every object index is at least
  0" (each a signed comparison with a zero array, all-reduced by "and"). The reference, before it gathers, moves a
  negative index up by the table's height and keeps the others: on indices that are all at least 0 that step is the
  identity.
-/
import proofs.«406575_j23888608101388_2_alg».proof.Defs
import proofs.«406575_j23888608101388_2_alg».proof.Proof.Gen.Pre_finite_inputs
import proofs.«406575_j23888608101388_2_alg».proof.Proof.RefStages
import Idealize.ShloMosaic.Lib.ValueIdx
import Idealize.ShloMosaic.Lib.ReduceAll
import Idealize.ShloMosaic.Lib.StableHlo.Predicate

noncomputable section

namespace Cert.Bridge.Pre

open Idealize.ShloMosaic Idealize.ShloMosaic.TcCoe Idealize.ShloMosaic.ValueIdx Idealize.SL.Sem

/-- A word that is at least 0 (read signed) is not below the zero word: the signed "less than zero" bit is 0. -/
private theorem slt_zero_bit (w : BitVec 32) (h : 0 ≤ w.toInt) : IntOp.cmpi .slt w 0#32 = 0#1 := by
  rcases BitVec.eq_zero_or_eq_one (IntOp.cmpi .slt w 0#32) with h0 | h1
  · exact h0
  · have hlt := IntOp.cmpi_slt.1 h1
    rw [BitVec.toInt_zero] at hlt
    omega

/-- Under the program's precondition every subject index and every object index is at least 0 (read signed). -/
theorem nonneg_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, 0 ≤ (m ((c.tc : Thread Cert.KernelIdeal.nD Cert.KernelIdeal.τ).loc Cert.KernelIdeal.main_arg12) i).toInt)
    ∧ (∀ i, 0 ≤ (m ((c.tc : Thread Cert.KernelIdeal.nD Cert.KernelIdeal.τ).loc Cert.KernelIdeal.main_arg13) i).toInt) := by
  -- the precondition's scalar result has one index
  haveI : Subsingleton Cert.Pre_finite_inputs.S_.Idx := ⟨fun a b => funext fun d => d.elim0⟩
  have e := congrFun (hpre c) ValueIdx.ix0
  dsimp only [Cert.Pre_finite_inputs.fn, Cert.Pre_finite_inputs.fn_part1, Cert.Pre_finite_inputs.fn_part2,
    Cert.Pre_finite_inputs.fn_part3] at e
  -- the running conjunction ends "… and (all subject indices ≥ 0) and (all object indices ≥ 0)"
  obtain ⟨e', e13⟩ := IntOp.andi_eq_one.1 e
  obtain ⟨-, e12⟩ := IntOp.andi_eq_one.1 e'
  refine ⟨fun i => ?_, fun i => ?_⟩
  · have hge := IntOp.cmpi_sge.1 (Host.reduce_andi_all _ _ _ _ _ e12 i)
    change (0#32 : BitVec 32).toInt ≤ _ at hge
    rw [BitVec.toInt_zero] at hge
    exact hge
  · have hge := IntOp.cmpi_sge.1 (Host.reduce_andi_all _ _ _ _ _ e13 i)
    change (0#32 : BitVec 32).toInt ≤ _ at hge
    rw [BitVec.toInt_zero] at hge
    exact hge

open Cert.ReferenceIdeal Cert.ReferenceIdeal.Read in
/-- On indices that are all at least 0 the reference's wrap of the subject indices (first round) is the identity. -/
theorem wrap_v14 (x : (⟨S16x25000, .i32⟩ : BufTy).Contents (Elt Ideal)) (h : ∀ i, 0 ≤ (x i).toInt) :
    val_main_v14 (F := Ideal) x = x := by
  funext i
  rw [val_main_v14_apply, val_main_v11_apply, val_main_v10_apply, val_main_c_apply, slt_zero_bit _ (h i), select_zero]
open Cert.ReferenceIdeal Cert.ReferenceIdeal.Read in
/-- … of the object indices (first round) … -/
theorem wrap_v21 (x : (⟨S16x25000, .i32⟩ : BufTy).Contents (Elt Ideal)) (h : ∀ i, 0 ≤ (x i).toInt) :
    val_main_v21 (F := Ideal) x = x := by
  funext i
  rw [val_main_v21_apply, val_main_v18_apply, val_main_v17_apply, val_main_c_1_apply, slt_zero_bit _ (h i), select_zero]
open Cert.ReferenceIdeal Cert.ReferenceIdeal.Read in
/-- … of the subject indices (second round) … -/
theorem wrap_v80 (x : (⟨S16x25000, .i32⟩ : BufTy).Contents (Elt Ideal)) (h : ∀ i, 0 ≤ (x i).toInt) :
    val_main_v80 (F := Ideal) x = x := by
  funext i
  rw [val_main_v80_apply, val_main_v77_apply, val_main_v76_apply, val_main_c_9_apply, slt_zero_bit _ (h i), select_zero]
open Cert.ReferenceIdeal Cert.ReferenceIdeal.Read in
/-- … and of the object indices (second round). -/
theorem wrap_v87 (x : (⟨S16x25000, .i32⟩ : BufTy).Contents (Elt Ideal)) (h : ∀ i, 0 ≤ (x i).toInt) :
    val_main_v87 (F := Ideal) x = x := by
  funext i
  rw [val_main_v87_apply, val_main_v84_apply, val_main_v83_apply, val_main_c_11_apply, slt_zero_bit _ (h i), select_zero]

end Cert.Bridge.Pre

end
-- ==== Proof.Closed.lean ====
/-
  The one closed expression both programs are brought to, and the two reductions.

  With the host-side pieces read at an index (BridgeK) the program's value `KT.out` is: the row-normalised
  (second update + second messages), the second update being the class update of the row-normalised (first update +
  first messages), and a round's messages the scatter-added relation heads on the updated rows of each triple's
  subject and object. The reference's stages (RefClass, RefRel) compose to the same expression, except that it first
  moves a negative index up by the table's height before it reads a row; where every index is at least 0 that step is
  the identity (Pre), and the two expressions are one.
-/
import proofs.«406575_j23888608101388_2_alg».proof.Proof.KTerms
import proofs.«406575_j23888608101388_2_alg».proof.Proof.BridgeK
import proofs.«406575_j23888608101388_2_alg».proof.Proof.RefClass
import proofs.«406575_j23888608101388_2_alg».proof.Proof.RefRel
import proofs.«406575_j23888608101388_2_alg».proof.Proof.Pre

noncomputable section

namespace Cert.Bridge

open Idealize.ShloMosaic

section
variable (a0 : SND.Idx → EReal) (a1 : SNK.Idx → EReal) (a2 : SW1.Idx → EReal) (a3 : SV.Idx → EReal)
  (a4 : SW2.Idx → EReal) (a5 : SV.Idx → EReal) (a6 : SRW1.Idx → EReal) (a7 : SRB.Idx → EReal) (a8 : SRW.Idx → EReal)
  (a9 : SRB.Idx → EReal) (a10 : SRW.Idx → EReal) (a11 : SRB.Idx → EReal) (s o : IVec SLE 32)

/-- A round's messages from the update `u`: both relation heads on the subjects' and objects' rows of `u`, scatter-added. -/
def M (u : SND.Idx → EReal) : SND.Idx → EReal :=
  KT.acc s o (outR (rows u s) (rows u o) a6 a7 a8 a9) (outR (rows u s) (rows u o) a6 a7 a10 a11)
/-- The first round's class update. -/
def U0 : SND.Idx → EReal := classUpd a0 a1 a2 a3 a4 a5
/-- The second round's class update, of the normalised (first update + first messages). -/
def U1 : SND.Idx → EReal :=
  classUpd (l2n (addT (U0 a0 a1 a2 a3 a4 a5) (M a6 a7 a8 a9 a10 a11 s o (U0 a0 a1 a2 a3 a4 a5)))) a1 a2 a3 a4 a5
/-- The result: the normalised (second update + second messages). -/
def G : SND.Idx → EReal :=
  l2n (addT (U1 a0 a1 a2 a3 a4 a5 a6 a7 a8 a9 a10 a11 s o) (M a6 a7 a8 a9 a10 a11 s o (U1 a0 a1 a2 a3 a4 a5 a6 a7 a8 a9 a10 a11 s o)))

/-- The program's closed expression is `G`: its pieces read at an index are the specification's. -/
theorem kernel_closed : KT.out a0 a1 a2 a3 a4 a5 a6 a7 a8 a9 a10 a11 s o = G a0 a1 a2 a3 a4 a5 a6 a7 a8 a9 a10 a11 s o := by
  unfold KT.out KT.upd1 KT.upd0 KT.msgs G U1 U0 M
  simp only [BridgeK.cls_eq, BridgeK.rel_eq]

end

section
open Cert.ReferenceIdeal Cert.ReferenceIdeal.Read

variable (x0 : (⟨S100000x128, .f32⟩ : BufTy).Contents (Elt Ideal))
  (x1 : (⟨S100000x64, .f32⟩ : BufTy).Contents (Elt Ideal))
  (x2 : (⟨S192x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S16x256x128, .f32⟩ : BufTy).Contents (Elt Ideal))
  (x7 : (⟨S16x128, .f32⟩ : BufTy).Contents (Elt Ideal))
  (x8 : (⟨S16x128x128, .f32⟩ : BufTy).Contents (Elt Ideal))
  (x9 : (⟨S16x128, .f32⟩ : BufTy).Contents (Elt Ideal))
  (x10 : (⟨S16x128x128, .f32⟩ : BufTy).Contents (Elt Ideal))
  (x11 : (⟨S16x128, .f32⟩ : BufTy).Contents (Elt Ideal))
  (x12 : (⟨S16x25000, .i32⟩ : BufTy).Contents (Elt Ideal))
  (x13 : (⟨S16x25000, .i32⟩ : BufTy).Contents (Elt Ideal))

/-- The reference's composed stages are `G`, where every index is at least 0. -/
theorem ref_closed (h12 : ∀ i, 0 ≤ (x12 i).toInt) (h13 : ∀ i, 0 ≤ (x13 i).toInt) :
    (val_main_v131 (F := Ideal) x0 x1 x2 x3 x4 x5 x6 x7 x8 x9 x10 x11 x12 x13) = G x0 x1 x2 x3 x4 x5 x6 x7 x8 x9 x10 x11 x12 x13 := by
  rw [RefClass.ref_out, RefRel.ref_acc1, RefRel.ref_us1, RefRel.ref_uo1, RefRel.ref_es1, RefRel.ref_eo1,
    Pre.wrap_v80 x12 h12, Pre.wrap_v87 x13 h13, RefClass.ref_upd1, RefClass.ref_norm0, RefRel.ref_acc0, RefRel.ref_us0,
    RefRel.ref_uo0, RefRel.ref_es0, RefRel.ref_eo0, Pre.wrap_v14 x12 h12, Pre.wrap_v21 x13 h13, RefClass.ref_upd0]
  rfl

end

end Cert.Bridge

end
-- ==== Proof.lean ====
/-
  The certificate of a two-round relational message-passing network on the TPU against its jnp reference, over the
  extended reals.

  What both compute, on N = 100000 individuals with 128 features, K = 64 class memberships and 16 relation layers of
  25000 (subject, object) triples: a round (i) updates every row by a two-layer perceptron on the row joined with its
  memberships, (ii) for every triple runs a perceptron on the updated rows of its subject and object, with one output
  head each, (iii) adds every head's output into the row of its subject or object, and (iv) normalises each row of
  (update + accumulated messages) by its Euclidean length, floored at the f32 nearest 1e-12. Two rounds; the second
  starts from the first's normalised table.

  The program runs five launches: the class perceptron; the relation perceptron; the class perceptron fused with the
  normalisation before it; the relation perceptron again; the closing normalisation. Between them the host re-lays
  arrays, gathers rows and scatter-adds. It differs from the reference in three ways, none of which changes an
  extended real: it cuts each perceptron's first weight matrix in two and adds the two products (a sum over the joined
  row is the sum over its two parts); it narrows some operands to a shorter float format (the identity here); and it
  works block by block (each written block is a block of one function of the whole arrays, and the blocks tile the
  arrays). One difference does matter: before it gathers a row the reference moves a negative index up by the table's
  height and the program does not, so the two agree only where the indices are at least 0 — which is what the
  precondition's last two conjuncts say.

  The frames of the two kernels are the generated ones; the reference's frame is its run (read stretch by stretch, RefRun) with the result
  dropped; the idealization rewrote nothing. The value claim: the program's run ends with its result array at the
  fold through its segments (KernelRun), which is the closed expression `KT.out` of the arguments (Fold), which read
  index by index is the specification's `G` (Closed, over BridgeK and the launches' values ClassK, RelK, NormK); the
  reference's run ends at its composed stages, which are `G` too where the indices are at least 0 (Closed, over
  RefClass, RefRel and Pre).
-/
import proofs.«406575_j23888608101388_2_alg».proof.Defs
import proofs.«406575_j23888608101388_2_alg».proof.Proof.Gen.Kernel
import proofs.«406575_j23888608101388_2_alg».proof.Proof.Gen.Kernel.Frame
import proofs.«406575_j23888608101388_2_alg».proof.Proof.Gen.KernelIdeal
import proofs.«406575_j23888608101388_2_alg».proof.Proof.Gen.KernelIdeal.Frame
import proofs.«406575_j23888608101388_2_alg».proof.Proof.Gen.ReferenceIdeal
import proofs.«406575_j23888608101388_2_alg».proof.Proof.RefRun
import proofs.«406575_j23888608101388_2_alg».proof.Proof.Gen.Pre_finite_inputs
import proofs.«406575_j23888608101388_2_alg».proof.Proof.KernelRun
import proofs.«406575_j23888608101388_2_alg».proof.Proof.Fold
import proofs.«406575_j23888608101388_2_alg».proof.Proof.Closed
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.RunS.run (F := Ideal) m ρ)

/-- From memories that agree on the arguments, with every index at least 0, both runs end with the result `G` of the
    arguments. -/
theorem algebraic : Cert.algebraic_KernelIdeal_ReferenceIdeal := by
  intro m ρ m' ρ' hpre hagree
  refine ⟨fun c => Cert.Bridge.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans ((Cert.Bridge.Fold.out_closed m ρ c).trans (Cert.Bridge.kernel_closed _ _ _ _ _ _ _ _ _ _ _ _ _ _)), (h c).2⟩)
      (Cert.KernelIdeal.RunOut.run_out m ρ)
  · refine (θ_run Cert.ReferenceIdeal.defs _ _).mono (fun r h c => ⟨(h c).1.trans ?_, (h c).2⟩)
      (Cert.ReferenceIdeal.RunS.run (F := Ideal) m' ρ')
    obtain ⟨e0, e1, e2, e3, e4, e5, e6, e7, e8, e9, e10, e11, e12, e13⟩ := hagree c
    show Cert.ReferenceIdeal.Read.val_main_v131 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
    rw [e0, e1, e2, e3, e4, e5, e6, e7, e8, e9, e10, e11, e12, e13]
    exact Cert.Bridge.ref_closed _ _ _ _ _ _ _ _ _ _ _ _ _ _
      (Cert.Bridge.Pre.nonneg_of_pre m hpre c).1 (Cert.Bridge.Pre.nonneg_of_pre m hpre c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
